-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S8192 : Shape := ⟨1, ![8192]⟩
abbrev S1 : Shape := ⟨1, ![1]⟩
abbrev S100000x64 : Shape := ⟨2, ![100000, 64]⟩
abbrev S50000x64 : Shape := ⟨2, ![50000, 64]⟩
abbrev S4000000 : Shape := ⟨1, ![4000000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_
  bcast_S_S2048 : S_.BroadcastsInDim S2048 (![] : Fin 0 → Fin S2048.rank)
  reducesTo_S2048_S_d0 : S2048.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : IVec S2048 32) (main_arg2 : IVec S8192 32) (main_v30 : IVec S_ 1) (main_v32 : IVec S2048 1) (main_c_12 : IVec S_ 32) : IVec S_ 1 :=
  let main_v33 : IVec S2048 32 := broadcastInDim S2048 ![] bcast_S_S2048 main_c_12
  let main_v34 : IVec S2048 1 := cmpi .slt main_arg1 main_v33
  let main_v35 : IVec S2048 1 := andi main_v32 main_v34
  let main_c_13 : IVec S_ 1 := constantI S_ 1 1#1
  let main_v36 : IVec S_ 1 := (fun x v => Host.reduce IntOp.andi x v reducesTo_S2048_S_d0 h_S_) main_v35 main_c_13
  let main_v37 : IVec S_ 1 := andi main_v30 main_v36
  let main_c_14 : IVec S_ 32 := constantI S_ 32 0#32
  let main_v38 : IVec S8192 32 := broadcastInDim S8192 ![] bcast_S_S8192 main_c_14
  let main_v39 : IVec S8192 1 := cmpi .sge main_arg2 main_v38
  let main_c_15 : IVec S_ 32 := constantI S_ 32 50000#32
  let main_v40 : IVec S8192 32 := broadcastInDim S8192 ![] bcast_S_S8192 main_c_15
  let main_v41 : IVec S8192 1 := cmpi .slt main_arg2 main_v40
  let main_v42 : IVec S8192 1 := andi main_v39 main_v41
  let main_c_16 : IVec S_ 1 := constantI S_ 1 1#1
  let main_v43 : IVec S_ 1 := (fun x v => Host.reduce IntOp.andi x v reducesTo_S8192_S_d0 h_S_) main_v42 main_c_16
  let main_v44 : IVec S_ 1 := andi main_v37 main_v43
  main_v44

def fn_part1 {F : FTy → Type} [FloatOps F] (main_arg0 : IVec S2048 32) (main_arg1 : IVec S2048 32) (main_arg2 : IVec S8192 32) (main_arg9 : FVec F S4000000 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S4000000 .f32 := Host.absf main_arg9
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_c_8 : IVec S_ 32 := constantI S_ 32 0#32
  let main_v24 : IVec S2048 32 := broadcastInDim S2048 ![] bcast_S_S2048 main_c_8
  let main_v25 : IVec S2048 1 := cmpi .sge main_arg0 main_v24
  let main_c_9 : IVec S_ 32 := constantI S_ 32 100000#32
  let main_v26 : IVec S2048 32 := broadcastInDim S2048 ![] bcast_S_S2048 main_c_9
  let main_v27 : IVec S2048 1 := cmpi .slt main_arg0 main_v26
  let main_v28 : IVec S2048 1 := andi main_v25 main_v27
  let main_c_10 : IVec S_ 1 := constantI S_ 1 1#1
  let main_v29 : IVec S_ 1 := (fun x v => Host.reduce IntOp.andi x v reducesTo_S2048_S_d0 h_S_) main_v28 main_c_10
  let main_v30 : IVec S_ 1 := andi main_v23 main_v29
  let main_c_11 : IVec S_ 32 := constantI S_ 32 0#32
  let main_v31 : IVec S2048 32 := broadcastInDim S2048 ![] bcast_S_S2048 main_c_11
  let main_v32 : IVec S2048 1 := cmpi .sge main_arg1 main_v31
  let main_c_12 : IVec S_ 32 := constantI S_ 32 50000#32
  fn_part2 (F := F) main_arg1 main_arg2 main_v30 main_v32 main_c_12

def fn {F : FTy → Type} [FloatOps F] (main_arg0 : IVec S2048 32) (main_arg1 : IVec S2048 32) (main_arg2 : IVec S8192 32) (main_arg3 : FVec F S1 .f32) (main_arg4 : FVec F S1 .f32) (main_arg5 : FVec F S100000x64 .f32) (main_arg6 : FVec F S50000x64 .f32) (main_arg7 : IVec S4000000 32) (main_arg8 : IVec S4000000 32) (main_arg9 : FVec F S4000000 .f32) : IVec S_ 1 :=
  let main_v0 : FVec F S1 .f32 := Host.absf main_arg3
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1 .f32 := Host.absf main_arg4
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S100000x64 .f32 := Host.absf main_arg5
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S50000x64 .f32 := Host.absf main_arg6
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg0 main_arg1 main_arg2 main_arg9 main_v13 main_v16
-- ==== Kernel.lean ====
abbrev S2048 : Shape := ⟨1, ![2048]⟩
abbrev S8192 : Shape := ⟨1, ![8192]⟩
abbrev S1 : Shape := ⟨1, ![1]⟩
abbrev S100000x64 : Shape := ⟨2, ![100000, 64]⟩
abbrev S50000x64 : Shape := ⟨2, ![50000, 64]⟩
abbrev S4000000 : Shape := ⟨1, ![4000000]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S6000x64 : Shape := ⟨2, ![6000, 64]⟩
abbrev S150000x1x64 : Shape := ⟨3, ![150000, 1, 64]⟩
abbrev S2048x1x64 : Shape := ⟨3, ![2048, 1, 64]⟩
abbrev S1x1x64 : Shape := ⟨3, ![1, 1, 64]⟩
abbrev S2048x64 : Shape := ⟨2, ![2048, 64]⟩
abbrev S8192x1x64 : Shape := ⟨3, ![8192, 1, 64]⟩
abbrev S8192x64 : Shape := ⟨2, ![8192, 64]⟩

abbrev nBuf : Space → Nat
  | .hbm => 40
  | .vmem => 18
  | .smem => 3
  | _ => 0

abbrev bufTy : (tb : Table) → Fin (tcTables nBuf tb) → BufTy
  | .hbm, ⟨0, _⟩ => ⟨S2048, .i32⟩
  | .hbm, ⟨1, _⟩ => ⟨S8192, .i32⟩
  | .hbm, ⟨2, _⟩ => ⟨S1, .f32⟩
  | .hbm, ⟨3, _⟩ => ⟨S1, .f32⟩
  | .hbm, ⟨4, _⟩ => ⟨S100000x64, .f32⟩
  | .hbm, ⟨5, _⟩ => ⟨S50000x64, .f32⟩
  | .hbm, ⟨6, _⟩ => ⟨S4000000, .i32⟩
  | .hbm, ⟨7, _⟩ => ⟨S4000000, .i32⟩
  | .hbm, ⟨8, _⟩ => ⟨S4000000, .f32⟩
  | .hbm, ⟨9, _⟩ => ⟨S150000x64, .f32⟩
  | .hbm, ⟨10, _⟩ => ⟨S4000000x1, .f32⟩
  | .hbm, ⟨11, _⟩ => ⟨S_, .i32⟩
  | .hbm, ⟨12, _⟩ => ⟨S4000000, .i32⟩
  | .hbm, ⟨13, _⟩ => ⟨S4000000, .i1⟩
  | .hbm, ⟨14, _⟩ => ⟨S_, .i32⟩
  | .hbm, ⟨15, _⟩ => ⟨S4000000, .i32⟩
  | .hbm, ⟨16, _⟩ => ⟨S4000000, .i32⟩
  | .hbm, ⟨17, _⟩ => ⟨S4000000, .i32⟩
  | .hbm, ⟨18, _⟩ => ⟨S4000000x1, .i32⟩
  | .hbm, ⟨19, _⟩ => ⟨S4000000x64, .f32⟩
  | .hbm, ⟨20, _⟩ => ⟨S4000000x64, .f32⟩
  | .hbm, ⟨21, _⟩ => ⟨S4000000x64, .f32⟩
  | .hbm, ⟨22, _⟩ => ⟨S_, .f32⟩
  | .hbm, ⟨23, _⟩ => ⟨S150000x64, .f32⟩
  | .hbm, ⟨24, _⟩ => ⟨S4000000x1, .i32⟩
  | .hbm, ⟨25, _⟩ => ⟨S150000x64, .f32⟩
  | .hbm, ⟨26, _⟩ => ⟨S150000x64, .f32⟩
  | .hbm, ⟨27, _⟩ => ⟨S150000x1x64, .f32⟩
  | .hbm, ⟨28, _⟩ => ⟨S2048x1x64, .f32⟩
  | .hbm, ⟨29, _⟩ => ⟨S2048x64, .f32⟩
  | .hbm, ⟨30, _⟩ => ⟨S_, .i32⟩
  | .hbm, ⟨31, _⟩ => ⟨S2048, .i32⟩
  | .hbm, ⟨32, _⟩ => ⟨S150000x1x64, .f32⟩
  | .hbm, ⟨33, _⟩ => ⟨S2048x1x64, .f32⟩
  | .hbm, ⟨34, _⟩ => ⟨S2048x64, .f32⟩
  | .hbm, ⟨35, _⟩ => ⟨S_, .i32⟩
  | .hbm, ⟨36, _⟩ => ⟨S8192, .i32⟩
  | .hbm, ⟨37, _⟩ => ⟨S150000x1x64, .f32⟩
  | .hbm, ⟨38, _⟩ => ⟨S8192x1x64, .f32⟩
  | .hbm, ⟨39, _⟩ => ⟨S8192x64, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .smem, ⟨0, _⟩ => ⟨S2048, .i32⟩
  | .local _ .smem, ⟨1, _⟩ => ⟨S2048, .i32⟩
  | .local _ .smem, ⟨2, _⟩ => ⟨S8192, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_arg0 : Ref sig .tc := ⟨.smem, 0, rfl⟩
abbrev main_v19 : Ref sig .tc := ⟨.smem, 1, rfl⟩
abbrev main_v24 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2048], ![false]⟩

abbrev pre1 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S2048.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S2048) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2048], ![false]⟩

abbrev pre2 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S2048.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S2048) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8192], ![false]⟩

abbrev pre3 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S8192.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  shapeCasts_S150000x64_S150000x1x64 : S150000x64.ShapeCasts S150000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S2048x1x64_S2048x64 : S2048x1x64.ShapeCasts S2048x64
  bcast_S_S2048 : S_.BroadcastsInDim S2048 (![] : Fin 0 → Fin S2048.rank)
  bcast_S_S8192 : S_.BroadcastsInDim S8192 (![] : Fin 0 → Fin S8192.rank)
  shapeCasts_S8192x1x64_S8192x64 : S8192x1x64.ShapeCasts S8192x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hrank1 : 0 < grid1.rank
  k1_off1_inb : ∀ i : grid1.Coords, ∀ a, (k1_off1 i) a + S1.size a ≤ S2048.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S2048x1x64.size a
  hwx1_1 : ∀ i : grid1.Coords, EltTy.bits .f32 = 32 ∨ (Rect.block (s := S2048x1x64) S1x1x64.size (cc1_transform_1 i) (hinb1_1 i)).WholeWords (EltTy.packing .f32)
  hrank2 : 0 < grid2.rank
  k2_off1_inb : ∀ i : grid2.Coords, ∀ a, (k2_off1 i) a + S1.size a ≤ S2048.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x64.size a ≤ S2048x1x64.size a
  hwx2_1 : ∀ i : grid2.Coords, EltTy.bits .f32 = 32 ∨ (Rect.block (s := S2048x1x64) S1x1x64.size (cc2_transform_1 i) (hinb2_1 i)).WholeWords (EltTy.packing .f32)
  hrank3 : 0 < grid3.rank
  k3_off1_inb : ∀ i : grid3.Coords, ∀ a, (k3_off1 i) a + S1.size a ≤ S8192.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x64.size a ≤ S8192x1x64.size a
  hwx3_1 : ∀ i : grid3.Coords, EltTy.bits .f32 = 32 ∨ (Rect.block (s := S8192x1x64) S1x1x64.size (cc3_transform_1 i) (hinb3_1 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v15) S1x1x64.size reads1_0 false false 2 stage1_0 sem1_0 nbuf1_0 hstage1_0

abbrev spec1_1 : Pipeline.WinSpec sig grid1.rank :=
  Pipeline.WinSpec.ofSpec (Memref.whole main_v16) S1x1x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S150000x1x64.size a), EltTy.bits .f32 = 32 ∨ (Rect.block (s := S150000x1x64) S1x1x64.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev spec2_0 : Pipeline.WinSpec sig grid2.rank :=
  Pipeline.WinSpec.ofSpec (Memref.whole main_v20) S1x1x64.size reads2_0 false false 2 stage2_0 sem2_0 nbuf2_0 hstage2_0

abbrev spec2_1 : Pipeline.WinSpec sig grid2.rank :=
  Pipeline.WinSpec.ofSpec (Memref.whole main_v21) S1x1x64.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x64.size a ≤ S150000x1x64.size a), EltTy.bits .f32 = 32 ∨ (Rect.block (s := S150000x1x64) S1x1x64.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v25) S1x1x64.size reads3_0 false false 2 stage3_0 sem3_0 nbuf3_0 hstage3_0

abbrev spec3_1 : Pipeline.WinSpec sig grid3.rank :=
  Pipeline.WinSpec.ofSpec (Memref.whole main_v26) S1x1x64.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x64.size a ≤ S150000x1x64.size a), EltTy.bits .f32 = 32 ∨ (Rect.block (s := S150000x1x64) S1x1x64.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole

variable [Facts]
-- ==== ReferenceIdeal.lean ====
abbrev S2048 : Shape := ⟨1, ![2048]⟩
abbrev S8192 : Shape := ⟨1, ![8192]⟩
abbrev S1 : Shape := ⟨1, ![1]⟩
abbrev S100000x64 : Shape := ⟨2, ![100000, 64]⟩
abbrev S50000x64 : Shape := ⟨2, ![50000, 64]⟩
abbrev S4000000 : Shape := ⟨1, ![4000000]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S2048x1 : Shape := ⟨2, ![2048, 1]⟩
abbrev S2048x64 : Shape := ⟨2, ![2048, 64]⟩
abbrev S8192x1 : Shape := ⟨2, ![8192, 1]⟩
abbrev S8192x64 : Shape := ⟨2, ![8192, 64]⟩

abbrev nBuf : Space → Nat
  | .hbm => 63
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S8192, .i32⟩
  | .hbm, ⟨3, _⟩ => ⟨S1, .f32⟩
  | .hbm, ⟨4, _⟩ => ⟨S1, .f32⟩
  | .hbm, ⟨5, _⟩ => ⟨S100000x64, .f32⟩
  | .hbm, ⟨6, _⟩ => ⟨S50000x64, .f32⟩
  | .hbm, ⟨7, _⟩ => ⟨S4000000, .i32⟩
  | .hbm, ⟨8, _⟩ => ⟨S4000000, .i32⟩
  | .hbm, ⟨9, _⟩ => ⟨S4000000, .f32⟩
  | .hbm, ⟨10, _⟩ => ⟨S150000x64, .f32⟩
  | .hbm, ⟨11, _⟩ => ⟨S4000000x1, .f32⟩
  | .hbm, ⟨12, _⟩ => ⟨S_, .i32⟩
  | .hbm, ⟨13, _⟩ => ⟨S4000000, .i32⟩
  | .hbm, ⟨14, _⟩ => ⟨S4000000, .i1⟩
  | .hbm, ⟨15, _⟩ => ⟨S_, .i32⟩
  | .hbm, ⟨16, _⟩ => ⟨S4000000, .i32⟩
  | .hbm, ⟨17, _⟩ => ⟨S4000000, .i32⟩
  | .hbm, ⟨18, _⟩ => ⟨S4000000, .i32⟩
  | .hbm, ⟨19, _⟩ => ⟨S4000000x1, .i32⟩
  | .hbm, ⟨20, _⟩ => ⟨S4000000x64, .f32⟩
  | .hbm, ⟨21, _⟩ => ⟨S4000000x64, .f32⟩
  | .hbm, ⟨22, _⟩ => ⟨S4000000x64, .f32⟩
  | .hbm, ⟨23, _⟩ => ⟨S_, .f32⟩
  | .hbm, ⟨24, _⟩ => ⟨S150000x64, .f32⟩
  | .hbm, ⟨25, _⟩ => ⟨S4000000x1, .i32⟩
  | .hbm, ⟨26, _⟩ => ⟨S150000x64, .f32⟩
  | .hbm, ⟨27, _⟩ => ⟨S_, .f32⟩
  | .hbm, ⟨28, _⟩ => ⟨S150000x64, .f32⟩
  | .hbm, ⟨29, _⟩ => ⟨S150000x64, .f32⟩
  | .hbm, ⟨30, _⟩ => ⟨S150000x64, .f32⟩
  | .hbm, ⟨31, _⟩ => ⟨S_, .f32⟩
  | .hbm, ⟨32, _⟩ => ⟨S150000x64, .f32⟩
  | .hbm, ⟨33, _⟩ => ⟨S150000x64, .f32⟩
  | .hbm, ⟨34, _⟩ => ⟨S100000x64, .f32⟩
  | .hbm, ⟨35, _⟩ => ⟨S50000x64, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x64, .f32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048x64, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x64, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  bcast_S_S8192 : S_.BroadcastsInDim S8192 (![] : Fin 0 → Fin S8192.rank)
  bcast_S8192_S8192x1_0 : S8192.BroadcastsInDim S8192x1 (![0] : Fin 1 → Fin S8192x1.rank)
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S2048x1_S2048x64_1_0_n_n_0_1_164_wf : GatherDims.WF S100000x64 S2048x1 S2048x64 [1] [0] [] [0] [] 1 ![1, 64]
  gather_S50000x64_S2048x1_S2048x64_1_0_n_n_0_1_164_wf : GatherDims.WF S50000x64 S2048x1 S2048x64 [1] [0] [] [0] [] 1 ![1, 64]
  gather_S50000x64_S8192x1_S8192x64_1_0_n_n_0_1_164_wf : GatherDims.WF S50000x64 S8192x1 S8192x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

class Facts : Prop extends Facts₀ where

variable [Facts]
-- ==== Proof.PreRange.lean ====
/-
  The integer range conjuncts of the printed precondition, read back.

  The precondition is a chain of scalar `and`s over eight `i1` scalars: five float finiteness tests and three
  tests of the form "every word w of an index vector has 0 ≤ w and w < N, compared signed". When the whole chain is 1,
  each conjunct is 1; a conjunct that is an all-reduction by `and` being 1 makes its operand 1 at every index; and a
  32-bit word that is signed-nonnegative and signed-below a literal N < 2³¹ has unsigned value below N. The float
  conjuncts are split off and dropped without being opened.
-/
import proofs.«413445_j54949811585067_2_alg».proof.Pre_finite_inputs
import proofs.«413445_j54949811585067_2_alg».proof.Proof.Gen.Pre_finite_inputs
import Idealize.ShloMosaic.Lib.ReduceAll
import Idealize.ShloMosaic.Lib.StableHlo.Predicate

noncomputable section

namespace Cert.Pre_finite_inputs.Range

open Idealize.ShloMosaic Cert.Pre_finite_inputs

/-- The rank-0 shape has exactly one index (the empty tuple). -/
instance subsingleton_scalar_idx : Subsingleton S_.Idx := ⟨fun a b => funext fun d => d.elim0⟩

/-- The one index of the rank-0 shape. -/
def j0 : S_.Idx := fun d => d.elim0

/-- A signed-nonnegative word reads below 2³¹ unsigned: its top bit is clear. -/
theorem toNat_lt_of_sge_zero (w : BitVec 32) (h0 : IntOp.cmpi .sge w 0#32 = 1#1) : w.toNat < 2 ^ 31 := by
  rw [IntOp.cmpi_sge, show (0#32 : BitVec 32).toInt = 0 from by decide, BitVec.toInt_pos_iff] at h0
  omega

/-- A word in [0, N) under the signed order, N a literal below 2³¹, is below N as a natural number:
    on [0, 2³¹) the signed and the unsigned reading of a word agree, and the literal reads N. -/
theorem toNat_lt_of_signed_range (w : BitVec 32) (N : Nat) (hN : N < 2 ^ 31)
    (h0 : IntOp.cmpi .sge w 0#32 = 1#1) (h1 : IntOp.cmpi .slt w (BitVec.ofNat 32 N) = 1#1) : w.toNat < N := by
  have hw : w.toNat < 2 ^ 31 := toNat_lt_of_sge_zero w h0
  rw [IntOp.cmpi_slt, StableHlo.Predicate.toInt_ofNat_small N hN, StableHlo.Predicate.toInt_eq_toNat_of_lt hw] at h1
  exact_mod_cast h1

/-- `all((v ≥ 0) & (v < N))` as it is printed — both bounds scalar constants broadcast to v's shape, the two signed
    compares joined by `and`, the result reduced by `and` over every axis — being 1 bounds every word of v by N. -/
theorem all_range {s : Shape} {axes : List (Fin s.rank)} (v : IVec s 32) (N : Nat) (hN : N < 2 ^ 31)
    (b : S_.BroadcastsInDim s (![] : Fin 0 → Fin s.rank)) (hr : s.ReducesTo axes S_) (hu : 0 < S_.numel) (init : IVec S_ 1)
    (e : Host.reduce IntOp.andi
          (andi (cmpi .sge v (broadcastInDim s ![] b (constantI S_ 32 0#32)))
                (cmpi .slt v (broadcastInDim s ![] b (constantI S_ 32 (BitVec.ofNat 32 N)))))
          init hr hu j0 = 1#1)
    (k : s.Idx) : (v k).toNat < N := by
  have hk := Host.reduce_andi_all _ init hr hu j0 e k
  obtain ⟨hge, hlt⟩ := IntOp.andi_eq_one.1 hk
  exact toNat_lt_of_signed_range (v k) N hN hge hlt

theorem range_of_pre {F : FTy → Type} [FloatOps F] [Cert.Pre_finite_inputs.Facts]
    (a0 : IVec S2048 32) (a1 : IVec S2048 32) (a2 : IVec S8192 32) (a3 : FVec F S1 .f32) (a4 : FVec F S1 .f32) (a5 : FVec F S100000x64 .f32) (a6 : FVec F S50000x64 .f32) (a7 : IVec S4000000 32) (a8 : IVec S4000000 32) (a9 : FVec F S4000000 .f32)
    (h : Cert.Pre_finite_inputs.fn (F := F) a0 a1 a2 a3 a4 a5 a6 a7 a8 a9 = fun _ => 1#1) :
    (∀ k : S2048.Idx, (a0 k).toNat < 100000) ∧ (∀ k : S2048.Idx, (a1 k).toNat < 50000) ∧ (∀ k : S8192.Idx, (a2 k).toNat < 50000) := by
  have e := congrFun h j0
  dsimp only [fn, fn_part1, fn_part2] at e
  -- the chain is ((((((f₁ ∧ f₂) ∧ f₃) ∧ f₄) ∧ f₅) ∧ r₀) ∧ r₁) ∧ r₂: peel the three range conjuncts off its right end
  obtain ⟨e, r2⟩ := IntOp.andi_eq_one.1 e
  obtain ⟨e, r1⟩ := IntOp.andi_eq_one.1 e
  obtain ⟨-, r0⟩ := IntOp.andi_eq_one.1 e
  exact ⟨all_range a0 100000 (by omega) _ _ _ _ r0, all_range a1 50000 (by omega) _ _ _ _ r1,
    all_range a2 50000 (by omega) _ _ _ _ r2⟩

end Cert.Pre_finite_inputs.Range

end
-- ==== Proof.K.Tables.lean ====
/-
  The contents of the three prefetched index tables as functions of the launch memory — the users' indices, and the
  positive and negative items' indices shifted by 100000 past the users' rows — and the side condition the gather
  pipelines need of them: every table-indexed row block lies inside the [150000, 1, 64] source.
-/
import proofs.«413445_j54949811585067_2_alg».proof.Proof.Gen.Kernel.Launch

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-! ## The prefetched tables, read off the launch memory -/

/-- The users' indices. -/
def tbl1 : pre1.Contents (Elt F) := fun
  | ⟨0, _⟩ => m (((0 : Dev nD) : Thread nD τ).loc main_arg0)
/-- The positive items' indices, shifted past the users' rows. -/
def tbl2 : pre2.Contents (Elt F) := fun
  | ⟨0, _⟩ => addi (m (((0 : Dev nD) : Thread nD τ).loc main_arg1)) (broadcastInDim S2048 ![] bcast_S_S2048 (constantI S_ 32 100000#32))
/-- The negative items' indices, shifted past the users' rows. -/
def tbl3 : pre3.Contents (Elt F) := fun
  | ⟨0, _⟩ => addi (m (((0 : Dev nD) : Thread nD τ).loc main_arg2)) (broadcastInDim S8192 ![] bcast_S_S8192 (constantI S_ 32 100000#32))

/-- Every table-indexed block lies inside its array. -/
def Ok : Prop := ok1 (tbl1 m) ∧ ok2 (tbl2 m) ∧ ok3 (tbl3 m)

end Cert.Kernel.Hand

end
-- ==== Proof.K.Boundary.lean ====
/-
  What the host stretches between the four regions of @main leave in the buffers the later regions read: the two
  offset index vectors (an argument plus the constant 100000, broadcast), and the reshapes of the regions' outputs
  read at an index, each as a function of the launch memory and of what the regions leave.
-/
import proofs.«413445_j54949811585067_2_alg».proof.Proof.Gen.Kernel.Regions
import Idealize.ShloMosaic.Lib.StableHlo.Run
import Idealize.ShloMosaic.Lib.Pipeline.Value
import Idealize.ShloMosaic.Lib.ValueLayout
import Idealize.ShloMosaic.Lib.ValueIdx

noncomputable section

namespace Cert.Kernel.Hand

open Cert.Kernel Cert.Kernel.Gen
open Idealize.ShloMosaic Idealize.ShloMosaic.TcCoe
open Idealize.ShloMosaic.StableHlo

variable {F : FTy → Type} [FloatOps F]
variable (m : (ℓ : Loc nD τ sig) → Buf (Elt F) ℓ) (outs : Outs (F := F))

/-! ## The arguments the stretches read are as launched -/

theorem V4_arg1 (c : Dev nD) : V4 m outs c main_arg1 = m ((c : Thread nD τ).loc main_arg1) :=
  (V4_of m outs c main_arg1 (by decide)).trans <| (V3_of m outs c main_arg1 (by decide)).trans <|
    (V2_of m outs c main_arg1 (by decide)).trans <| V1_of m c main_arg1 (by decide)

theorem V6_arg2 (c : Dev nD) : V6 m outs c main_arg2 = m ((c : Thread nD τ).loc main_arg2) :=
  (V6_of m outs c main_arg2 (by decide)).trans <| (V5_of m outs c main_arg2 (by decide)).trans <|
    (V4_of m outs c main_arg2 (by decide)).trans <| (V3_of m outs c main_arg2 (by decide)).trans <|
    (V2_of m outs c main_arg2 (by decide)).trans <| V1_of m c main_arg2 (by decide)

/-! ## The offset index vectors -/

/-- After the third stretch `main_v19` is the argument `main_arg1` plus 100000 at every index. -/
theorem V5_v19 (c : Dev nD) : V5 m outs c main_v19
    = addi (m ((c : Thread nD τ).loc main_arg1)) (broadcastInDim S2048 ![] bcast_S_S2048 (constantI S_ 32 100000#32)) := by
  show StableHlo.after hostOps2 (V4 m outs c) (Proc.devRef .tc main_v19) = _
  after_results
  rw [V4_arg1]

/-- After the fourth stretch `main_v24` is the argument `main_arg2` plus 100000 at every index. -/
theorem V7_v24 (c : Dev nD) : V7 m outs c main_v24
    = addi (m ((c : Thread nD τ).loc main_arg2)) (broadcastInDim S8192 ![] bcast_S_S8192 (constantI S_ 32 100000#32)) := by
  show StableHlo.after hostOps3 (V6 m outs c) (Proc.devRef .tc main_v24) = _
  after_results
  rw [V6_arg2]

/-! ## A reshape that adds or drops a MIDDLE unit axis, read at an index -/

section MiddleUnit
variable {α : Type}

/-- An `[a, b]` array cast to `[a, 1, b]` reads, at `(p, u, q)`, the operand at `(p, q)`: the two indices have the
    same row-major position, the unit coordinate being `0`. -/
theorem shapeCast_addMid_apply {a b : ℕ} (x : (⟨2, ![a, b]⟩ : Shape).Idx → α)
    (h : (⟨2, ![a, b]⟩ : Shape).ShapeCasts ⟨3, ![a, 1, b]⟩) (i : (⟨3, ![a, 1, b]⟩ : Shape).Idx) :
    shapeCast ⟨3, ![a, 1, b]⟩ x h i = x (ValueIdx.ix2 (i 0) (i 2)) :=
  shapeCast_apply x h _ _ (by
    have hu : (i 1).val = 0 := by have h1 : (i 1).val < 1 := (i 1).isLt; omega
    rw [Shape.rowMajor_val_two, Shape.rowMajor_val_three]
    show (i 0).val * b + (i 2).val = ((i 0).val * 1 + (i 1).val) * b + (i 2).val
    rw [hu, Nat.mul_one, Nat.add_zero])

/-- An `[a, 1, b]` array cast to `[a, b]` reads, at `(p, q)`, the operand at `(p, 0, q)`. -/
theorem shapeCast_dropMid_apply {a b : ℕ} (x : (⟨3, ![a, 1, b]⟩ : Shape).Idx → α)
    (h : (⟨3, ![a, 1, b]⟩ : Shape).ShapeCasts ⟨2, ![a, b]⟩) (i : (⟨2, ![a, b]⟩ : Shape).Idx) :
    shapeCast ⟨2, ![a, b]⟩ x h i = x (ValueIdx.ix3 (i 0) (0 : Fin 1) (i 1)) :=
  shapeCast_apply x h _ _ (by
    rw [Shape.rowMajor_val_three, Shape.rowMajor_val_two]
    show ((i 0).val * 1 + 0) * b + (i 1).val = (i 0).val * b + (i 1).val
    rw [Nat.mul_one, Nat.add_zero])

end MiddleUnit

/-! ## The index maps of the reshapes -/

/-- A `[150000, 1, 64]` index without its unit coordinate. -/
def drop1 (i : S150000x1x64.Idx) : S150000x64.Idx := ValueIdx.ix2 (i 0) (i 2)

/-- A `[2048, 64]` index with the unit coordinate put in. -/
def ins1 (i : S2048x64.Idx) : S2048x1x64.Idx := ValueIdx.ix3 (i 0) (0 : Fin 1) (i 1)

/-- An `[8192, 64]` index with the unit coordinate put in. -/
def ins1' (i : S8192x64.Idx) : S8192x1x64.Idx := ValueIdx.ix3 (i 0) (0 : Fin 1) (i 1)

/-! ## The reshapes of the regions' outputs -/

/-- What a region leaves in its output array is what the next valuation holds there. -/
theorem V2_v14 (c : Dev nD) : V2 m outs c main_v14 = outs 2 main_v14 c := Function.update_self ..
theorem V4_v16 (c : Dev nD) : V4 m outs c main_v16 = outs 4 main_v16 c := Function.update_self ..
theorem V6_v21 (c : Dev nD) : V6 m outs c main_v21 = outs 6 main_v21 c := Function.update_self ..
theorem V8_v26 (c : Dev nD) : V8 m outs c main_v26 = outs 8 main_v26 c := Function.update_self ..

/-- No later item up to the fourth stretch writes `main_v14`. -/
theorem V4_v14 (c : Dev nD) : V4 m outs c main_v14 = outs 2 main_v14 c :=
  (V4_of m outs c main_v14 (by decide)).trans <| (V3_of m outs c main_v14 (by decide)).trans <| V2_v14 m outs c
theorem V6_v14 (c : Dev nD) : V6 m outs c main_v14 = outs 2 main_v14 c :=
  (V6_of m outs c main_v14 (by decide)).trans <| (V5_of m outs c main_v14 (by decide)).trans <| V4_v14 m outs c

/-- `main_v15`, the first region's output with a unit axis put in. -/
theorem V3_v15 (c : Dev nD) (i : S150000x1x64.Idx) : V3 m outs c main_v15 i = outs 2 main_v14 c (drop1 i) := by
  have h : V3 m outs c main_v15
      = fun i => shapeCast S150000x1x64 (V2 m outs c main_v14) shapeCasts_S150000x64_S150000x1x64 i := by
    show StableHlo.after hostOps1 (V2 m outs c) (Proc.devRef .tc main_v15) = _
    after_results
    rfl
  rw [h, V2_v14]
  exact shapeCast_addMid_apply _ _ i

/-- `main_v20`, the same reshape made again in the third stretch. -/
theorem V5_v20 (c : Dev nD) (i : S150000x1x64.Idx) : V5 m outs c main_v20 i = outs 2 main_v14 c (drop1 i) := by
  have h : V5 m outs c main_v20
      = fun i => shapeCast S150000x1x64 (V4 m outs c main_v14) shapeCasts_S150000x64_S150000x1x64 i := by
    show StableHlo.after hostOps2 (V4 m outs c) (Proc.devRef .tc main_v20) = _
    after_results
    rfl
  rw [h, V4_v14]
  exact shapeCast_addMid_apply _ _ i

/-- `main_v25`, the same reshape made again in the fourth stretch. -/
theorem V7_v25 (c : Dev nD) (i : S150000x1x64.Idx) : V7 m outs c main_v25 i = outs 2 main_v14 c (drop1 i) := by
  have h : V7 m outs c main_v25
      = fun i => shapeCast S150000x1x64 (V6 m outs c main_v14) shapeCasts_S150000x64_S150000x1x64 i := by
    show StableHlo.after hostOps3 (V6 m outs c) (Proc.devRef .tc main_v25) = _
    after_results
    rfl
  rw [h, V6_v14]
  exact shapeCast_addMid_apply _ _ i

/-- `main_v17`, the second region's output without its unit axis, written in the third stretch and by nothing after. -/
theorem V5_v17 (c : Dev nD) (i : S2048x64.Idx) : V5 m outs c main_v17 i = outs 4 main_v16 c (ins1 i) := by
  have h : V5 m outs c main_v17
      = fun i => shapeCast S2048x64 (V4 m outs c main_v16) shapeCasts_S2048x1x64_S2048x64 i := by
    show StableHlo.after hostOps2 (V4 m outs c) (Proc.devRef .tc main_v17) = _
    after_results
    rfl
  rw [h, V4_v16]
  exact shapeCast_dropMid_apply _ _ i

theorem V9_v17 (c : Dev nD) (i : S2048x64.Idx) : V9 m outs c main_v17 i = outs 4 main_v16 c (ins1 i) := by
  rw [(V9_of m outs c main_v17 (by decide)).trans <| (V8_of m outs c main_v17 (by decide)).trans <|
    (V7_of m outs c main_v17 (by decide)).trans <| V6_of m outs c main_v17 (by decide)]
  exact V5_v17 m outs c i

/-- `main_v22`, the third region's output without its unit axis, written in the fourth stretch and by nothing after. -/
theorem V7_v22 (c : Dev nD) (i : S2048x64.Idx) : V7 m outs c main_v22 i = outs 6 main_v21 c (ins1 i) := by
  have h : V7 m outs c main_v22
      = fun i => shapeCast S2048x64 (V6 m outs c main_v21) shapeCasts_S2048x1x64_S2048x64 i := by
    show StableHlo.after hostOps3 (V6 m outs c) (Proc.devRef .tc main_v22) = _
    after_results
    rfl
  rw [h, V6_v21]
  exact shapeCast_dropMid_apply _ _ i

theorem V9_v22 (c : Dev nD) (i : S2048x64.Idx) : V9 m outs c main_v22 i = outs 6 main_v21 c (ins1 i) := by
  rw [(V9_of m outs c main_v22 (by decide)).trans <| V8_of m outs c main_v22 (by decide)]
  exact V7_v22 m outs c i

/-- `main_v27`, the fourth region's output without its unit axis. -/
theorem V9_v27 (c : Dev nD) (i : S8192x64.Idx) : V9 m outs c main_v27 i = outs 8 main_v26 c (ins1' i) := by
  have h : V9 m outs c main_v27
      = fun i => shapeCast S8192x64 (V8 m outs c main_v26) shapeCasts_S8192x1x64_S8192x64 i := by
    show StableHlo.after hostOps4 (V8 m outs c) (Proc.devRef .tc main_v27) = _
    after_results
    rfl
  rw [h, V8_v26]
  exact shapeCast_dropMid_apply _ _ i

end Cert.Kernel.Hand

end
-- ==== Proof.K.Region0.lean ====
/-
  Region 0 of @main, the elementwise combine (e0 + 3·ae0)·¼ over 25 row blocks of 6000 rows: each input window's block at a
  point, what the body leaves in the output window's buffer, the pipeline's proof data at the entry contents `V`, the
  body obligation, and the output array after the last point as one function of the two input arrays.
-/
import proofs.«413445_j54949811585067_2_alg».proof.Proof.Gen.Kernel.Launch
import proofs.«413445_j54949811585067_2_alg».proof.Proof.Gen.Kernel.Skeleton
import proofs.«413445_j54949811585067_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 6000×64 staging block. -/
abbrev r0 : Rect S6000x64 := Rect.unit (s := S6000x64) ![0, 0] S6000x64.size inb_S6000x64_S6000x64_0_0

/-- The output window's buffer after the body: its one store, of the payload of the two loaded blocks. -/
def out0_2 (x0 x1 : Vec F S6000x64 .f32) : Vec F S6000x64 .f32 :=
  View.canon [⟨r0, k0_pay1 (View.ld x0 r0) (View.ld x1 r0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- An input window's current buffer holds its block at every point, fetched there or not: the body leaves the
    block in place and the window is uncut and never idle, so an unfetched point finds the previous point's
    block, which is its own. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The one store is of the whole block, so it covers the buffer. -/
theorem cover0_2 (p0 : Vec F S6000x64 .f32) (y : S6000x64.Idx) :
    ∃ pc ∈ ([⟨r0, p0⟩] : List (View.Piece (Elt F) S6000x64 .f32)), y ∈ pc.1.set :=
  View.cover_of_tiled [⟨r0, p0⟩] S6000x64.size (by rfl) y

set_option maxHeartbeats 1000000 in
/-- The body on whole staging memrefs: the two inputs' at read contents `x0`, `x1`, the output's at anything. It
    loads both inputs, loads the output buffer (a value it never uses), stores the payload over the whole output
    buffer, and returns with the inputs' as they were and the output's at `out0_2 x0 x1`. -/
theorem sound_kernel0 (c : Dev nD) (E : Set ℕ) (i : grid0.Coords)
    (arg1 : Memref sig .tc .vmem S6000x64 .f32) (harg1 : arg1.IsWhole)
    (arg2 : Memref sig .tc .vmem S6000x64 .f32) (harg2 : arg2.IsWhole)
    (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The output array after the last point, as one function of the two input arrays -/

theorem zero_offsets : (![0, 0] : Fin 2 → Nat) = fun _ => 0 := funext fun a => by fin_cases a <;> rfl

/-- The body's arithmetic at the whole-array shape: `(x + 3·y)·¼`, index by index. -/
def light (x y : Vec F S150000x64 .f32) : Vec F S150000x64 .f32 :=
  mulf (φ := .f32) (addf (φ := .f32) x (mulf (φ := .f32) (broadcast S150000x64 (Scalar.ofBits .f32 0x40400000#32)) y))
    (broadcast S150000x64 (Scalar.ofBits .f32 0x3E800000#32))

/-- The payload at an index of the block is that arithmetic on the two loaded values there (a cast to the same
    shape moves nothing). -/
theorem pay_apply (x0 x1 : Vec F S6000x64 .f32) (j : S6000x64.Idx) :
    k0_pay1 x0 x1 j = FloatOps.mulf (FloatOps.addf (x0 j) (FloatOps.mulf (Scalar.ofBits .f32 0x40400000#32) (x1 j)))
      (Scalar.ofBits .f32 0x3E800000#32) := by
  unfold k0_pay1
  simp only [shapeCast_self]
  rfl

/-- The three windows move together: at point `t` each is on row block `t`, the only column block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Input window 0's block at point `t` sits in its array where the output's block sits in its own: a block's
    coordinate is its block index times the block size plus the coordinate inside, and the block indices agree. -/
theorem emb_in0 (t : Fin cfg0.N) (j : S6000x64.Idx) :
    (((cfg0.win 0).blk t).view.emb j : S150000x64.Idx) = ((cfg0.win 2).blk t).view.emb j := by
  obtain ⟨e0, e1, e2, e3, e4, e5⟩ := index_facts t
  funext a; apply Fin.ext
  match a with
  | ⟨0, _⟩ =>
    show win0_0.index t (0 : Fin 2) * 6000 + 1 * (j 0).val = win0_2.index t (0 : Fin 2) * 6000 + 1 * (j 0).val
    omega
  | ⟨1, _⟩ =>
    show win0_0.index t (1 : Fin 2) * 64 + 1 * (j 1).val = win0_2.index t (1 : Fin 2) * 64 + 1 * (j 1).val
    omega

/-- Likewise input window 1's. -/
theorem emb_in1 (t : Fin cfg0.N) (j : S6000x64.Idx) :
    (((cfg0.win 1).blk t).view.emb j : S150000x64.Idx) = ((cfg0.win 2).blk t).view.emb j := by
  obtain ⟨e0, e1, e2, e3, e4, e5⟩ := index_facts t
  funext a; apply Fin.ext
  match a with
  | ⟨0, _⟩ =>
    show win0_1.index t (0 : Fin 2) * 6000 + 1 * (j 0).val = win0_2.index t (0 : Fin 2) * 6000 + 1 * (j 0).val
    omega
  | ⟨1, _⟩ =>
    show win0_1.index t (1 : Fin 2) * 64 + 1 * (j 1).val = win0_2.index t (1 : Fin 2) * 64 + 1 * (j 1).val
    omega

/-- What point `t` writes back is block `t` of `light` of the two input arrays as the region finds them: the
    one store leaves the payload of the two loaded blocks, and an input block's coordinate is its block index times
    the block size plus the coordinate inside, on the same block index as the output's. -/
theorem flushed0_2_eq (c : Dev nD) (t : Fin cfg0.N) :
    (dat0 V c).flushed 2 t
      = ((cfg0.win 2).blk t).view.read (Elt F) (light (V c main_v0) (V c main_v13)) := by
  show (cfg0.win 2).cut (grid0.coords t) ((dat0 V c).after 2 t) = _
  rw [after0_2]
  unfold out0_2
  rw [View.canon_unit_zero zero_offsets]
  simp only [View.ld_unit_zero (S := S6000x64) zero_offsets]
  funext j
  show k0_pay1 (iblk0 V c 0 t) (iblk0 V c 1 t) j
    = light (V c main_v0) (V c main_v13) (((cfg0.win 2).blk t).view.emb j)
  rw [pay_apply]
  show FloatOps.mulf (FloatOps.addf (V c main_v0 (((cfg0.win 0).blk t).view.emb j))
        (FloatOps.mulf (Scalar.ofBits .f32 0x40400000#32) (V c main_v13 (((cfg0.win 1).blk t).view.emb j))))
      (Scalar.ofBits .f32 0x3E800000#32)
    = FloatOps.mulf (FloatOps.addf (V c main_v0 (((cfg0.win 2).blk t).view.emb j))
        (FloatOps.mulf (Scalar.ofBits .f32 0x40400000#32) (V c main_v13 (((cfg0.win 2).blk t).view.emb j))))
      (Scalar.ofBits .f32 0x3E800000#32)
  rw [emb_in0 t j, emb_in1 t j]

/-- An index of the output array is in point `t`'s block iff each coordinate is in the block's range on its axis. -/
theorem mem_blk0_2 (t : Fin cfg0.N) (i : S150000x64.Idx) :
    i ∈ ((cfg0.win 2).blk t).view.set ↔ ∀ a : Fin 2, win0_2.index t a * S6000x64.size a ≤ (i a).val
      ∧ (i a).val < win0_2.index t a * S6000x64.size a + S6000x64.size a := by
  show i ∈ ((View.whole main_v14).slice (win0_2.rect t)).set ↔ _
  rw [View.set_slice_whole, Rect.mem_set_unit]
  exact Iff.rfl

/-- Every index of the output array is in some point's block, and every point writes back: row `r` lies in row
    block `r / 6000`, one of the 25, and the single column block holds all 64 columns. -/
theorem cover0_out (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  let t : Fin cfg0.N := Fin.cast N_0.symm ⟨(i 0).val / 6000, by omega⟩
  have ht : t.val = (i 0).val / 6000 := rfl
  obtain ⟨e0, e1, e2, e3, e4, e5⟩ := index_facts t
  refine ⟨t, flush0_2 t, ?_⟩
  rw [mem_blk0_2]
  intro a
  match a with
  | ⟨0, _⟩ =>
    show win0_2.index t (0 : Fin 2) * 6000 ≤ (i 0).val ∧ (i 0).val < win0_2.index t (0 : Fin 2) * 6000 + 6000
    omega
  | ⟨1, _⟩ =>
    show win0_2.index t (1 : Fin 2) * 64 ≤ (i 1).val ∧ (i 1).val < win0_2.index t (1 : Fin 2) * 64 + 64
    omega

/-- The output array after the last point: `light` of the two input arrays as the region finds them. -/
theorem final0 (c : Dev nD) : (dat0 V c).arrAt 2 cfg0.N = light (V c main_v0) (V c main_v13) :=
  (dat0 V c).arrAt_eq_of_cover 2 (light (V c main_v0) (V c main_v13)) (fun t _ => flushed0_2_eq V c t) cover0_out

/-- The two constants at the ideal reals: the bit patterns denote `3` and `¼`. -/
theorem three_eq : (Scalar.ofBits .f32 0x40400000#32 : Ideal .f32) = ((3 : ℝ) : EReal) := by
  show Ideal.ofBits .f32 0x40400000#32 = _
  simp [Ideal.ofBits, Ideal.ieee, -EReal.coe_mul]; norm_num

theorem quarter_eq : (Scalar.ofBits .f32 0x3E800000#32 : Ideal .f32) = ((1 / 4 : ℝ) : EReal) := by
  show Ideal.ofBits .f32 0x3E800000#32 = _
  simp [Ideal.ofBits, Ideal.ieee, -EReal.coe_mul]; norm_num

/-- At the ideal reals, `light` at an index is `(x + 3·y)·¼` of the two arrays' values there. -/
theorem light_apply (x y : Vec Ideal S150000x64 .f32) (i : S150000x64.Idx) :
    light x y i = (x i + ((3 : ℝ) : EReal) * y i) * ((1 / 4 : ℝ) : EReal) := by
  show (x i + (Scalar.ofBits .f32 0x40400000#32 : Ideal .f32) * y i)
    * (Scalar.ofBits .f32 0x3E800000#32 : Ideal .f32) = _
  rw [three_eq, quarter_eq]

end Cert.Kernel.Hand

end
-- ==== Proof.K.Region1.lean ====
/-
  Region 1 of @main, the row gather whose input block index is read off a prefetched table: at point t the input window's
  block is row table[t] of the [150000, 1, 64] source and the output window's block is row t of the [2048, 1, 64] result;
  the body copies the one into the other. The pipeline's proof data at the entry contents `V` and admissible table
  contents `a`, the body obligation, and the output array after the last point.
-/
import proofs.«413445_j54949811585067_2_alg».proof.Proof.Gen.Kernel.Launch
import proofs.«413445_j54949811585067_2_alg».proof.Proof.Gen.Kernel.Skeleton
import proofs.«413445_j54949811585067_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg1 (F := F)).Adm)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef (cfg1 a).spec w))

/-- The whole 1×1×64 staging block. -/
abbrev r1 : Rect S1x1x64 := Rect.unit (s := S1x1x64) ![0, 0, 0] S1x1x64.size inb_S1x1x64_S1x1x64_0_0_0

/-- The output window's buffer after the body: its one store, of the loaded input block. -/
def out1_1 (x0 : Vec F S1x1x64 .f32) : Vec F S1x1x64 .f32 :=
  View.canon [⟨r1, k1_pay1 (View.ld x0 r1)⟩]

/-- The proof data of pipeline 1 on core `c`: the invariant keeps, beside the class's scoped rest and generator register,
    the prefetched table whole at the admitted contents. -/
def dat1 (c : Dev nD) : Dat τ (Elt F) Unit ℕ (UR sig nD τ) ℕ (cfg1 a) c where
  A w := V c (Pipeline.arrRef (cfg1 a).spec w)
  after w t := match w with
    | ⟨0, _⟩ => iblk1 V a c 0 t
    | ⟨1, _⟩ => out1_1 (iblk1 V a c 0 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef (cfg1 a).spec w) := by
  dsimp only [dat1]

/-! ## The body at a point -/

/-- The staging memref each window is on at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The body as the pipeline calls it at point `t`: the table's whole memref, then the two current staging memrefs. -/
abbrev bodyAt1 (t : Fin (cfg1 a).N) : Prog (TpuEff nD τ sig (Elt F) Λ₀ .tc) PUnit :=
  cc1__gather_kernel (grid1.coords t) (Memref.whole main_arg0) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))

/-! ## The input window's buffer -/

/-- The input window's current buffer holds its block at every point, fetched there or not: where no fetch happens
    the block index has not moved, and the body leaves the buffer as it found it. -/
theorem before1_0_of {c : Dev nD} (dat : Dat τ (Elt F) Unit ℕ (UR sig nD τ) ℕ (cfg1 a) c)
    (hA : dat.A 0 = V c (Pipeline.arrRef (cfg1 a).spec 0))
    (hafter : ∀ t, dat.after 0 t = iblk1 V a c 0 t) (t : Fin (cfg1 a).N) (d) : dat.before 0 t d = iblk1 V a c 0 t := by
  have hkeep : ∀ t, ((cfg1 a).win 0).cut ((cfg1 a).grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

/-! ## The body's one store -/

/-- The one store is of the whole 1×1×64 buffer, so every cell of it is written. -/
theorem cover1_1 (p0 : Vec F S1x1x64 .f32) (y : S1x1x64.Idx) :
    ∃ pc ∈ ([⟨r1, p0⟩] : List (View.Piece (Elt F) S1x1x64 .f32)), y ∈ pc.1.set :=
  View.cover_of_tiled [⟨r1, p0⟩] S1x1x64.size (by rfl) y

set_option maxHeartbeats 1000000 in
/-- The body on whole staging memrefs: the input's at `x0` and the output's at anything; it reads both, writes the
    output's with the input's contents, and never touches its first argument, the table. So it runs to any continuation
    that takes the input's buffer back as it was and the output's at `out1_1 x0`. -/
theorem sound_kernel1 (c : Dev nD) (E : Set ℕ) (i : grid1.Coords) (tb : Memref sig .tc .smem S2048 .i32) (htb : tb.IsWhole)
    (arg0 : Memref sig .tc .vmem S1x1x64 .f32) (harg0 : arg0.IsWhole) (arg1 : Memref sig .tc .vmem S1x1x64 .f32) (harg1 : arg1.IsWhole)
    (x0 : Vec F S1x1x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__gather_kernel i tb htb arg0 harg0 arg1 harg1) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The body obligation -/

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = out1_1 (iblk1 V a c 0 t) := by dsimp only [dat1]; rfl

theorem before1_0 (c : Dev nD) (t : Fin (cfg1 a).N) (d) : (dat1 V a c).before 0 t d = iblk1 V a c 0 t :=
  before1_0_of V a (dat1 V a c) (A_eq1 V a c 0) (after1_0 V a c) t d

/-- What the body is handed at point `t`: the invariant (with the table in it), the core's debts, and the two current
    buffers, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d)))

/-- and what it hands back. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t))

/-- The body at any point: the input's buffer holds its block, so the body's triple applies; the invariant, the table
    inside it, and the core's debts are not read and pass through. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.succ = (dat1 V a c).Φ t.castSucc from rfl,
    show (dat1 V a c).owesAt () t.succ = (dat1 V a c).owesAt () t.castSucc from rfl,
    after1_0, after1_1]
  iintro ⟨HΦ, Ho, ⟨%d0, H0⟩, ⟨%d1, H1⟩⟩
  iapply (sound_kernel1 c Set.univ _ _ _ _ _ _ _ (iblk1 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V a c) (defs₀ (F := F)) Variants.none () Set.univ := fun t => by
  rw [bigSep_W1, bigSep_W1]
  exact sound_body1 V a c t

/-! ## The output array after the last point -/

/-- A row number of the table is inside its one axis. -/
theorem lt_size1 (k : Fin 2048) (b : Fin 1) : k.val < S2048.size b := by
  obtain rfl : b = 0 := Subsingleton.elim _ _
  exact k.isLt

/-- Row `k` of the table, as an index of it. -/
def idx1 (k : Fin 2048) : S2048.Idx := fun b => ⟨k.val, lt_size1 k b⟩

theorem N1_eq : (cfg1 a).N = 2048 := N_1

/-- The grid is one axis of 2048 points: point `t` has coordinate `t`. -/
theorem coords1_val (t : Fin grid1.N) : ((grid1.coords t) 0).val = t.val := by
  show t.val / grid1.stride 0 % grid1.bound 0 = t.val
  have h1 : grid1.stride 0 = 1 := by decide
  have h2 : grid1.bound 0 = 2048 := rfl
  have := t.isLt
  have h3 : grid1.N = 2048 := N_1
  rw [h1, h2, Nat.div_one]; omega

/-- The one-word rectangle the index map loads through, at the point's coordinate, names row `i 0` of the table. -/
theorem wordRect1_emb (i : grid1.Coords) :
    (Rect.unit (s := S2048) ![(Scalar.indexCast (BitVec.ofNat 32 (i 0).val)).toNat] S1.size (k1_off1_inb i)).emb
      (Shape.Idx.first (numel1_S1.symm ▸ Nat.one_pos)) = idx1 ⟨(i 0).val, (i 0).isLt⟩ := by
  funext b; apply Fin.ext
  obtain rfl : b = 0 := Subsingleton.elim _ _
  rw [Rect.emb_apply]
  show (BitVec.ofNat 32 (i 0).val).toNat + 1 * 0 = (i 0).val
  have hi : (i 0).val < 2048 := (i 0).isLt
  rw [BitVec.toNat_ofNat]; omega

/-- The word the index map loads at coordinates `i`, at any table contents, is the table at row `i 0`. -/
theorem word1_eq (pf : pre1.Contents (Elt F)) (i : grid1.Coords) :
    pf.at 0 (Rect.unit (s := S2048) ![(Scalar.indexCast (BitVec.ofNat 32 (i 0).val)).toNat] S1.size (k1_off1_inb i)) numel1_S1
      = pf 0 (idx1 ⟨(i 0).val, (i 0).isLt⟩) :=
  congrArg (pf 0) (wordRect1_emb i)

/-- The input's index map at any table contents: the leading block index is the table's word for the point, the
    others are zero. -/
theorem transform1_0_eq (pf : pre1.Contents (Elt F)) (i : grid1.Coords) :
    cc1_transform_0 k1_off1_inb numel1_S1 pf i = ![(pf 0 (idx1 ⟨(i 0).val, (i 0).isLt⟩)).toNat, 0, 0] := by
  unfold cc1_transform_0
  dsimp only
  exact congrArg (fun x => ![(pf 0 x).toNat, 0, 0]) (wordRect1_emb i)

/-- The output's index map: the leading block index is the point's coordinate, the others are zero. -/
theorem transform1_1_eq (i : grid1.Coords) : cc1_transform_1 i = ![(i 0).val, 0, 0] := by
  unfold cc1_transform_1
  dsimp only
  have hi : (i 0).val < 2048 := (i 0).isLt
  have e : (BitVec.ofNat 32 (i 0).val).toNat = (i 0).val := by rw [BitVec.toNat_ofNat]; omega
  rw [e]; rfl

theorem index1_0 (t : Fin (cfg1 a).N) : ((cfg1 a).win 0).index t = cc1_transform_0 k1_off1_inb numel1_S1 a.1 (grid1.coords t) := rfl
theorem index1_1 (t : Fin (cfg1 a).N) : ((cfg1 a).win 1).index t = cc1_transform_1 (grid1.coords t) := rfl

/-- The output window is written back at every point, whatever the table holds: its index map reads only the point. -/
theorem flush1_1 : ∀ t : Fin (cfg1 a).N, ((cfg1 a).win 1).flush t = true :=
  (by decide +kernel : ∀ t : Fin grid1.N, Pipeline.Window.flushOf grid1 true cc1_transform_1 t = true)

/-- The input's block index at point `t`: row the table's word for `t`, the one middle block, the one column block. -/
theorem index1_0_row (t : Fin (cfg1 a).N) : ((cfg1 a).win 0).index t (0 : Fin 3) = (a.1 0 (idx1 ⟨t.val, t.isLt⟩)).toNat := by
  rw [index1_0, transform1_0_eq]
  exact congrArg (fun k => (a.1 0 (idx1 k)).toNat) (Fin.ext (coords1_val t))
theorem index1_0_mid (t : Fin (cfg1 a).N) : ((cfg1 a).win 0).index t (1 : Fin 3) = 0 := by
  rw [index1_0, transform1_0_eq]; rfl
theorem index1_0_col (t : Fin (cfg1 a).N) : ((cfg1 a).win 0).index t (2 : Fin 3) = 0 := by
  rw [index1_0, transform1_0_eq]; rfl

/-- The output's block index at point `t`: row `t`, the one middle block, the one column block. -/
theorem index1_1_row (t : Fin (cfg1 a).N) : ((cfg1 a).win 1).index t (0 : Fin 3) = t.val := by
  rw [index1_1, transform1_1_eq]; exact coords1_val t
theorem index1_1_mid (t : Fin (cfg1 a).N) : ((cfg1 a).win 1).index t (1 : Fin 3) = 0 := by
  rw [index1_1, transform1_1_eq]; rfl
theorem index1_1_col (t : Fin (cfg1 a).N) : ((cfg1 a).win 1).index t (2 : Fin 3) = 0 := by
  rw [index1_1, transform1_1_eq]; rfl

/-- Every word of an admitted table is a row number of the source: the side condition, read at the word's point. -/
theorem word1_lt (k : Fin 2048) : (a.1 0 (idx1 k)).toNat < 150000 := by
  obtain ⟨h, -⟩ := a.2 (grid1.coords ⟨k.val, k.isLt⟩)
  have h0 := h 0
  rw [transform1_0_eq] at h0
  have e : (⟨((grid1.coords ⟨k.val, k.isLt⟩) 0).val, ((grid1.coords ⟨k.val, k.isLt⟩) 0).isLt⟩ : Fin 2048) = k :=
    Fin.ext (coords1_val ⟨k.val, k.isLt⟩)
  rw [e] at h0
  have h1 : ((a.1 0 (idx1 k)).toNat + 1) * 1 ≤ 150000 := h0
  omega

/-- The source row the output's index `i` reads: the table's word for `i`'s row, the one middle coordinate, `i`'s column. -/
def row1 (i : S2048x1x64.Idx) : S150000x1x64.Idx := fun b => match b with
  | ⟨0, _⟩ => ⟨(a.1 0 (idx1 (i 0))).toNat, word1_lt a (i 0)⟩
  | ⟨1, _⟩ => ⟨0, Nat.one_pos⟩
  | ⟨2, _⟩ => i 2

/-- What the output array ends holding: at each index, the source at the row the table names. -/
abbrev G1 (c : Dev nD) : S2048x1x64.Idx → Elt F .f32 := fun i => V c main_v15 (row1 a i)

theorem hz1 : (![0, 0, 0] : Fin 3 → Nat) = fun _ => 0 := funext fun b => by fin_cases b <;> rfl

/-- The stored value is the loaded block: the shape cast between them is of a shape to itself. -/
theorem pay1_eq (x : Vec F S1x1x64 .f32) : k1_pay1 x = x := by
  unfold k1_pay1; exact shapeCast_self _ _

/-- The output's buffer after the body is the input's block: the one store covers the buffer, and stores what the
    one load read, all of the input's buffer. -/
theorem out1_1_eq (x : Vec F S1x1x64 .f32) : out1_1 x = x := by
  unfold out1_1
  rw [View.canon_unit_zero hz1, pay1_eq, View.ld_unit_zero hz1]

theorem flushed1_eq (c : Dev nD) (t : Fin (cfg1 a).N) :
    (dat1 V a c).flushed 1 t = (((cfg1 a).win 1).blk t).view.read (Elt F) (G1 V a c) := by
  show ((cfg1 a).win 1).cut (grid1.coords t) ((dat1 V a c).after 1 t) = _
  rw [after1_1]
  funext j
  refine (congrFun (out1_1_eq (iblk1 V a c 0 t)) _).trans ?_
  show V c main_v15 ((((cfg1 a).win 0).blk t).view.emb (((cfg1 a).win 1).xinj (grid1.coords t) j))
     = V c main_v15 (row1 a ((((cfg1 a).win 1).blk t).view.emb j))
  refine congrArg (V c main_v15) ?_
  have hj0 : (j (0 : Fin 3)).val < 1 := (j (0 : Fin 3)).isLt
  have hj1 : (j (1 : Fin 3)).val < 1 := (j (1 : Fin 3)).isLt
  have h0 : (((((cfg1 a).win 1).blk t).view.emb j) (0 : Fin 3)).val = t.val := by
    show ((cfg1 a).win 1).index t (0 : Fin 3) * 1 + 1 * (j (0 : Fin 3)).val = t.val
    rw [index1_1_row]; omega
  have h2 : (((((cfg1 a).win 1).blk t).view.emb j) (2 : Fin 3)).val = (j (2 : Fin 3)).val := by
    show ((cfg1 a).win 1).index t (2 : Fin 3) * 64 + 1 * (j (2 : Fin 3)).val = (j (2 : Fin 3)).val
    rw [index1_1_col]; omega
  generalize (((cfg1 a).win 1).blk t).view.emb j = i' at h0 h2 ⊢
  have hb : ∀ b : Fin 3, ((((cfg1 a).win 0).blk t).view.emb (((cfg1 a).win 1).xinj (grid1.coords t) j) b).val = (row1 a i' b).val := fun b => by
    match b with
    | ⟨0, _⟩ =>
      have e : (a.1 0 (idx1 (i' (0 : Fin 3)))).toNat = (a.1 0 (idx1 ⟨t.val, t.isLt⟩)).toNat :=
        congrArg (fun k => (a.1 0 (idx1 k)).toNat) (Fin.ext h0)
      show ((cfg1 a).win 0).index t (0 : Fin 3) * 1 + 1 * (j (0 : Fin 3)).val = (a.1 0 (idx1 (i' (0 : Fin 3)))).toNat
      rw [index1_0_row]; omega
    | ⟨1, _⟩ =>
      show ((cfg1 a).win 0).index t (1 : Fin 3) * 1 + 1 * (j (1 : Fin 3)).val = 0
      rw [index1_0_mid]; omega
    | ⟨2, _⟩ =>
      show ((cfg1 a).win 0).index t (2 : Fin 3) * 64 + 1 * (j (2 : Fin 3)).val = (i' (2 : Fin 3)).val
      rw [index1_0_col]; omega
  funext b; apply Fin.ext
  exact hb b

/-- A rectangle of the whole output array, as a view of it, covers the rectangle's own indices. -/
theorem mem_slice_out1 (r : Rect main_v16.ty.shape) (i : main_v16.ty.shape.Idx) :
    i ∈ ((View.whole main_v16).slice r).set ↔ i ∈ r.set := by
  rw [View.set_slice_whole]

/-- An index of the output array is in point `t`'s block iff each coordinate is in the block's range on its axis. -/
theorem mem_blk1 (t : Fin (cfg1 a).N) (i : S2048x1x64.Idx) :
    i ∈ (((cfg1 a).win 1).blk t).view.set ↔ ∀ b : Fin 3, ((cfg1 a).win 1).index t b * S1x1x64.size b ≤ (i b).val
      ∧ (i b).val < ((cfg1 a).win 1).index t b * S1x1x64.size b + S1x1x64.size b := by
  exact (mem_slice_out1 (((cfg1 a).win 1).rect t) i).trans Rect.mem_set_unit

/-- Row `r` of the output array is written back at point `r`. -/
theorem cover1 (i : S2048x1x64.Idx) :
    ∃ t : Fin (cfg1 a).N, ((cfg1 a).win 1).flush t = true ∧ i ∈ (((cfg1 a).win 1).blk t).view.set := by
  refine ⟨⟨(i 0).val, (i 0).isLt⟩, flush1_1 a _, ?_⟩
  rw [mem_blk1]
  intro b
  have hi1 : (i 1).val < 1 := (i 1).isLt
  have hi2 : (i 2).val < 64 := (i 2).isLt
  match b with
  | ⟨0, _⟩ =>
    show ((cfg1 a).win 1).index _ (0 : Fin 3) * 1 ≤ (i 0).val ∧ (i 0).val < ((cfg1 a).win 1).index _ (0 : Fin 3) * 1 + 1
    rw [index1_1_row]; show (i 0).val * 1 ≤ (i 0).val ∧ (i 0).val < (i 0).val * 1 + 1; omega
  | ⟨1, _⟩ =>
    show ((cfg1 a).win 1).index _ (1 : Fin 3) * 1 ≤ (i 1).val ∧ (i 1).val < ((cfg1 a).win 1).index _ (1 : Fin 3) * 1 + 1
    rw [index1_1_mid]; omega
  | ⟨2, _⟩ =>
    show ((cfg1 a).win 1).index _ (2 : Fin 3) * 64 ≤ (i 2).val ∧ (i 2).val < ((cfg1 a).win 1).index _ (2 : Fin 3) * 64 + 64
    rw [index1_1_col]; omega

/-- The output array after the last point, as a function: every row is written back once, with the source row the
    table names. -/
theorem final1_fun (c : Dev nD) : (dat1 V a c).arrAt 1 (cfg1 a).N = G1 V a c :=
  (dat1 V a c).arrAt_eq_of_cover 1 (G1 V a c) (fun t _ => flushed1_eq V a c t) (cover1 a)

/-- The output array after the last point, index by index. -/
theorem final1 (c : Dev nD) (i : S2048x1x64.Idx) : (dat1 V a c).arrAt 1 (cfg1 a).N i = V c main_v15 (row1 a i) :=
  congrFun (final1_fun V a c) i

/-- The coordinates of the source row read. -/
theorem row1_row (i : S2048x1x64.Idx) : (row1 a i 0).val = (a.1 0 (idx1 (i 0))).toNat := rfl
theorem row1_mid (i : S2048x1x64.Idx) : (row1 a i 1).val = 0 := rfl
theorem row1_col (i : S2048x1x64.Idx) : (row1 a i 2).val = (i 2).val := rfl

end Cert.Kernel.Hand

end
-- ==== Proof.K.Region2.lean ====
/-
  Region 2 of @main, the row gather whose input block index is read off a prefetched table: at point t the input window's
  block is row table[t] of the [150000, 1, 64] source and the output window's block is row t of the [2048, 1, 64] result;
  the body copies the one into the other. The pipeline's proof data at the entry contents `V` and admissible table
  contents `a`, the body obligation, and the output array after the last point.
-/
import proofs.«413445_j54949811585067_2_alg».proof.Proof.Gen.Kernel.Launch
import proofs.«413445_j54949811585067_2_alg».proof.Proof.Gen.Kernel.Skeleton
import proofs.«413445_j54949811585067_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg2 (F := F)).Adm)

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef (cfg2 a).spec w))

/-- The whole 1×1×64 staging block. -/
abbrev r2 : Rect S1x1x64 := Rect.unit (s := S1x1x64) ![0, 0, 0] S1x1x64.size inb_S1x1x64_S1x1x64_0_0_0

/-- The output window's buffer after the body: its one store, of the loaded input block. -/
def out2_1 (x0 : Vec F S1x1x64 .f32) : Vec F S1x1x64 .f32 :=
  View.canon [⟨r2, k2_pay1 (View.ld x0 r2)⟩]

/-- The proof data of pipeline 2 on core `c`: the invariant keeps, beside the class's scoped rest and generator register,
    the prefetched table whole at the admitted contents. -/
def dat2 (c : Dev nD) : Dat τ (Elt F) Unit ℕ (UR sig nD τ) ℕ (cfg2 a) c where
  A w := V c (Pipeline.arrRef (cfg2 a).spec w)
  after w t := match w with
    | ⟨0, _⟩ => iblk2 V a c 0 t
    | ⟨1, _⟩ => out2_1 (iblk2 V a c 0 t)
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef (cfg2 a).spec w) := by
  dsimp only [dat2]

/-! ## The body at a point -/

/-- The staging memref each window is on at point `t`. -/
abbrev st2_0 (t : Fin (cfg2 a).N) := ((cfg2 a).win 0).stage ((cfg2 a).slots t 0)
abbrev st2_1 (t : Fin (cfg2 a).N) := ((cfg2 a).win 1).stage ((cfg2 a).slots t 1)

/-- The body as the pipeline calls it at point `t`: the table's whole memref, then the two current staging memrefs. -/
abbrev bodyAt2 (t : Fin (cfg2 a).N) : Prog (TpuEff nD τ sig (Elt F) Λ₀ .tc) PUnit :=
  cc2__gather_kernel (grid2.coords t) (Memref.whole main_v19) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))

/-! ## The input window's buffer -/

/-- The input window's current buffer holds its block at every point, fetched there or not: where no fetch happens
    the block index has not moved, and the body leaves the buffer as it found it. -/
theorem before2_0_of {c : Dev nD} (dat : Dat τ (Elt F) Unit ℕ (UR sig nD τ) ℕ (cfg2 a) c)
    (hA : dat.A 0 = V c (Pipeline.arrRef (cfg2 a).spec 0))
    (hafter : ∀ t, dat.after 0 t = iblk2 V a c 0 t) (t : Fin (cfg2 a).N) (d) : dat.before 0 t d = iblk2 V a c 0 t := by
  have hkeep : ∀ t, ((cfg2 a).win 0).cut ((cfg2 a).grid.coords t) (dat.after 0 t) = dat.blockOf 0 t := fun t => by
    rw [hafter]; unfold Dat.blockOf iblk2; rw [hA]; try rfl
  refine (dat.before_in_eq_fetched 0 rfl (fun _ => rfl) (fun _ _ _ => rfl) hkeep t d).trans ?_
  unfold Dat.fetched Dat.blockOf iblk2; rw [hA]; try rfl

/-! ## The body's one store -/

/-- The one store is of the whole 1×1×64 buffer, so every cell of it is written. -/
theorem cover2_1 (p0 : Vec F S1x1x64 .f32) (y : S1x1x64.Idx) :
    ∃ pc ∈ ([⟨r2, p0⟩] : List (View.Piece (Elt F) S1x1x64 .f32)), y ∈ pc.1.set :=
  View.cover_of_tiled [⟨r2, p0⟩] S1x1x64.size (by rfl) y

set_option maxHeartbeats 1000000 in
/-- The body on whole staging memrefs: the input's at `x0` and the output's at anything; it reads both, writes the
    output's with the input's contents, and never touches its first argument, the table. So it runs to any continuation
    that takes the input's buffer back as it was and the output's at `out2_1 x0`. -/
theorem sound_kernel2 (c : Dev nD) (E : Set ℕ) (i : grid2.Coords) (tb : Memref sig .tc .smem S2048 .i32) (htb : tb.IsWhole)
    (arg0 : Memref sig .tc .vmem S1x1x64 .f32) (harg0 : arg0.IsWhole) (arg1 : Memref sig .tc .vmem S1x1x64 .f32) (harg1 : arg1.IsWhole)
    (x0 : Vec F S1x1x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__gather_kernel i tb htb arg0 harg0 arg1 harg1) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The body obligation -/

theorem after2_0 (c : Dev nD) (t : Fin (cfg2 a).N) : (dat2 V a c).after 0 t = iblk2 V a c 0 t := by dsimp only [dat2]; rfl
theorem after2_1 (c : Dev nD) (t : Fin (cfg2 a).N) : (dat2 V a c).after 1 t = out2_1 (iblk2 V a c 0 t) := by dsimp only [dat2]; rfl

theorem before2_0 (c : Dev nD) (t : Fin (cfg2 a).N) (d) : (dat2 V a c).before 0 t d = iblk2 V a c 0 t :=
  before2_0_of V a (dat2 V a c) (A_eq2 V a c 0) (after2_0 V a c) t d

/-- What the body is handed at point `t`: the invariant (with the table in it), the core's debts, and the two current
    buffers, -/
def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d)))

/-- and what it hands back. -/
def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t))

/-- The body at any point: the input's buffer holds its block, so the body's triple applies; the invariant, the table
    inside it, and the core's debts are not read and pass through. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0]
  rw [show (dat2 V a c).Φ t.succ = (dat2 V a c).Φ t.castSucc from rfl,
    show (dat2 V a c).owesAt () t.succ = (dat2 V a c).owesAt () t.castSucc from rfl,
    after2_0, after2_1]
  iintro ⟨HΦ, Ho, ⟨%d0, H0⟩, ⟨%d1, H1⟩⟩
  iapply (sound_kernel2 c Set.univ _ _ _ _ _ _ _ (iblk2 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V a c) (defs₀ (F := F)) Variants.none () Set.univ := fun t => by
  rw [bigSep_W2, bigSep_W2]
  exact sound_body2 V a c t

/-! ## The output array after the last point -/

/-- A row number of the table is inside its one axis. -/
theorem lt_size2 (k : Fin 2048) (b : Fin 1) : k.val < S2048.size b := by
  obtain rfl : b = 0 := Subsingleton.elim _ _
  exact k.isLt

/-- Row `k` of the table, as an index of it. -/
def idx2 (k : Fin 2048) : S2048.Idx := fun b => ⟨k.val, lt_size2 k b⟩

theorem N2_eq : (cfg2 a).N = 2048 := N_2

/-- The grid is one axis of 2048 points: point `t` has coordinate `t`. -/
theorem coords2_val (t : Fin grid2.N) : ((grid2.coords t) 0).val = t.val := by
  show t.val / grid2.stride 0 % grid2.bound 0 = t.val
  have h1 : grid2.stride 0 = 1 := by decide
  have h2 : grid2.bound 0 = 2048 := rfl
  have := t.isLt
  have h3 : grid2.N = 2048 := N_2
  rw [h1, h2, Nat.div_one]; omega

/-- The one-word rectangle the index map loads through, at the point's coordinate, names row `i 0` of the table. -/
theorem wordRect2_emb (i : grid2.Coords) :
    (Rect.unit (s := S2048) ![(Scalar.indexCast (BitVec.ofNat 32 (i 0).val)).toNat] S1.size (k2_off1_inb i)).emb
      (Shape.Idx.first (numel1_S1.symm ▸ Nat.one_pos)) = idx2 ⟨(i 0).val, (i 0).isLt⟩ := by
  funext b; apply Fin.ext
  obtain rfl : b = 0 := Subsingleton.elim _ _
  rw [Rect.emb_apply]
  show (BitVec.ofNat 32 (i 0).val).toNat + 1 * 0 = (i 0).val
  have hi : (i 0).val < 2048 := (i 0).isLt
  rw [BitVec.toNat_ofNat]; omega

/-- The word the index map loads at coordinates `i`, at any table contents, is the table at row `i 0`. -/
theorem word2_eq (pf : pre2.Contents (Elt F)) (i : grid2.Coords) :
    pf.at 0 (Rect.unit (s := S2048) ![(Scalar.indexCast (BitVec.ofNat 32 (i 0).val)).toNat] S1.size (k2_off1_inb i)) numel1_S1
      = pf 0 (idx2 ⟨(i 0).val, (i 0).isLt⟩) :=
  congrArg (pf 0) (wordRect2_emb i)

/-- The input's index map at any table contents: the leading block index is the table's word for the point, the
    others are zero. -/
theorem transform2_0_eq (pf : pre2.Contents (Elt F)) (i : grid2.Coords) :
    cc2_transform_0 k2_off1_inb numel1_S1 pf i = ![(pf 0 (idx2 ⟨(i 0).val, (i 0).isLt⟩)).toNat, 0, 0] := by
  unfold cc2_transform_0
  dsimp only
  exact congrArg (fun x => ![(pf 0 x).toNat, 0, 0]) (wordRect2_emb i)

/-- The output's index map: the leading block index is the point's coordinate, the others are zero. -/
theorem transform2_1_eq (i : grid2.Coords) : cc2_transform_1 i = ![(i 0).val, 0, 0] := by
  unfold cc2_transform_1
  dsimp only
  have hi : (i 0).val < 2048 := (i 0).isLt
  have e : (BitVec.ofNat 32 (i 0).val).toNat = (i 0).val := by rw [BitVec.toNat_ofNat]; omega
  rw [e]; rfl

theorem index2_0 (t : Fin (cfg2 a).N) : ((cfg2 a).win 0).index t = cc2_transform_0 k2_off1_inb numel1_S1 a.1 (grid2.coords t) := rfl
theorem index2_1 (t : Fin (cfg2 a).N) : ((cfg2 a).win 1).index t = cc2_transform_1 (grid2.coords t) := rfl

/-- The output window is written back at every point, whatever the table holds: its index map reads only the point. -/
theorem flush2_1 : ∀ t : Fin (cfg2 a).N, ((cfg2 a).win 1).flush t = true :=
  (by decide +kernel : ∀ t : Fin grid2.N, Pipeline.Window.flushOf grid2 true cc2_transform_1 t = true)

/-- The input's block index at point `t`: row the table's word for `t`, the one middle block, the one column block. -/
theorem index2_0_row (t : Fin (cfg2 a).N) : ((cfg2 a).win 0).index t (0 : Fin 3) = (a.1 0 (idx2 ⟨t.val, t.isLt⟩)).toNat := by
  rw [index2_0, transform2_0_eq]
  exact congrArg (fun k => (a.1 0 (idx2 k)).toNat) (Fin.ext (coords2_val t))
theorem index2_0_mid (t : Fin (cfg2 a).N) : ((cfg2 a).win 0).index t (1 : Fin 3) = 0 := by
  rw [index2_0, transform2_0_eq]; rfl
theorem index2_0_col (t : Fin (cfg2 a).N) : ((cfg2 a).win 0).index t (2 : Fin 3) = 0 := by
  rw [index2_0, transform2_0_eq]; rfl

/-- The output's block index at point `t`: row `t`, the one middle block, the one column block. -/
theorem index2_1_row (t : Fin (cfg2 a).N) : ((cfg2 a).win 1).index t (0 : Fin 3) = t.val := by
  rw [index2_1, transform2_1_eq]; exact coords2_val t
theorem index2_1_mid (t : Fin (cfg2 a).N) : ((cfg2 a).win 1).index t (1 : Fin 3) = 0 := by
  rw [index2_1, transform2_1_eq]; rfl
theorem index2_1_col (t : Fin (cfg2 a).N) : ((cfg2 a).win 1).index t (2 : Fin 3) = 0 := by
  rw [index2_1, transform2_1_eq]; rfl

/-- Every word of an admitted table is a row number of the source: the side condition, read at the word's point. -/
theorem word2_lt (k : Fin 2048) : (a.1 0 (idx2 k)).toNat < 150000 := by
  obtain ⟨h, -⟩ := a.2 (grid2.coords ⟨k.val, k.isLt⟩)
  have h0 := h 0
  rw [transform2_0_eq] at h0
  have e : (⟨((grid2.coords ⟨k.val, k.isLt⟩) 0).val, ((grid2.coords ⟨k.val, k.isLt⟩) 0).isLt⟩ : Fin 2048) = k :=
    Fin.ext (coords2_val ⟨k.val, k.isLt⟩)
  rw [e] at h0
  have h1 : ((a.1 0 (idx2 k)).toNat + 1) * 1 ≤ 150000 := h0
  omega

/-- The source row the output's index `i` reads: the table's word for `i`'s row, the one middle coordinate, `i`'s column. -/
def row2 (i : S2048x1x64.Idx) : S150000x1x64.Idx := fun b => match b with
  | ⟨0, _⟩ => ⟨(a.1 0 (idx2 (i 0))).toNat, word2_lt a (i 0)⟩
  | ⟨1, _⟩ => ⟨0, Nat.one_pos⟩
  | ⟨2, _⟩ => i 2

/-- What the output array ends holding: at each index, the source at the row the table names. -/
abbrev G2 (c : Dev nD) : S2048x1x64.Idx → Elt F .f32 := fun i => V c main_v20 (row2 a i)

theorem hz2 : (![0, 0, 0] : Fin 3 → Nat) = fun _ => 0 := funext fun b => by fin_cases b <;> rfl

/-- The stored value is the loaded block: the shape cast between them is of a shape to itself. -/
theorem pay2_eq (x : Vec F S1x1x64 .f32) : k2_pay1 x = x := by
  unfold k2_pay1; exact shapeCast_self _ _

/-- The output's buffer after the body is the input's block: the one store covers the buffer, and stores what the
    one load read, all of the input's buffer. -/
theorem out2_1_eq (x : Vec F S1x1x64 .f32) : out2_1 x = x := by
  unfold out2_1
  rw [View.canon_unit_zero hz2, pay2_eq, View.ld_unit_zero hz2]

theorem flushed2_eq (c : Dev nD) (t : Fin (cfg2 a).N) :
    (dat2 V a c).flushed 1 t = (((cfg2 a).win 1).blk t).view.read (Elt F) (G2 V a c) := by
  show ((cfg2 a).win 1).cut (grid2.coords t) ((dat2 V a c).after 1 t) = _
  rw [after2_1]
  funext j
  refine (congrFun (out2_1_eq (iblk2 V a c 0 t)) _).trans ?_
  show V c main_v20 ((((cfg2 a).win 0).blk t).view.emb (((cfg2 a).win 1).xinj (grid2.coords t) j))
     = V c main_v20 (row2 a ((((cfg2 a).win 1).blk t).view.emb j))
  refine congrArg (V c main_v20) ?_
  have hj0 : (j (0 : Fin 3)).val < 1 := (j (0 : Fin 3)).isLt
  have hj1 : (j (1 : Fin 3)).val < 1 := (j (1 : Fin 3)).isLt
  have h0 : (((((cfg2 a).win 1).blk t).view.emb j) (0 : Fin 3)).val = t.val := by
    show ((cfg2 a).win 1).index t (0 : Fin 3) * 1 + 1 * (j (0 : Fin 3)).val = t.val
    rw [index2_1_row]; omega
  have h2 : (((((cfg2 a).win 1).blk t).view.emb j) (2 : Fin 3)).val = (j (2 : Fin 3)).val := by
    show ((cfg2 a).win 1).index t (2 : Fin 3) * 64 + 1 * (j (2 : Fin 3)).val = (j (2 : Fin 3)).val
    rw [index2_1_col]; omega
  generalize (((cfg2 a).win 1).blk t).view.emb j = i' at h0 h2 ⊢
  have hb : ∀ b : Fin 3, ((((cfg2 a).win 0).blk t).view.emb (((cfg2 a).win 1).xinj (grid2.coords t) j) b).val = (row2 a i' b).val := fun b => by
    match b with
    | ⟨0, _⟩ =>
      have e : (a.1 0 (idx2 (i' (0 : Fin 3)))).toNat = (a.1 0 (idx2 ⟨t.val, t.isLt⟩)).toNat :=
        congrArg (fun k => (a.1 0 (idx2 k)).toNat) (Fin.ext h0)
      show ((cfg2 a).win 0).index t (0 : Fin 3) * 1 + 1 * (j (0 : Fin 3)).val = (a.1 0 (idx2 (i' (0 : Fin 3)))).toNat
      rw [index2_0_row]; omega
    | ⟨1, _⟩ =>
      show ((cfg2 a).win 0).index t (1 : Fin 3) * 1 + 1 * (j (1 : Fin 3)).val = 0
      rw [index2_0_mid]; omega
    | ⟨2, _⟩ =>
      show ((cfg2 a).win 0).index t (2 : Fin 3) * 64 + 1 * (j (2 : Fin 3)).val = (i' (2 : Fin 3)).val
      rw [index2_0_col]; omega
  funext b; apply Fin.ext
  exact hb b

/-- A rectangle of the whole output array, as a view of it, covers the rectangle's own indices. -/
theorem mem_slice_out2 (r : Rect main_v21.ty.shape) (i : main_v21.ty.shape.Idx) :
    i ∈ ((View.whole main_v21).slice r).set ↔ i ∈ r.set := by
  rw [View.set_slice_whole]

/-- An index of the output array is in point `t`'s block iff each coordinate is in the block's range on its axis. -/
theorem mem_blk2 (t : Fin (cfg2 a).N) (i : S2048x1x64.Idx) :
    i ∈ (((cfg2 a).win 1).blk t).view.set ↔ ∀ b : Fin 3, ((cfg2 a).win 1).index t b * S1x1x64.size b ≤ (i b).val
      ∧ (i b).val < ((cfg2 a).win 1).index t b * S1x1x64.size b + S1x1x64.size b := by
  exact (mem_slice_out2 (((cfg2 a).win 1).rect t) i).trans Rect.mem_set_unit

/-- Row `r` of the output array is written back at point `r`. -/
theorem cover2 (i : S2048x1x64.Idx) :
    ∃ t : Fin (cfg2 a).N, ((cfg2 a).win 1).flush t = true ∧ i ∈ (((cfg2 a).win 1).blk t).view.set := by
  refine ⟨⟨(i 0).val, (i 0).isLt⟩, flush2_1 a _, ?_⟩
  rw [mem_blk2]
  intro b
  have hi1 : (i 1).val < 1 := (i 1).isLt
  have hi2 : (i 2).val < 64 := (i 2).isLt
  match b with
  | ⟨0, _⟩ =>
    show ((cfg2 a).win 1).index _ (0 : Fin 3) * 1 ≤ (i 0).val ∧ (i 0).val < ((cfg2 a).win 1).index _ (0 : Fin 3) * 1 + 1
    rw [index2_1_row]; show (i 0).val * 1 ≤ (i 0).val ∧ (i 0).val < (i 0).val * 1 + 1; omega
  | ⟨1, _⟩ =>
    show ((cfg2 a).win 1).index _ (1 : Fin 3) * 1 ≤ (i 1).val ∧ (i 1).val < ((cfg2 a).win 1).index _ (1 : Fin 3) * 1 + 1
    rw [index2_1_mid]; omega
  | ⟨2, _⟩ =>
    show ((cfg2 a).win 1).index _ (2 : Fin 3) * 64 ≤ (i 2).val ∧ (i 2).val < ((cfg2 a).win 1).index _ (2 : Fin 3) * 64 + 64
    rw [index2_1_col]; omega

/-- The output array after the last point, as a function: every row is written back once, with the source row the
    table names. -/
theorem final2_fun (c : Dev nD) : (dat2 V a c).arrAt 1 (cfg2 a).N = G2 V a c :=
  (dat2 V a c).arrAt_eq_of_cover 1 (G2 V a c) (fun t _ => flushed2_eq V a c t) (cover2 a)

/-- The output array after the last point, index by index. -/
theorem final2 (c : Dev nD) (i : S2048x1x64.Idx) : (dat2 V a c).arrAt 1 (cfg2 a).N i = V c main_v20 (row2 a i) :=
  congrFun (final2_fun V a c) i

/-- The coordinates of the source row read. -/
theorem row2_row (i : S2048x1x64.Idx) : (row2 a i 0).val = (a.1 0 (idx2 (i 0))).toNat := rfl
theorem row2_mid (i : S2048x1x64.Idx) : (row2 a i 1).val = 0 := rfl
theorem row2_col (i : S2048x1x64.Idx) : (row2 a i 2).val = (i 2).val := rfl

end Cert.Kernel.Hand

end
-- ==== Proof.K.Region3.lean ====
/-
  Region 3 of @main, the row gather whose input block index is read off a prefetched table: at point t the input window's
  block is row table[t] of the [150000, 1, 64] source and the output window's block is row t of the [8192, 1, 64] result;
  the body copies the one into the other. The pipeline's proof data at the entry contents `V` and admissible table
  contents `a`, the body obligation, and the output array after the last point.
-/
import proofs.«413445_j54949811585067_2_alg».proof.Proof.Gen.Kernel.Launch
import proofs.«413445_j54949811585067_2_alg».proof.Proof.Gen.Kernel.Skeleton
import proofs.«413445_j54949811585067_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg3 (F := F)).Adm)

/-- Window `w`'s block at point `t`, read off its array as the region finds it. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef (cfg3 a).spec w))

/-- The whole 1×1×64 staging block. -/
abbrev r3 : Rect S1x1x64 := Rect.unit (s := S1x1x64) ![0, 0, 0] S1x1x64.size inb_S1x1x64_S1x1x64_0_0_0

/-- The output window's buffer after the body: its one store, of the loaded input block. -/
def out3_1 (x0 : Vec F S1x1x64 .f32) : Vec F S1x1x64 .f32 :=
  View.canon [⟨r3, k3_pay1 (View.ld x0 r3)⟩]

/-- The proof data of pipeline 3 on core `c`: the invariant keeps, beside the class's scoped rest and generator register,
    the prefetched table whole at the admitted contents. -/
def dat3 (c : Dev nD) : Dat τ (Elt F) Unit ℕ (UR sig nD τ) ℕ (cfg3 a) c where
  A w := V c (Pipeline.arrRef (cfg3 a).spec w)
  after w t := match w with
    | ⟨0, _⟩ => iblk3 V a c 0 t
    | ⟨1, _⟩ => out3_1 (iblk3 V a c 0 t)
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef (cfg3 a).spec w) := by
  dsimp only [dat3]

/-! ## The body at a point -/

/-- The staging memref each window is on at point `t`. -/
abbrev st3_0 (t : Fin (cfg3 a).N) := ((cfg3 a).win 0).stage ((cfg3 a).slots t 0)
abbrev st3_1 (t : Fin (cfg3 a).N) := ((cfg3 a).win 1).stage ((cfg3 a).slots t 1)

/-- The body as the pipeline calls it at point `t`: the table's whole memref, then the two current staging memrefs. -/
abbrev bodyAt3 (t : Fin (cfg3 a).N) : Prog (TpuEff nD τ sig (Elt F) Λ₀ .tc) PUnit :=
  cc3__gather_kernel (grid3.coords t) (Memref.whole main_v24) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))

/-! ## The input window's buffer -/

/-- The input window's current buffer holds its block at every point, fetched there or not: where no fetch happens
    the block index has not moved, and the body leaves the buffer as it found it. -/
theorem before3_0_of {c : Dev nD} (dat : Dat τ (Elt F) Unit ℕ (UR sig nD τ) ℕ (cfg3 a) c)
    (hA : dat.A 0 = V c (Pipeline.arrRef (cfg3 a).spec 0))
    (hafter : ∀ t, dat.after 0 t = iblk3 V a c 0 t) (t : Fin (cfg3 a).N) (d) : dat.before 0 t d = iblk3 V a c 0 t := by
  have hkeep : ∀ t, ((cfg3 a).win 0).cut ((cfg3 a).grid.coords t) (dat.after 0 t) = dat.blockOf 0 t := fun t => by
    rw [hafter]; unfold Dat.blockOf iblk3; rw [hA]; try rfl
  refine (dat.before_in_eq_fetched 0 rfl (fun _ => rfl) (fun _ _ _ => rfl) hkeep t d).trans ?_
  unfold Dat.fetched Dat.blockOf iblk3; rw [hA]; try rfl

/-! ## The body's one store -/

/-- The one store is of the whole 1×1×64 buffer, so every cell of it is written. -/
theorem cover3_1 (p0 : Vec F S1x1x64 .f32) (y : S1x1x64.Idx) :
    ∃ pc ∈ ([⟨r3, p0⟩] : List (View.Piece (Elt F) S1x1x64 .f32)), y ∈ pc.1.set :=
  View.cover_of_tiled [⟨r3, p0⟩] S1x1x64.size (by rfl) y

set_option maxHeartbeats 1000000 in
/-- The body on whole staging memrefs: the input's at `x0` and the output's at anything; it reads both, writes the
    output's with the input's contents, and never touches its first argument, the table. So it runs to any continuation
    that takes the input's buffer back as it was and the output's at `out3_1 x0`. -/
theorem sound_kernel3 (c : Dev nD) (E : Set ℕ) (i : grid3.Coords) (tb : Memref sig .tc .smem S8192 .i32) (htb : tb.IsWhole)
    (arg0 : Memref sig .tc .vmem S1x1x64 .f32) (harg0 : arg0.IsWhole) (arg1 : Memref sig .tc .vmem S1x1x64 .f32) (harg1 : arg1.IsWhole)
    (x0 : Vec F S1x1x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__gather_kernel i tb htb arg0 harg0 arg1 harg1) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The body obligation -/

theorem after3_0 (c : Dev nD) (t : Fin (cfg3 a).N) : (dat3 V a c).after 0 t = iblk3 V a c 0 t := by dsimp only [dat3]; rfl
theorem after3_1 (c : Dev nD) (t : Fin (cfg3 a).N) : (dat3 V a c).after 1 t = out3_1 (iblk3 V a c 0 t) := by dsimp only [dat3]; rfl

theorem before3_0 (c : Dev nD) (t : Fin (cfg3 a).N) (d) : (dat3 V a c).before 0 t d = iblk3 V a c 0 t :=
  before3_0_of V a (dat3 V a c) (A_eq3 V a c 0) (after3_0 V a c) t d

/-- What the body is handed at point `t`: the invariant (with the table in it), the core's debts, and the two current
    buffers, -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d)))

/-- and what it hands back. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t))

/-- The body at any point: the input's buffer holds its block, so the body's triple applies; the invariant, the table
    inside it, and the core's debts are not read and pass through. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0]
  rw [show (dat3 V a c).Φ t.succ = (dat3 V a c).Φ t.castSucc from rfl,
    show (dat3 V a c).owesAt () t.succ = (dat3 V a c).owesAt () t.castSucc from rfl,
    after3_0, after3_1]
  iintro ⟨HΦ, Ho, ⟨%d0, H0⟩, ⟨%d1, H1⟩⟩
  iapply (sound_kernel3 c Set.univ _ _ _ _ _ _ _ (iblk3 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V a c) (defs₀ (F := F)) Variants.none () Set.univ := fun t => by
  rw [bigSep_W3, bigSep_W3]
  exact sound_body3 V a c t

/-! ## The output array after the last point -/

/-- A row number of the table is inside its one axis. -/
theorem lt_size3 (k : Fin 8192) (b : Fin 1) : k.val < S8192.size b := by
  obtain rfl : b = 0 := Subsingleton.elim _ _
  exact k.isLt

/-- Row `k` of the table, as an index of it. -/
def idx3 (k : Fin 8192) : S8192.Idx := fun b => ⟨k.val, lt_size3 k b⟩

theorem N3_eq : (cfg3 a).N = 8192 := N_3

/-- The grid is one axis of 8192 points: point `t` has coordinate `t`. -/
theorem coords3_val (t : Fin grid3.N) : ((grid3.coords t) 0).val = t.val := by
  show t.val / grid3.stride 0 % grid3.bound 0 = t.val
  have h1 : grid3.stride 0 = 1 := by decide
  have h2 : grid3.bound 0 = 8192 := rfl
  have := t.isLt
  have h3 : grid3.N = 8192 := N_3
  rw [h1, h2, Nat.div_one]; omega

/-- The one-word rectangle the index map loads through, at the point's coordinate, names row `i 0` of the table. -/
theorem wordRect3_emb (i : grid3.Coords) :
    (Rect.unit (s := S8192) ![(Scalar.indexCast (BitVec.ofNat 32 (i 0).val)).toNat] S1.size (k3_off1_inb i)).emb
      (Shape.Idx.first (numel1_S1.symm ▸ Nat.one_pos)) = idx3 ⟨(i 0).val, (i 0).isLt⟩ := by
  funext b; apply Fin.ext
  obtain rfl : b = 0 := Subsingleton.elim _ _
  rw [Rect.emb_apply]
  show (BitVec.ofNat 32 (i 0).val).toNat + 1 * 0 = (i 0).val
  have hi : (i 0).val < 8192 := (i 0).isLt
  rw [BitVec.toNat_ofNat]; omega

/-- The word the index map loads at coordinates `i`, at any table contents, is the table at row `i 0`. -/
theorem word3_eq (pf : pre3.Contents (Elt F)) (i : grid3.Coords) :
    pf.at 0 (Rect.unit (s := S8192) ![(Scalar.indexCast (BitVec.ofNat 32 (i 0).val)).toNat] S1.size (k3_off1_inb i)) numel1_S1
      = pf 0 (idx3 ⟨(i 0).val, (i 0).isLt⟩) :=
  congrArg (pf 0) (wordRect3_emb i)

/-- The input's index map at any table contents: the leading block index is the table's word for the point, the
    others are zero. -/
theorem transform3_0_eq (pf : pre3.Contents (Elt F)) (i : grid3.Coords) :
    cc3_transform_0 k3_off1_inb numel1_S1 pf i = ![(pf 0 (idx3 ⟨(i 0).val, (i 0).isLt⟩)).toNat, 0, 0] := by
  unfold cc3_transform_0
  dsimp only
  exact congrArg (fun x => ![(pf 0 x).toNat, 0, 0]) (wordRect3_emb i)

/-- The output's index map: the leading block index is the point's coordinate, the others are zero. -/
theorem transform3_1_eq (i : grid3.Coords) : cc3_transform_1 i = ![(i 0).val, 0, 0] := by
  unfold cc3_transform_1
  dsimp only
  have hi : (i 0).val < 8192 := (i 0).isLt
  have e : (BitVec.ofNat 32 (i 0).val).toNat = (i 0).val := by rw [BitVec.toNat_ofNat]; omega
  rw [e]; rfl

theorem index3_0 (t : Fin (cfg3 a).N) : ((cfg3 a).win 0).index t = cc3_transform_0 k3_off1_inb numel1_S1 a.1 (grid3.coords t) := rfl
theorem index3_1 (t : Fin (cfg3 a).N) : ((cfg3 a).win 1).index t = cc3_transform_1 (grid3.coords t) := rfl

/-- The output window is written back at every point, whatever the table holds: its index map reads only the point. -/
theorem flush3_1 : ∀ t : Fin (cfg3 a).N, ((cfg3 a).win 1).flush t = true :=
  (by decide +kernel : ∀ t : Fin grid3.N, Pipeline.Window.flushOf grid3 true cc3_transform_1 t = true)

/-- The input's block index at point `t`: row the table's word for `t`, the one middle block, the one column block. -/
theorem index3_0_row (t : Fin (cfg3 a).N) : ((cfg3 a).win 0).index t (0 : Fin 3) = (a.1 0 (idx3 ⟨t.val, t.isLt⟩)).toNat := by
  rw [index3_0, transform3_0_eq]
  exact congrArg (fun k => (a.1 0 (idx3 k)).toNat) (Fin.ext (coords3_val t))
theorem index3_0_mid (t : Fin (cfg3 a).N) : ((cfg3 a).win 0).index t (1 : Fin 3) = 0 := by
  rw [index3_0, transform3_0_eq]; rfl
theorem index3_0_col (t : Fin (cfg3 a).N) : ((cfg3 a).win 0).index t (2 : Fin 3) = 0 := by
  rw [index3_0, transform3_0_eq]; rfl

/-- The output's block index at point `t`: row `t`, the one middle block, the one column block. -/
theorem index3_1_row (t : Fin (cfg3 a).N) : ((cfg3 a).win 1).index t (0 : Fin 3) = t.val := by
  rw [index3_1, transform3_1_eq]; exact coords3_val t
theorem index3_1_mid (t : Fin (cfg3 a).N) : ((cfg3 a).win 1).index t (1 : Fin 3) = 0 := by
  rw [index3_1, transform3_1_eq]; rfl
theorem index3_1_col (t : Fin (cfg3 a).N) : ((cfg3 a).win 1).index t (2 : Fin 3) = 0 := by
  rw [index3_1, transform3_1_eq]; rfl

/-- Every word of an admitted table is a row number of the source: the side condition, read at the word's point. -/
theorem word3_lt (k : Fin 8192) : (a.1 0 (idx3 k)).toNat < 150000 := by
  obtain ⟨h, -⟩ := a.2 (grid3.coords ⟨k.val, k.isLt⟩)
  have h0 := h 0
  rw [transform3_0_eq] at h0
  have e : (⟨((grid3.coords ⟨k.val, k.isLt⟩) 0).val, ((grid3.coords ⟨k.val, k.isLt⟩) 0).isLt⟩ : Fin 8192) = k :=
    Fin.ext (coords3_val ⟨k.val, k.isLt⟩)
  rw [e] at h0
  have h1 : ((a.1 0 (idx3 k)).toNat + 1) * 1 ≤ 150000 := h0
  omega

/-- The source row the output's index `i` reads: the table's word for `i`'s row, the one middle coordinate, `i`'s column. -/
def row3 (i : S8192x1x64.Idx) : S150000x1x64.Idx := fun b => match b with
  | ⟨0, _⟩ => ⟨(a.1 0 (idx3 (i 0))).toNat, word3_lt a (i 0)⟩
  | ⟨1, _⟩ => ⟨0, Nat.one_pos⟩
  | ⟨2, _⟩ => i 2

/-- What the output array ends holding: at each index, the source at the row the table names. -/
abbrev G3 (c : Dev nD) : S8192x1x64.Idx → Elt F .f32 := fun i => V c main_v25 (row3 a i)

theorem hz3 : (![0, 0, 0] : Fin 3 → Nat) = fun _ => 0 := funext fun b => by fin_cases b <;> rfl

/-- The stored value is the loaded block: the shape cast between them is of a shape to itself. -/
theorem pay3_eq (x : Vec F S1x1x64 .f32) : k3_pay1 x = x := by
  unfold k3_pay1; exact shapeCast_self _ _

/-- The output's buffer after the body is the input's block: the one store covers the buffer, and stores what the
    one load read, all of the input's buffer. -/
theorem out3_1_eq (x : Vec F S1x1x64 .f32) : out3_1 x = x := by
  unfold out3_1
  rw [View.canon_unit_zero hz3, pay3_eq, View.ld_unit_zero hz3]

theorem flushed3_eq (c : Dev nD) (t : Fin (cfg3 a).N) :
    (dat3 V a c).flushed 1 t = (((cfg3 a).win 1).blk t).view.read (Elt F) (G3 V a c) := by
  show ((cfg3 a).win 1).cut (grid3.coords t) ((dat3 V a c).after 1 t) = _
  rw [after3_1]
  funext j
  refine (congrFun (out3_1_eq (iblk3 V a c 0 t)) _).trans ?_
  show V c main_v25 ((((cfg3 a).win 0).blk t).view.emb (((cfg3 a).win 1).xinj (grid3.coords t) j))
     = V c main_v25 (row3 a ((((cfg3 a).win 1).blk t).view.emb j))
  refine congrArg (V c main_v25) ?_
  have hj0 : (j (0 : Fin 3)).val < 1 := (j (0 : Fin 3)).isLt
  have hj1 : (j (1 : Fin 3)).val < 1 := (j (1 : Fin 3)).isLt
  have h0 : (((((cfg3 a).win 1).blk t).view.emb j) (0 : Fin 3)).val = t.val := by
    show ((cfg3 a).win 1).index t (0 : Fin 3) * 1 + 1 * (j (0 : Fin 3)).val = t.val
    rw [index3_1_row]; omega
  have h2 : (((((cfg3 a).win 1).blk t).view.emb j) (2 : Fin 3)).val = (j (2 : Fin 3)).val := by
    show ((cfg3 a).win 1).index t (2 : Fin 3) * 64 + 1 * (j (2 : Fin 3)).val = (j (2 : Fin 3)).val
    rw [index3_1_col]; omega
  generalize (((cfg3 a).win 1).blk t).view.emb j = i' at h0 h2 ⊢
  have hb : ∀ b : Fin 3, ((((cfg3 a).win 0).blk t).view.emb (((cfg3 a).win 1).xinj (grid3.coords t) j) b).val = (row3 a i' b).val := fun b => by
    match b with
    | ⟨0, _⟩ =>
      have e : (a.1 0 (idx3 (i' (0 : Fin 3)))).toNat = (a.1 0 (idx3 ⟨t.val, t.isLt⟩)).toNat :=
        congrArg (fun k => (a.1 0 (idx3 k)).toNat) (Fin.ext h0)
      show ((cfg3 a).win 0).index t (0 : Fin 3) * 1 + 1 * (j (0 : Fin 3)).val = (a.1 0 (idx3 (i' (0 : Fin 3)))).toNat
      rw [index3_0_row]; omega
    | ⟨1, _⟩ =>
      show ((cfg3 a).win 0).index t (1 : Fin 3) * 1 + 1 * (j (1 : Fin 3)).val = 0
      rw [index3_0_mid]; omega
    | ⟨2, _⟩ =>
      show ((cfg3 a).win 0).index t (2 : Fin 3) * 64 + 1 * (j (2 : Fin 3)).val = (i' (2 : Fin 3)).val
      rw [index3_0_col]; omega
  funext b; apply Fin.ext
  exact hb b

/-- A rectangle of the whole output array, as a view of it, covers the rectangle's own indices. -/
theorem mem_slice_out3 (r : Rect main_v26.ty.shape) (i : main_v26.ty.shape.Idx) :
    i ∈ ((View.whole main_v26).slice r).set ↔ i ∈ r.set := by
  rw [View.set_slice_whole]

/-- An index of the output array is in point `t`'s block iff each coordinate is in the block's range on its axis. -/
theorem mem_blk3 (t : Fin (cfg3 a).N) (i : S8192x1x64.Idx) :
    i ∈ (((cfg3 a).win 1).blk t).view.set ↔ ∀ b : Fin 3, ((cfg3 a).win 1).index t b * S1x1x64.size b ≤ (i b).val
      ∧ (i b).val < ((cfg3 a).win 1).index t b * S1x1x64.size b + S1x1x64.size b := by
  exact (mem_slice_out3 (((cfg3 a).win 1).rect t) i).trans Rect.mem_set_unit

/-- Row `r` of the output array is written back at point `r`. -/
theorem cover3 (i : S8192x1x64.Idx) :
    ∃ t : Fin (cfg3 a).N, ((cfg3 a).win 1).flush t = true ∧ i ∈ (((cfg3 a).win 1).blk t).view.set := by
  refine ⟨⟨(i 0).val, (i 0).isLt⟩, flush3_1 a _, ?_⟩
  rw [mem_blk3]
  intro b
  have hi1 : (i 1).val < 1 := (i 1).isLt
  have hi2 : (i 2).val < 64 := (i 2).isLt
  match b with
  | ⟨0, _⟩ =>
    show ((cfg3 a).win 1).index _ (0 : Fin 3) * 1 ≤ (i 0).val ∧ (i 0).val < ((cfg3 a).win 1).index _ (0 : Fin 3) * 1 + 1
    rw [index3_1_row]; show (i 0).val * 1 ≤ (i 0).val ∧ (i 0).val < (i 0).val * 1 + 1; omega
  | ⟨1, _⟩ =>
    show ((cfg3 a).win 1).index _ (1 : Fin 3) * 1 ≤ (i 1).val ∧ (i 1).val < ((cfg3 a).win 1).index _ (1 : Fin 3) * 1 + 1
    rw [index3_1_mid]; omega
  | ⟨2, _⟩ =>
    show ((cfg3 a).win 1).index _ (2 : Fin 3) * 64 ≤ (i 2).val ∧ (i 2).val < ((cfg3 a).win 1).index _ (2 : Fin 3) * 64 + 64
    rw [index3_1_col]; omega

/-- The output array after the last point, as a function: every row is written back once, with the source row the
    table names. -/
theorem final3_fun (c : Dev nD) : (dat3 V a c).arrAt 1 (cfg3 a).N = G3 V a c :=
  (dat3 V a c).arrAt_eq_of_cover 1 (G3 V a c) (fun t _ => flushed3_eq V a c t) (cover3 a)

/-- The output array after the last point, index by index. -/
theorem final3 (c : Dev nD) (i : S8192x1x64.Idx) : (dat3 V a c).arrAt 1 (cfg3 a).N i = V c main_v25 (row3 a i) :=
  congrFun (final3_fun V a c) i

/-- The coordinates of the source row read. -/
theorem row3_row (i : S8192x1x64.Idx) : (row3 a i 0).val = (a.1 0 (idx3 (i 0))).toNat := rfl
theorem row3_mid (i : S8192x1x64.Idx) : (row3 a i 1).val = 0 := rfl
theorem row3_col (i : S8192x1x64.Idx) : (row3 a i 2).val = (i 2).val := rfl

end Cert.Kernel.Hand

end
-- ==== Proof.K.Run.lean ====
/-
  The run of @main over its four kernel regions. The prefetched tables' contents are fixed by the launch memory (the
  users' indices; the item indices shifted by 100000), so the pipelines are pinned at them once; each region's proof data
  is stated at the buffer contents its region is entered from, and what regions 0–3 leave in their output arrays are the
  pipelines' final arrays.
-/
import proofs.«413445_j54949811585067_2_alg».proof.Proof.K.RunCond
import proofs.«413445_j54949811585067_2_alg».proof.Proof.K.Tables
import proofs.«413445_j54949811585067_2_alg».proof.Proof.K.Boundary
import proofs.«413445_j54949811585067_2_alg».proof.Proof.K.Region0
import proofs.«413445_j54949811585067_2_alg».proof.Proof.K.Region1
import proofs.«413445_j54949811585067_2_alg».proof.Proof.K.Region2
import proofs.«413445_j54949811585067_2_alg».proof.Proof.K.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hO : Ok m)

abbrev a1 : (pcfg1 (F := F)).Adm := ⟨tbl1 m, hO.1⟩
abbrev a2 : (pcfg2 (F := F)).Adm := ⟨tbl2 m, hO.2.1⟩
abbrev a3 : (pcfg3 (F := F)).Adm := ⟨tbl3 m, hO.2.2⟩

/-- The pipelines' admitted table contents. -/
def adm : (p : Fin 4) → (pcfgs (F := F) p).Adm
  | ⟨0, _⟩ => cfg0.toPCfg_adm
  | ⟨1, _⟩ => a1 m hO
  | ⟨2, _⟩ => a2 m hO
  | ⟨3, _⟩ => a3 m hO
  | ⟨_ + 4, h⟩ => absurd h (Nat.not_lt.2 (Nat.le_add_left _ _))

/-! ## What the regions leave, stage by stage -/

/-- A boundary valuation read at the TensorCore's references. -/
abbrev atRefs (W : Dev nD → Valuation τ sig (Elt F)) : (c : Dev nD) → (b : Ref sig .tc) → Buf (Elt F) ((c : Thread nD τ).loc b) := fun c b => W c b

/-- Region 0's output array after its last point. -/
def o2 (c : Dev nD) : Buf (Elt F) ((c : Thread nD τ).loc main_v14) := (dat0 (atRefs (V1 m)) c).arrAt 2 cfg0.N
def outsA : Outs (F := F) := fun _ r c => (Function.update (V1 m c) main_v14 (o2 m c) : Valuation τ sig (Elt F)) r
/-- Region 1's output array after its last point. -/
def o4 (c : Dev nD) : Buf (Elt F) ((c : Thread nD τ).loc main_v16) := (dat1 (atRefs (V3 m (outsA m))) (a1 m hO) c).arrAt 1 (cfg1 (a1 m hO)).N
def outsB : Outs (F := F) := fun J r c => match J with
  | 2 => outsA m 2 r c
  | _ => (Function.update (V3 m (outsA m) c) main_v16 (o4 m hO c) : Valuation τ sig (Elt F)) r
/-- Region 2's output array after its last point. -/
def o6 (c : Dev nD) : Buf (Elt F) ((c : Thread nD τ).loc main_v21) := (dat2 (atRefs (V5 m (outsB m hO))) (a2 m hO) c).arrAt 1 (cfg2 (a2 m hO)).N
def outsC : Outs (F := F) := fun J r c => match J with
  | 2 => outsA m 2 r c
  | 4 => outsB m hO 4 r c
  | _ => (Function.update (V5 m (outsB m hO) c) main_v21 (o6 m hO c) : Valuation τ sig (Elt F)) r
/-- Region 3's output array after its last point. -/
def o8 (c : Dev nD) : Buf (Elt F) ((c : Thread nD τ).loc main_v26) := (dat3 (atRefs (V7 m (outsC m hO))) (a3 m hO) c).arrAt 1 (cfg3 (a3 m hO)).N
def outsD : Outs (F := F) := fun J r c => match J with
  | 2 => outsA m 2 r c
  | 4 => outsB m hO 4 r c
  | 6 => outsC m hO 6 r c
  | _ => (Function.update (V7 m (outsC m hO) c) main_v26 (o8 m hO c) : Valuation τ sig (Elt F)) r

theorem outsD_2 (c : Dev nD) : outsD m hO 2 main_v14 c = o2 m c := by
  show (Function.update (V1 m c) main_v14 (o2 m c) : Valuation τ sig (Elt F)) main_v14 = _
  exact Function.update_self ..
theorem outsD_4 (c : Dev nD) : outsD m hO 4 main_v16 c = o4 m hO c := by
  show (Function.update (V3 m (outsA m) c) main_v16 (o4 m hO c) : Valuation τ sig (Elt F)) main_v16 = _
  exact Function.update_self ..
theorem outsD_6 (c : Dev nD) : outsD m hO 6 main_v21 c = o6 m hO c := by
  show (Function.update (V5 m (outsB m hO) c) main_v21 (o6 m hO c) : Valuation τ sig (Elt F)) main_v21 = _
  exact Function.update_self ..
theorem outsD_8 (c : Dev nD) : outsD m hO 8 main_v26 c = o8 m hO c := by
  show (Function.update (V7 m (outsC m hO) c) main_v26 (o8 m hO c) : Valuation τ sig (Elt F)) main_v26 = _
  exact Function.update_self ..

/-- The boundary valuations at the final unknowns are the staged ones. -/
theorem V3_D (c : Dev nD) : V3 m (outsD m hO) c = V3 m (outsA m) c := rfl
theorem V5_D (c : Dev nD) : V5 m (outsD m hO) c = V5 m (outsB m hO) c := rfl
theorem V7_D (c : Dev nD) : V7 m (outsD m hO) c = V7 m (outsC m hO) c := rfl

/-- Every pipeline's proof data, each at its region's entry contents. -/
def pdats : (p : Fin 4) → (c : Dev nD) → Dat τ (Elt F) Unit ℕ (UR sig nD τ) ℕ (Pipeline.pin (pcfgs (F := F)) (adm m hO) p) c
  | ⟨0, _⟩ => fun c => dat0 (atRefs (V1 m)) c
  | ⟨1, _⟩ => fun c => dat1 (atRefs (V3 m (outsA m))) (a1 m hO) c
  | ⟨2, _⟩ => fun c => dat2 (atRefs (V5 m (outsB m hO))) (a2 m hO) c
  | ⟨3, _⟩ => fun c => dat3 (atRefs (V7 m (outsC m hO))) (a3 m hO) c

/-! ## The tables as the regions find them -/

theorem dev0 (c : Dev nD) : c = 0 := Subsingleton.elim _ _

/-- Region 1 is entered with its table at the users' indices: no item before it writes `main_arg0`. -/
theorem tbl_at1 (c : Dev nD) : (fun k => atRefs (V3 m (outsA m)) c (pre1.ref k)) = tbl1 m := by
  obtain rfl := dev0 c
  funext k
  match k with
  | ⟨0, _⟩ =>
    exact (V3_of m _ 0 main_arg0 (by decide)).trans ((V2_of m _ 0 main_arg0 (by decide)).trans ((V1_of m 0 main_arg0 (by decide)).trans rfl))

/-! ## The thread state between items -/

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

theorem hF0 (c : Dev nD) : ∀ w : Fin cfg0.W, (pdats m hO 0 c).arrAt w cfg0.N = atRefs (V2 m (outsD m hO)) c (Pipeline.arrRef spec0 w)
  | ⟨0, _⟩ => (((pdats m hO 0 c).arrAt_in 0 rfl _).trans (A_eq0 (atRefs (V1 m)) c 0)).trans (V2_of m (outsD m hO) c main_v0 (by decide)).symm
  | ⟨1, _⟩ => (((pdats m hO 0 c).arrAt_in 1 rfl _).trans (A_eq0 (atRefs (V1 m)) c 1)).trans (V2_of m (outsD m hO) c main_v13 (by decide)).symm
  | ⟨2, _⟩ => by
    show o2 m c = (Function.update (V1 m c) main_v14 (outsD m hO 2 main_v14 c) : Valuation τ sig (Elt F)) main_v14
    rw [Function.update_self, outsD_2]
theorem hrest0 (c : Dev nD) : ∀ b, b ∉ Finset.univ.image (Pipeline.arrRef spec0) → atRefs (V2 m (outsD m hO)) c b = atRefs (V1 m) c b :=
  fun b hb => V2_of m (outsD m hO) c b (by
    intro h; rw [List.mem_singleton] at h; subst h
    exact hb (Finset.mem_image.mpr ⟨2, Finset.mem_univ _, rfl⟩))

set_option backward.isDefEq.respectTransparency.types false in
def reg0 : Pipeline.RegionSeg (pcfgs (F := F)) (adm m hO) (pdats m hO) () (defs₀ (F := F)) 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atRefs (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsD m hO) c) ∗ R c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (atRefs (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (atRefs (V1 m) c) (atRefs (V2 m (outsD m hO)) c) ((pdats m hO 0 c).arrAt · cfg0.N) (hF0 m hO c) (hrest0 m hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 is entered with its table at the positive items' indices shifted by 100000: the host stretch before it adds
    the broadcast constant to `main_arg1`, which no item writes. -/
theorem tbl_at2 (c : Dev nD) : (fun k => atRefs (V5 m (outsB m hO)) c (pre2.ref k)) = tbl2 m := by
  obtain rfl := dev0 c
  funext k
  match k with
  | ⟨0, _⟩ => exact V5_v19 m (outsB m hO) 0
/-- Region 3 likewise, over the negative items' indices. -/
theorem tbl_at3 (c : Dev nD) : (fun k => atRefs (V7 m (outsC m hO)) c (pre3.ref k)) = tbl3 m := by
  obtain rfl := dev0 c
  funext k
  match k with
  | ⟨0, _⟩ => exact V7_v24 m (outsC m hO) 0

/-! ## Region 1 -/

theorem hF1 (c : Dev nD) : ∀ w : Fin (cfg1 (a1 m hO)).W, (pdats m hO 1 c).arrAt w (cfg1 (a1 m hO)).N = atRefs (V4 m (outsD m hO)) c (Pipeline.arrRef spec1 w)
  | ⟨0, _⟩ => (((pdats m hO 1 c).arrAt_in 0 rfl _).trans (A_eq1 (atRefs (V3 m (outsA m))) (a1 m hO) c 0)).trans (V4_of m (outsD m hO) c main_v15 (by decide)).symm
  | ⟨1, _⟩ => by
    show o4 m hO c = (Function.update (V3 m (outsD m hO) c) main_v16 (outsD m hO 4 main_v16 c) : Valuation τ sig (Elt F)) main_v16
    rw [Function.update_self, outsD_4]
theorem hrest1 (c : Dev nD) : ∀ b, b ∉ Finset.univ.image (Pipeline.arrRef spec1) → atRefs (V4 m (outsD m hO)) c b = atRefs (V3 m (outsA m)) c b :=
  fun b hb => V4_of m (outsD m hO) c b (by
    intro h; rw [List.mem_singleton] at h; subst h
    exact hb (Finset.mem_image.mpr ⟨1, Finset.mem_univ _, rfl⟩))

set_option backward.isDefEq.respectTransparency.types false in
def reg1 : Pipeline.RegionSeg (pcfgs (F := F)) (adm m hO) (pdats m hO) () (defs₀ (F := F)) 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atRefs (V3 m (outsA m))) (a1 m hO) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outsD m hO) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (atRefs (V3 m (outsA m)) c)
  hentry c := by
    rw [Pipeline.ownSems0_none]
    have hsplit : (StableHlo.held (c : Thread nD τ) (Pipeline.ucRefs τ sig) (V3 m (outsA m) c) : sProp 𝕄)
        ⊢ iprop((pdats m hO 1 c).arrays ((pdats m hO 1 c).arrAt · 0) ∗ Pipeline.unscopedRest spec1 c (atRefs (V3 m (outsA m)) c)) := by
      have h := Pipeline.arrays_of_unscopedBufs (p := 1) (pcfgs (F := F)) (adm m hO) (pdats m hO) (launch1 (F := F)).win (launch1 (F := F)).arr_whole c
        ((pdats m hO 1 c).share_full fun _ => rfl) (atRefs (V3 m (outsA m)) c) fun _ => rfl
      rw [Pipeline.unscopedBufs_held] at h
      exact h
    rw [Pipeline.unscopedRest_split preFacts1 c, tbl_at1] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld (Ix := Unit) (Name := ℕ) (U := UR sig nD τ) (Lvl := ℕ) pre1 c (fun _ => fullShare) (tbl1 m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m hO 1 c).Φ (Fin.last _) = iprop(Pipeline.ΦA spec1 c ∗ Pipeline.prefHeld (Ix := Unit) (Name := ℕ) (U := UR sig nD τ) (Lvl := ℕ) pre1 c (fun _ => fullShare) (tbl1 m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin : iprop((pdats m hO 1 c).arrays ((pdats m hO 1 c).arrAt · (cfg1 (a1 m hO)).N) ∗ Pipeline.unscopedRest spec1 c (atRefs (V3 m (outsA m)) c))
        ⊢ (StableHlo.held (c : Thread nD τ) (Pipeline.ucRefs τ sig) (V4 m (outsD m hO) c) : sProp 𝕄) := by
      have h := Pipeline.unscopedBufs_of_arrays (p := 1) (pcfgs (F := F)) (adm m hO) (Ix := Unit) (Name := ℕ) (U := UR sig nD τ) (Lvl := ℕ)
        (launch1 (F := F)).win (launch1 (F := F)).arr_whole c (pdats m hO) ((pdats m hO 1 c).share_full fun _ => rfl)
        (atRefs (V3 m (outsA m)) c) (atRefs (V4 m (outsD m hO)) c) ((pdats m hO 1 c).arrAt · (cfg1 (a1 m hO)).N) (hF1 m hO c) (hrest1 m hO c)
      rw [Pipeline.unscopedBufs_held] at h
      exact h
    rw [Pipeline.unscopedRest_split preFacts1 c, tbl_at1] at hjoin
    iintro ⟨Ha, HO, ⟨HY, Htb⟩, Hrest⟩
    imodintro
    isplitl [Ha Hrest Htb]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## Region 2 -/

theorem hF2 (c : Dev nD) : ∀ w : Fin (cfg2 (a2 m hO)).W, (pdats m hO 2 c).arrAt w (cfg2 (a2 m hO)).N = atRefs (V6 m (outsD m hO)) c (Pipeline.arrRef spec2 w)
  | ⟨0, _⟩ => (((pdats m hO 2 c).arrAt_in 0 rfl _).trans (A_eq2 (atRefs (V5 m (outsB m hO))) (a2 m hO) c 0)).trans (V6_of m (outsD m hO) c main_v20 (by decide)).symm
  | ⟨1, _⟩ => by
    show o6 m hO c = (Function.update (V5 m (outsD m hO) c) main_v21 (outsD m hO 6 main_v21 c) : Valuation τ sig (Elt F)) main_v21
    rw [Function.update_self, outsD_6]
theorem hrest2 (c : Dev nD) : ∀ b, b ∉ Finset.univ.image (Pipeline.arrRef spec2) → atRefs (V6 m (outsD m hO)) c b = atRefs (V5 m (outsB m hO)) c b :=
  fun b hb => V6_of m (outsD m hO) c b (by
    intro h; rw [List.mem_singleton] at h; subst h
    exact hb (Finset.mem_image.mpr ⟨1, Finset.mem_univ _, rfl⟩))

set_option backward.isDefEq.respectTransparency.types false in
def reg2 : Pipeline.RegionSeg (pcfgs (F := F)) (adm m hO) (pdats m hO) () (defs₀ (F := F)) 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atRefs (V5 m (outsB m hO))) (a2 m hO) c).loose
  hwaits := Pipeline.hwaits_of_owed_zero _ _ _ _ L lv 2 fun _ _ => rfl
  pre c := iprop(StableHlo.held (c : Thread nD τ) (Pipeline.ucRefs τ sig) (V5 m (outsB m hO) c) ∗ R c)
  post c := iprop(StableHlo.held (c : Thread nD τ) (Pipeline.ucRefs τ sig) (V6 m (outsD m hO) c) ∗ R c)
  X c := iprop(∃ r, prngReg c r)
  Y c := iprop((∃ r, prngReg c r) ∗ Pipeline.prefHeld (Ix := Unit) (Name := ℕ) (U := UR sig nD τ) (Lvl := ℕ) pre2 c (fun _ => fullShare) (tbl2 m))
  Z c := Pipeline.unscopedRestP (Ix := Unit) (Name := ℕ) (U := UR sig nD τ) (Lvl := ℕ) pre2 spec2 c (atRefs (V5 m (outsB m hO)) c)
  hentry c := by
    rw [Pipeline.ownSems0_none]
    have hsplit : (StableHlo.held (c : Thread nD τ) (Pipeline.ucRefs τ sig) (V5 m (outsB m hO) c) : sProp 𝕄)
        ⊢ iprop((pdats m hO 2 c).arrays ((pdats m hO 2 c).arrAt · 0) ∗ Pipeline.unscopedRest spec2 c (atRefs (V5 m (outsB m hO)) c)) := by
      have h := Pipeline.arrays_of_unscopedBufs (p := 2) (pcfgs (F := F)) (adm m hO) (pdats m hO) (launch2 (F := F)).win (launch2 (F := F)).arr_whole c
        ((pdats m hO 2 c).share_full fun _ => rfl) (atRefs (V5 m (outsB m hO)) c) fun _ => rfl
      rw [Pipeline.unscopedBufs_held] at h
      exact h
    rw [Pipeline.unscopedRest_split preFacts2 c, tbl_at2] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 2 c).Φ 0 = iprop(Pipeline.ΦA spec2 c ∗ Pipeline.prefHeld (Ix := Unit) (Name := ℕ) (U := UR sig nD τ) (Lvl := ℕ) pre2 c (fun _ => fullShare) (tbl2 m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m hO 2 c).Φ (Fin.last _) = iprop(Pipeline.ΦA spec2 c ∗ Pipeline.prefHeld (Ix := Unit) (Name := ℕ) (U := UR sig nD τ) (Lvl := ℕ) pre2 c (fun _ => fullShare) (tbl2 m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin : iprop((pdats m hO 2 c).arrays ((pdats m hO 2 c).arrAt · (cfg2 (a2 m hO)).N) ∗ Pipeline.unscopedRest spec2 c (atRefs (V5 m (outsB m hO)) c))
        ⊢ (StableHlo.held (c : Thread nD τ) (Pipeline.ucRefs τ sig) (V6 m (outsD m hO) c) : sProp 𝕄) := by
      have h := Pipeline.unscopedBufs_of_arrays (p := 2) (pcfgs (F := F)) (adm m hO) (Ix := Unit) (Name := ℕ) (U := UR sig nD τ) (Lvl := ℕ)
        (launch2 (F := F)).win (launch2 (F := F)).arr_whole c (pdats m hO) ((pdats m hO 2 c).share_full fun _ => rfl)
        (atRefs (V5 m (outsB m hO)) c) (atRefs (V6 m (outsD m hO)) c) ((pdats m hO 2 c).arrAt · (cfg2 (a2 m hO)).N) (hF2 m hO c) (hrest2 m hO c)
      rw [Pipeline.unscopedBufs_held] at h
      exact h
    rw [Pipeline.unscopedRest_split preFacts2 c, tbl_at2] at hjoin
    iintro ⟨Ha, HO, ⟨HY, Htb⟩, Hrest⟩
    imodintro
    isplitl [Ha Hrest Htb]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## Region 3 -/

theorem hF3 (c : Dev nD) : ∀ w : Fin (cfg3 (a3 m hO)).W, (pdats m hO 3 c).arrAt w (cfg3 (a3 m hO)).N = atRefs (V8 m (outsD m hO)) c (Pipeline.arrRef spec3 w)
  | ⟨0, _⟩ => (((pdats m hO 3 c).arrAt_in 0 rfl _).trans (A_eq3 (atRefs (V7 m (outsC m hO))) (a3 m hO) c 0)).trans (V8_of m (outsD m hO) c main_v25 (by decide)).symm
  | ⟨1, _⟩ => by
    show o8 m hO c = (Function.update (V7 m (outsD m hO) c) main_v26 (outsD m hO 8 main_v26 c) : Valuation τ sig (Elt F)) main_v26
    rw [Function.update_self, outsD_8]
theorem hrest3 (c : Dev nD) : ∀ b, b ∉ Finset.univ.image (Pipeline.arrRef spec3) → atRefs (V8 m (outsD m hO)) c b = atRefs (V7 m (outsC m hO)) c b :=
  fun b hb => V8_of m (outsD m hO) c b (by
    intro h; rw [List.mem_singleton] at h; subst h
    exact hb (Finset.mem_image.mpr ⟨1, Finset.mem_univ _, rfl⟩))

set_option backward.isDefEq.respectTransparency.types false in
def reg3 : Pipeline.RegionSeg (pcfgs (F := F)) (adm m hO) (pdats m hO) () (defs₀ (F := F)) 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (atRefs (V7 m (outsC m hO))) (a3 m hO) c).loose
  hwaits := Pipeline.hwaits_of_owed_zero _ _ _ _ L lv 3 fun _ _ => rfl
  pre c := iprop(StableHlo.held (c : Thread nD τ) (Pipeline.ucRefs τ sig) (V7 m (outsC m hO) c) ∗ R c)
  post c := iprop(StableHlo.held (c : Thread nD τ) (Pipeline.ucRefs τ sig) (V8 m (outsD m hO) c) ∗ R c)
  X c := iprop(∃ r, prngReg c r)
  Y c := iprop((∃ r, prngReg c r) ∗ Pipeline.prefHeld (Ix := Unit) (Name := ℕ) (U := UR sig nD τ) (Lvl := ℕ) pre3 c (fun _ => fullShare) (tbl3 m))
  Z c := Pipeline.unscopedRestP (Ix := Unit) (Name := ℕ) (U := UR sig nD τ) (Lvl := ℕ) pre3 spec3 c (atRefs (V7 m (outsC m hO)) c)
  hentry c := by
    rw [Pipeline.ownSems0_none]
    have hsplit : (StableHlo.held (c : Thread nD τ) (Pipeline.ucRefs τ sig) (V7 m (outsC m hO) c) : sProp 𝕄)
        ⊢ iprop((pdats m hO 3 c).arrays ((pdats m hO 3 c).arrAt · 0) ∗ Pipeline.unscopedRest spec3 c (atRefs (V7 m (outsC m hO)) c)) := by
      have h := Pipeline.arrays_of_unscopedBufs (p := 3) (pcfgs (F := F)) (adm m hO) (pdats m hO) (launch3 (F := F)).win (launch3 (F := F)).arr_whole c
        ((pdats m hO 3 c).share_full fun _ => rfl) (atRefs (V7 m (outsC m hO)) c) fun _ => rfl
      rw [Pipeline.unscopedBufs_held] at h
      exact h
    rw [Pipeline.unscopedRest_split preFacts3 c, tbl_at3] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 3 c).Φ 0 = iprop(Pipeline.ΦA spec3 c ∗ Pipeline.prefHeld (Ix := Unit) (Name := ℕ) (U := UR sig nD τ) (Lvl := ℕ) pre3 c (fun _ => fullShare) (tbl3 m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m hO 3 c).Φ (Fin.last _) = iprop(Pipeline.ΦA spec3 c ∗ Pipeline.prefHeld (Ix := Unit) (Name := ℕ) (U := UR sig nD τ) (Lvl := ℕ) pre3 c (fun _ => fullShare) (tbl3 m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin : iprop((pdats m hO 3 c).arrays ((pdats m hO 3 c).arrAt · (cfg3 (a3 m hO)).N) ∗ Pipeline.unscopedRest spec3 c (atRefs (V7 m (outsC m hO)) c))
        ⊢ (StableHlo.held (c : Thread nD τ) (Pipeline.ucRefs τ sig) (V8 m (outsD m hO) c) : sProp 𝕄) := by
      have h := Pipeline.unscopedBufs_of_arrays (p := 3) (pcfgs (F := F)) (adm m hO) (Ix := Unit) (Name := ℕ) (U := UR sig nD τ) (Lvl := ℕ)
        (launch3 (F := F)).win (launch3 (F := F)).arr_whole c (pdats m hO) ((pdats m hO 3 c).share_full fun _ => rfl)
        (atRefs (V7 m (outsC m hO)) c) (atRefs (V8 m (outsD m hO)) c) ((pdats m hO 3 c).arrAt · (cfg3 (a3 m hO)).N) (hF3 m hO c) (hrest3 m hO c)
      rw [Pipeline.unscopedBufs_held] at h
      exact h
    rw [Pipeline.unscopedRest_split preFacts3 c, tbl_at3] at hjoin
    iintro ⟨Ha, HO, ⟨HY, Htb⟩, Hrest⟩
    imodintro
    isplitl [Ha Hrest Htb]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from `m` terminates, and the final memory holds at every unscoped buffer the last
    boundary's contents, the regions' outputs at the pipelines' final arrays. -/
theorem run : θ_run defs (onTc (τ := τ) (main (F := F))) ⟨m, fun _ => 0, ρ⟩ (fun r => ∀ c : Dev nD, ∀ b ∈ Pipeline.ucRefs τ sig,
      r.2.mem (((c : Thread nD τ)).1, b) = V9 m (outsD m hO) c b) :=
  run_cond m emb₁ () 𝒱₀ L lv (fun _ _ => rfl) ρ (outsD m hO) (adm m hO) (pdats m hO) 0 (fun _ => iprop(emp))
    (initOf (Pipeline.cells (Pipeline.pin (pcfgs (F := F)) (adm m hO)) (cellOf_inj (adm m hO))) (Pipeline.launchToks (Pipeline.pin (pcfgs (F := F)) (adm m hO)) (cellOf_inj (adm m hO))))
    (by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m hO) (fun _ => .rfl) (fun _ => .rfl)
    (reg1 m hO) (fun c => by rw [V3_D m hO c]; exact .rfl) (fun _ => .rfl)
    (reg2 m hO) (fun c => by rw [V5_D m hO c]; exact .rfl) (fun _ => .rfl)
    (reg3 m hO) (fun c => by rw [V7_D m hO c]; exact .rfl) (fun _ => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hO in
/-- The frame: no item writes an argument, so each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V9_main_arg0 m (outsD m hO) c),
     (h c _ (mem_uc main_arg1 (by decide))).trans (V9_main_arg1 m (outsD m hO) c),
     (h c _ (mem_uc main_arg2 (by decide))).trans (V9_main_arg2 m (outsD m hO) c),
     (h c _ (mem_uc main_arg3 (by decide))).trans (V9_main_arg3 m (outsD m hO) c),
     (h c _ (mem_uc main_arg4 (by decide))).trans (V9_main_arg4 m (outsD m hO) c),
     (h c _ (mem_uc main_arg5 (by decide))).trans (V9_main_arg5 m (outsD m hO) c),
     (h c _ (mem_uc main_arg6 (by decide))).trans (V9_main_arg6 m (outsD m hO) c),
     (h c _ (mem_uc main_arg7 (by decide))).trans (V9_main_arg7 m (outsD m hO) c),
     (h c _ (mem_uc main_arg8 (by decide))).trans (V9_main_arg8 m (outsD m hO) c),
     (h c _ (mem_uc main_arg9 (by decide))).trans (V9_main_arg9 m (outsD m hO) c)⟩)
    (run m ρ hO)

end Cert.Kernel.Hand

end
-- ==== Proof.K.OkOfRange.lean ====
/-
  The three prefetched index tables satisfy the gather pipelines' side condition whenever the indices are in range.

  Each gather window fetches, at grid point i, the [1, 1, 64] row block of the [150000, 1, 64] source whose first
  coordinate is the table word at i; the other two coordinates are 0. The block lies inside the source exactly when that
  word, read as a natural number, is below 150000. The first table holds the users' indices themselves (below 100000); the
  second and third hold item indices below 50000 shifted by 100000, and the shift does not wrap: a word below 50000 plus
  100000 is below 2³², so the sum's value is the sum of the values, which is below 150000. The elements are 32 bits
  wide, so the transfer ends are word-exact.

  The bound is proved for arbitrary table contents first and the launch memory's tables are put in last.
-/
import proofs.«413445_j54949811585067_2_alg».proof.Proof.K.Tables

noncomputable section

namespace Cert.Kernel.Hand

open Cert.Kernel Cert.Kernel.Gen
open Idealize.ShloMosaic Idealize.ShloMosaic.TcCoe
open Idealize.SL Idealize.SL.Sem

variable {F : FTy → Type} [FloatOps F]

/-! ## A block at row w of the [150000, 1, 64] source -/

/-- The [1, 1, 64] block with block coordinates (w, 0, 0) lies inside [150000, 1, 64] when w < 150000. -/
theorem block_inb (w : Nat) (hw : w < 150000) (a : Fin 3) :
    ((![w, 0, 0] : Fin 3 → Nat) a + 1) * S1x1x64.size a ≤ S150000x1x64.size a := by
  fin_cases a
  · show (w + 1) * 1 ≤ 150000; omega
  · show (0 + 1) * 1 ≤ 1; omega
  · show (0 + 1) * 64 ≤ 64; omega

/-! ## The side condition, at any contents whose words are below 150000 -/

theorem ok1_of_lt (pf : pre1.Contents (Elt F)) (hpf : ∀ k : S2048.Idx, (pf 0 k : BitVec 32).toNat < 150000) : ok1 pf := by
  intro i
  obtain ⟨w, hw, hlt⟩ : ∃ w, cc1_transform_0 k1_off1_inb numel1_S1 pf i = ![w, 0, 0] ∧ w < 150000 := ⟨_, rfl, hpf _⟩
  exact ⟨fun a => by rw [hw]; exact block_inb w hlt a, Or.inl rfl⟩

theorem ok2_of_lt (pf : pre2.Contents (Elt F)) (hpf : ∀ k : S2048.Idx, (pf 0 k : BitVec 32).toNat < 150000) : ok2 pf := by
  intro i
  obtain ⟨w, hw, hlt⟩ : ∃ w, cc2_transform_0 k2_off1_inb numel1_S1 pf i = ![w, 0, 0] ∧ w < 150000 := ⟨_, rfl, hpf _⟩
  exact ⟨fun a => by rw [hw]; exact block_inb w hlt a, Or.inl rfl⟩

theorem ok3_of_lt (pf : pre3.Contents (Elt F)) (hpf : ∀ k : S8192.Idx, (pf 0 k : BitVec 32).toNat < 150000) : ok3 pf := by
  intro i
  obtain ⟨w, hw, hlt⟩ : ∃ w, cc3_transform_0 k3_off1_inb numel1_S1 pf i = ![w, 0, 0] ∧ w < 150000 := ⟨_, rfl, hpf _⟩
  exact ⟨fun a => by rw [hw]; exact block_inb w hlt a, Or.inl rfl⟩

/-! ## The table words as numbers -/

/-- Adding 100000 to a word below 50000 does not wrap. -/
theorem toNat_add_shift (x : BitVec 32) (hx : x.toNat < 50000) : (IntOp.addi x 100000#32).toNat = 100000 + x.toNat := by
  show (x + 100000#32).toNat = _
  rw [BitVec.toNat_add, show (100000#32 : BitVec 32).toNat = 100000 from rfl, Nat.mod_eq_of_lt (by omega)]
  omega

variable (m : (ℓ : Loc nD τ sig) → Buf (Elt F) ℓ)

theorem tbl1_word (k : S2048.Idx) : tbl1 m 0 k = m (((0 : Dev nD) : Thread nD τ).loc main_arg0) k := rfl

theorem tbl2_word (h1 : ∀ k : S2048.Idx, (m (((0 : Dev nD) : Thread nD τ).loc main_arg1) k).toNat < 50000) (k : S2048.Idx) :
    (tbl2 m 0 k : BitVec 32).toNat = 100000 + (m (((0 : Dev nD) : Thread nD τ).loc main_arg1) k).toNat :=
  toNat_add_shift _ (h1 k)

theorem tbl3_word (h2 : ∀ k : S8192.Idx, (m (((0 : Dev nD) : Thread nD τ).loc main_arg2) k).toNat < 50000) (k : S8192.Idx) :
    (tbl3 m 0 k : BitVec 32).toNat = 100000 + (m (((0 : Dev nD) : Thread nD τ).loc main_arg2) k).toNat :=
  toNat_add_shift _ (h2 k)

/-! ## The launch memory's tables -/

theorem ok_of_range
    (h0 : ∀ k : S2048.Idx, (m (((0 : Dev nD) : Thread nD τ).loc main_arg0) k).toNat < 100000)
    (h1 : ∀ k : S2048.Idx, (m (((0 : Dev nD) : Thread nD τ).loc main_arg1) k).toNat < 50000)
    (h2 : ∀ k : S8192.Idx, (m (((0 : Dev nD) : Thread nD τ).loc main_arg2) k).toNat < 50000) : Ok m :=
  ⟨ok1_of_lt (tbl1 m) fun k => by rw [tbl1_word]; exact Nat.lt_trans (h0 k) (by omega),
   ok2_of_lt (tbl2 m) fun k => by rw [tbl2_word m h1 k]; have := h1 k; omega,
   ok3_of_lt (tbl3 m) fun k => by rw [tbl3_word m h2 k]; have := h2 k; omega⟩

end Cert.Kernel.Hand

end
-- ==== Proof.KI.Tables.lean ====
/-
  The contents of the three prefetched index tables as functions of the launch memory — the users' indices, and the
  positive and negative items' indices shifted by 100000 past the users' rows — and the side condition the gather
  pipelines need of them: every table-indexed row block lies inside the [150000, 1, 64] source.
-/
import proofs.«413445_j54949811585067_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! ## The prefetched tables, read off the launch memory -/

/-- The users' indices. -/
def tbl1 : pre1.Contents (Elt F) := fun
  | ⟨0, _⟩ => m (((0 : Dev nD) : Thread nD τ).loc main_arg0)
/-- The positive items' indices, shifted past the users' rows. -/
def tbl2 : pre2.Contents (Elt F) := fun
  | ⟨0, _⟩ => addi (m (((0 : Dev nD) : Thread nD τ).loc main_arg1)) (broadcastInDim S2048 ![] bcast_S_S2048 (constantI S_ 32 100000#32))
/-- The negative items' indices, shifted past the users' rows. -/
def tbl3 : pre3.Contents (Elt F) := fun
  | ⟨0, _⟩ => addi (m (((0 : Dev nD) : Thread nD τ).loc main_arg2)) (broadcastInDim S8192 ![] bcast_S_S8192 (constantI S_ 32 100000#32))

/-- Every table-indexed block lies inside its array. -/
def Ok : Prop := ok1 (tbl1 m) ∧ ok2 (tbl2 m) ∧ ok3 (tbl3 m)

end Cert.KernelIdeal.Hand

end
-- ==== Proof.KI.Boundary.lean ====
/-
  What the host stretches between the four regions of @main leave in the buffers the later regions read: the two
  offset index vectors (an argument plus the constant 100000, broadcast), and the reshapes of the regions' outputs
  read at an index, each as a function of the launch memory and of what the regions leave.
-/
import proofs.«413445_j54949811585067_2_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.StableHlo

variable {F : FTy → Type} [FloatOps F]
variable (m : (ℓ : Loc nD τ sig) → Buf (Elt F) ℓ) (outs : Outs (F := F))

/-! ## The arguments the stretches read are as launched -/

theorem V4_arg1 (c : Dev nD) : V4 m outs c main_arg1 = m ((c : Thread nD τ).loc main_arg1) :=
  (V4_of m outs c main_arg1 (by decide)).trans <| (V3_of m outs c main_arg1 (by decide)).trans <|
    (V2_of m outs c main_arg1 (by decide)).trans <| V1_of m c main_arg1 (by decide)

theorem V6_arg2 (c : Dev nD) : V6 m outs c main_arg2 = m ((c : Thread nD τ).loc main_arg2) :=
  (V6_of m outs c main_arg2 (by decide)).trans <| (V5_of m outs c main_arg2 (by decide)).trans <|
    (V4_of m outs c main_arg2 (by decide)).trans <| (V3_of m outs c main_arg2 (by decide)).trans <|
    (V2_of m outs c main_arg2 (by decide)).trans <| V1_of m c main_arg2 (by decide)

/-! ## The offset index vectors -/

/-- After the third stretch `main_v19` is the argument `main_arg1` plus 100000 at every index. -/
theorem V5_v19 (c : Dev nD) : V5 m outs c main_v19
    = addi (m ((c : Thread nD τ).loc main_arg1)) (broadcastInDim S2048 ![] bcast_S_S2048 (constantI S_ 32 100000#32)) := by
  show StableHlo.after hostOps2 (V4 m outs c) (Proc.devRef .tc main_v19) = _
  after_results
  rw [V4_arg1]

/-- After the fourth stretch `main_v24` is the argument `main_arg2` plus 100000 at every index. -/
theorem V7_v24 (c : Dev nD) : V7 m outs c main_v24
    = addi (m ((c : Thread nD τ).loc main_arg2)) (broadcastInDim S8192 ![] bcast_S_S8192 (constantI S_ 32 100000#32)) := by
  show StableHlo.after hostOps3 (V6 m outs c) (Proc.devRef .tc main_v24) = _
  after_results
  rw [V6_arg2]

/-! ## A reshape that adds or drops a MIDDLE unit axis, read at an index -/

section MiddleUnit
variable {α : Type}

/-- An `[a, b]` array cast to `[a, 1, b]` reads, at `(p, u, q)`, the operand at `(p, q)`: the two indices have the
    same row-major position, the unit coordinate being `0`. -/
theorem shapeCast_addMid_apply {a b : ℕ} (x : (⟨2, ![a, b]⟩ : Shape).Idx → α)
    (h : (⟨2, ![a, b]⟩ : Shape).ShapeCasts ⟨3, ![a, 1, b]⟩) (i : (⟨3, ![a, 1, b]⟩ : Shape).Idx) :
    shapeCast ⟨3, ![a, 1, b]⟩ x h i = x (ValueIdx.ix2 (i 0) (i 2)) :=
  shapeCast_apply x h _ _ (by
    have hu : (i 1).val = 0 := by have h1 : (i 1).val < 1 := (i 1).isLt; omega
    rw [Shape.rowMajor_val_two, Shape.rowMajor_val_three]
    show (i 0).val * b + (i 2).val = ((i 0).val * 1 + (i 1).val) * b + (i 2).val
    rw [hu, Nat.mul_one, Nat.add_zero])

/-- An `[a, 1, b]` array cast to `[a, b]` reads, at `(p, q)`, the operand at `(p, 0, q)`. -/
theorem shapeCast_dropMid_apply {a b : ℕ} (x : (⟨3, ![a, 1, b]⟩ : Shape).Idx → α)
    (h : (⟨3, ![a, 1, b]⟩ : Shape).ShapeCasts ⟨2, ![a, b]⟩) (i : (⟨2, ![a, b]⟩ : Shape).Idx) :
    shapeCast ⟨2, ![a, b]⟩ x h i = x (ValueIdx.ix3 (i 0) (0 : Fin 1) (i 1)) :=
  shapeCast_apply x h _ _ (by
    rw [Shape.rowMajor_val_three, Shape.rowMajor_val_two]
    show ((i 0).val * 1 + 0) * b + (i 1).val = (i 0).val * b + (i 1).val
    rw [Nat.mul_one, Nat.add_zero])

end MiddleUnit

/-! ## The index maps of the reshapes -/

/-- A `[150000, 1, 64]` index without its unit coordinate. -/
def drop1 (i : S150000x1x64.Idx) : S150000x64.Idx := ValueIdx.ix2 (i 0) (i 2)

/-- A `[2048, 64]` index with the unit coordinate put in. -/
def ins1 (i : S2048x64.Idx) : S2048x1x64.Idx := ValueIdx.ix3 (i 0) (0 : Fin 1) (i 1)

/-- An `[8192, 64]` index with the unit coordinate put in. -/
def ins1' (i : S8192x64.Idx) : S8192x1x64.Idx := ValueIdx.ix3 (i 0) (0 : Fin 1) (i 1)

/-! ## The reshapes of the regions' outputs -/

/-- What a region leaves in its output array is what the next valuation holds there. -/
theorem V2_v14 (c : Dev nD) : V2 m outs c main_v14 = outs 2 main_v14 c := Function.update_self ..
theorem V4_v16 (c : Dev nD) : V4 m outs c main_v16 = outs 4 main_v16 c := Function.update_self ..
theorem V6_v21 (c : Dev nD) : V6 m outs c main_v21 = outs 6 main_v21 c := Function.update_self ..
theorem V8_v26 (c : Dev nD) : V8 m outs c main_v26 = outs 8 main_v26 c := Function.update_self ..

/-- No later item up to the fourth stretch writes `main_v14`. -/
theorem V4_v14 (c : Dev nD) : V4 m outs c main_v14 = outs 2 main_v14 c :=
  (V4_of m outs c main_v14 (by decide)).trans <| (V3_of m outs c main_v14 (by decide)).trans <| V2_v14 m outs c
theorem V6_v14 (c : Dev nD) : V6 m outs c main_v14 = outs 2 main_v14 c :=
  (V6_of m outs c main_v14 (by decide)).trans <| (V5_of m outs c main_v14 (by decide)).trans <| V4_v14 m outs c

/-- `main_v15`, the first region's output with a unit axis put in. -/
theorem V3_v15 (c : Dev nD) (i : S150000x1x64.Idx) : V3 m outs c main_v15 i = outs 2 main_v14 c (drop1 i) := by
  have h : V3 m outs c main_v15
      = fun i => shapeCast S150000x1x64 (V2 m outs c main_v14) shapeCasts_S150000x64_S150000x1x64 i := by
    show StableHlo.after hostOps1 (V2 m outs c) (Proc.devRef .tc main_v15) = _
    after_results
    rfl
  rw [h, V2_v14]
  exact shapeCast_addMid_apply _ _ i

/-- `main_v20`, the same reshape made again in the third stretch. -/
theorem V5_v20 (c : Dev nD) (i : S150000x1x64.Idx) : V5 m outs c main_v20 i = outs 2 main_v14 c (drop1 i) := by
  have h : V5 m outs c main_v20
      = fun i => shapeCast S150000x1x64 (V4 m outs c main_v14) shapeCasts_S150000x64_S150000x1x64 i := by
    show StableHlo.after hostOps2 (V4 m outs c) (Proc.devRef .tc main_v20) = _
    after_results
    rfl
  rw [h, V4_v14]
  exact shapeCast_addMid_apply _ _ i

/-- `main_v25`, the same reshape made again in the fourth stretch. -/
theorem V7_v25 (c : Dev nD) (i : S150000x1x64.Idx) : V7 m outs c main_v25 i = outs 2 main_v14 c (drop1 i) := by
  have h : V7 m outs c main_v25
      = fun i => shapeCast S150000x1x64 (V6 m outs c main_v14) shapeCasts_S150000x64_S150000x1x64 i := by
    show StableHlo.after hostOps3 (V6 m outs c) (Proc.devRef .tc main_v25) = _
    after_results
    rfl
  rw [h, V6_v14]
  exact shapeCast_addMid_apply _ _ i

/-- `main_v17`, the second region's output without its unit axis, written in the third stretch and by nothing after. -/
theorem V5_v17 (c : Dev nD) (i : S2048x64.Idx) : V5 m outs c main_v17 i = outs 4 main_v16 c (ins1 i) := by
  have h : V5 m outs c main_v17
      = fun i => shapeCast S2048x64 (V4 m outs c main_v16) shapeCasts_S2048x1x64_S2048x64 i := by
    show StableHlo.after hostOps2 (V4 m outs c) (Proc.devRef .tc main_v17) = _
    after_results
    rfl
  rw [h, V4_v16]
  exact shapeCast_dropMid_apply _ _ i

theorem V9_v17 (c : Dev nD) (i : S2048x64.Idx) : V9 m outs c main_v17 i = outs 4 main_v16 c (ins1 i) := by
  rw [(V9_of m outs c main_v17 (by decide)).trans <| (V8_of m outs c main_v17 (by decide)).trans <|
    (V7_of m outs c main_v17 (by decide)).trans <| V6_of m outs c main_v17 (by decide)]
  exact V5_v17 m outs c i

/-- `main_v22`, the third region's output without its unit axis, written in the fourth stretch and by nothing after. -/
theorem V7_v22 (c : Dev nD) (i : S2048x64.Idx) : V7 m outs c main_v22 i = outs 6 main_v21 c (ins1 i) := by
  have h : V7 m outs c main_v22
      = fun i => shapeCast S2048x64 (V6 m outs c main_v21) shapeCasts_S2048x1x64_S2048x64 i := by
    show StableHlo.after hostOps3 (V6 m outs c) (Proc.devRef .tc main_v22) = _
    after_results
    rfl
  rw [h, V6_v21]
  exact shapeCast_dropMid_apply _ _ i

theorem V9_v22 (c : Dev nD) (i : S2048x64.Idx) : V9 m outs c main_v22 i = outs 6 main_v21 c (ins1 i) := by
  rw [(V9_of m outs c main_v22 (by decide)).trans <| V8_of m outs c main_v22 (by decide)]
  exact V7_v22 m outs c i

/-- `main_v27`, the fourth region's output without its unit axis. -/
theorem V9_v27 (c : Dev nD) (i : S8192x64.Idx) : V9 m outs c main_v27 i = outs 8 main_v26 c (ins1' i) := by
  have h : V9 m outs c main_v27
      = fun i => shapeCast S8192x64 (V8 m outs c main_v26) shapeCasts_S8192x1x64_S8192x64 i := by
    show StableHlo.after hostOps4 (V8 m outs c) (Proc.devRef .tc main_v27) = _
    after_results
    rfl
  rw [h, V8_v26]
  exact shapeCast_dropMid_apply _ _ i

end Cert.KernelIdeal.Hand

end
-- ==== Proof.KI.Region0.lean ====
/-
  Region 0 of @main, the elementwise combine (e0 + 3·ae0)·¼ over 25 row blocks of 6000 rows: each input window's block at a
  point, what the body leaves in the output window's buffer, the pipeline's proof data at the entry contents `V`, the
  body obligation, and the output array after the last point as one function of the two input arrays.
-/
import proofs.«413445_j54949811585067_2_alg».proof.Proof.Gen.KernelIdeal.Launch
import proofs.«413445_j54949811585067_2_alg».proof.Proof.Gen.KernelIdeal.Skeleton
import proofs.«413445_j54949811585067_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 6000×64 staging block. -/
abbrev r0 : Rect S6000x64 := Rect.unit (s := S6000x64) ![0, 0] S6000x64.size inb_S6000x64_S6000x64_0_0

/-- The output window's buffer after the body: its one store, of the payload of the two loaded blocks. -/
def out0_2 (x0 x1 : Vec F S6000x64 .f32) : Vec F S6000x64 .f32 :=
  View.canon [⟨r0, k0_pay1 (View.ld x0 r0) (View.ld x1 r0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- An input window's current buffer holds its block at every point, fetched there or not: the body leaves the
    block in place and the window is uncut and never idle, so an unfetched point finds the previous point's
    block, which is its own. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The one store is of the whole block, so it covers the buffer. -/
theorem cover0_2 (p0 : Vec F S6000x64 .f32) (y : S6000x64.Idx) :
    ∃ pc ∈ ([⟨r0, p0⟩] : List (View.Piece (Elt F) S6000x64 .f32)), y ∈ pc.1.set :=
  View.cover_of_tiled [⟨r0, p0⟩] S6000x64.size (by rfl) y

set_option maxHeartbeats 1000000 in
/-- The body on whole staging memrefs: the two inputs' at read contents `x0`, `x1`, the output's at anything. It
    loads both inputs, loads the output buffer (a value it never uses), stores the payload over the whole output
    buffer, and returns with the inputs' as they were and the output's at `out0_2 x0 x1`. -/
theorem sound_kernel0 (c : Dev nD) (E : Set ℕ) (i : grid0.Coords)
    (arg1 : Memref sig .tc .vmem S6000x64 .f32) (harg1 : arg1.IsWhole)
    (arg2 : Memref sig .tc .vmem S6000x64 .f32) (harg2 : arg2.IsWhole)
    (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The output array after the last point, as one function of the two input arrays -/

theorem zero_offsets : (![0, 0] : Fin 2 → Nat) = fun _ => 0 := funext fun a => by fin_cases a <;> rfl

/-- The body's arithmetic at the whole-array shape: `(x + 3·y)·¼`, index by index. -/
def light (x y : Vec F S150000x64 .f32) : Vec F S150000x64 .f32 :=
  mulf (φ := .f32) (addf (φ := .f32) x (mulf (φ := .f32) (broadcast S150000x64 (Scalar.ofBits .f32 0x40400000#32)) y))
    (broadcast S150000x64 (Scalar.ofBits .f32 0x3E800000#32))

/-- The payload at an index of the block is that arithmetic on the two loaded values there (a cast to the same
    shape moves nothing). -/
theorem pay_apply (x0 x1 : Vec F S6000x64 .f32) (j : S6000x64.Idx) :
    k0_pay1 x0 x1 j = FloatOps.mulf (FloatOps.addf (x0 j) (FloatOps.mulf (Scalar.ofBits .f32 0x40400000#32) (x1 j)))
      (Scalar.ofBits .f32 0x3E800000#32) := by
  unfold k0_pay1
  simp only [shapeCast_self]
  rfl

/-- The three windows move together: at point `t` each is on row block `t`, the only column block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Input window 0's block at point `t` sits in its array where the output's block sits in its own: a block's
    coordinate is its block index times the block size plus the coordinate inside, and the block indices agree. -/
theorem emb_in0 (t : Fin cfg0.N) (j : S6000x64.Idx) :
    (((cfg0.win 0).blk t).view.emb j : S150000x64.Idx) = ((cfg0.win 2).blk t).view.emb j := by
  obtain ⟨e0, e1, e2, e3, e4, e5⟩ := index_facts t
  funext a; apply Fin.ext
  match a with
  | ⟨0, _⟩ =>
    show win0_0.index t (0 : Fin 2) * 6000 + 1 * (j 0).val = win0_2.index t (0 : Fin 2) * 6000 + 1 * (j 0).val
    omega
  | ⟨1, _⟩ =>
    show win0_0.index t (1 : Fin 2) * 64 + 1 * (j 1).val = win0_2.index t (1 : Fin 2) * 64 + 1 * (j 1).val
    omega

/-- Likewise input window 1's. -/
theorem emb_in1 (t : Fin cfg0.N) (j : S6000x64.Idx) :
    (((cfg0.win 1).blk t).view.emb j : S150000x64.Idx) = ((cfg0.win 2).blk t).view.emb j := by
  obtain ⟨e0, e1, e2, e3, e4, e5⟩ := index_facts t
  funext a; apply Fin.ext
  match a with
  | ⟨0, _⟩ =>
    show win0_1.index t (0 : Fin 2) * 6000 + 1 * (j 0).val = win0_2.index t (0 : Fin 2) * 6000 + 1 * (j 0).val
    omega
  | ⟨1, _⟩ =>
    show win0_1.index t (1 : Fin 2) * 64 + 1 * (j 1).val = win0_2.index t (1 : Fin 2) * 64 + 1 * (j 1).val
    omega

/-- What point `t` writes back is block `t` of `light` of the two input arrays as the region finds them: the
    one store leaves the payload of the two loaded blocks, and an input block's coordinate is its block index times
    the block size plus the coordinate inside, on the same block index as the output's. -/
theorem flushed0_2_eq (c : Dev nD) (t : Fin cfg0.N) :
    (dat0 V c).flushed 2 t
      = ((cfg0.win 2).blk t).view.read (Elt F) (light (V c main_v0) (V c main_v13)) := by
  show (cfg0.win 2).cut (grid0.coords t) ((dat0 V c).after 2 t) = _
  rw [after0_2]
  unfold out0_2
  rw [View.canon_unit_zero zero_offsets]
  simp only [View.ld_unit_zero (S := S6000x64) zero_offsets]
  funext j
  show k0_pay1 (iblk0 V c 0 t) (iblk0 V c 1 t) j
    = light (V c main_v0) (V c main_v13) (((cfg0.win 2).blk t).view.emb j)
  rw [pay_apply]
  show FloatOps.mulf (FloatOps.addf (V c main_v0 (((cfg0.win 0).blk t).view.emb j))
        (FloatOps.mulf (Scalar.ofBits .f32 0x40400000#32) (V c main_v13 (((cfg0.win 1).blk t).view.emb j))))
      (Scalar.ofBits .f32 0x3E800000#32)
    = FloatOps.mulf (FloatOps.addf (V c main_v0 (((cfg0.win 2).blk t).view.emb j))
        (FloatOps.mulf (Scalar.ofBits .f32 0x40400000#32) (V c main_v13 (((cfg0.win 2).blk t).view.emb j))))
      (Scalar.ofBits .f32 0x3E800000#32)
  rw [emb_in0 t j, emb_in1 t j]

/-- An index of the output array is in point `t`'s block iff each coordinate is in the block's range on its axis. -/
theorem mem_blk0_2 (t : Fin cfg0.N) (i : S150000x64.Idx) :
    i ∈ ((cfg0.win 2).blk t).view.set ↔ ∀ a : Fin 2, win0_2.index t a * S6000x64.size a ≤ (i a).val
      ∧ (i a).val < win0_2.index t a * S6000x64.size a + S6000x64.size a := by
  show i ∈ ((View.whole main_v14).slice (win0_2.rect t)).set ↔ _
  rw [View.set_slice_whole, Rect.mem_set_unit]
  exact Iff.rfl

/-- Every index of the output array is in some point's block, and every point writes back: row `r` lies in row
    block `r / 6000`, one of the 25, and the single column block holds all 64 columns. -/
theorem cover0_out (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  let t : Fin cfg0.N := Fin.cast N_0.symm ⟨(i 0).val / 6000, by omega⟩
  have ht : t.val = (i 0).val / 6000 := rfl
  obtain ⟨e0, e1, e2, e3, e4, e5⟩ := index_facts t
  refine ⟨t, flush0_2 t, ?_⟩
  rw [mem_blk0_2]
  intro a
  match a with
  | ⟨0, _⟩ =>
    show win0_2.index t (0 : Fin 2) * 6000 ≤ (i 0).val ∧ (i 0).val < win0_2.index t (0 : Fin 2) * 6000 + 6000
    omega
  | ⟨1, _⟩ =>
    show win0_2.index t (1 : Fin 2) * 64 ≤ (i 1).val ∧ (i 1).val < win0_2.index t (1 : Fin 2) * 64 + 64
    omega

/-- The output array after the last point: `light` of the two input arrays as the region finds them. -/
theorem final0 (c : Dev nD) : (dat0 V c).arrAt 2 cfg0.N = light (V c main_v0) (V c main_v13) :=
  (dat0 V c).arrAt_eq_of_cover 2 (light (V c main_v0) (V c main_v13)) (fun t _ => flushed0_2_eq V c t) cover0_out

/-- The two constants at the ideal reals: the bit patterns denote `3` and `¼`. -/
theorem three_eq : (Scalar.ofBits .f32 0x40400000#32 : Ideal .f32) = ((3 : ℝ) : EReal) := by
  show Ideal.ofBits .f32 0x40400000#32 = _
  simp [Ideal.ofBits, Ideal.ieee, -EReal.coe_mul]; norm_num

theorem quarter_eq : (Scalar.ofBits .f32 0x3E800000#32 : Ideal .f32) = ((1 / 4 : ℝ) : EReal) := by
  show Ideal.ofBits .f32 0x3E800000#32 = _
  simp [Ideal.ofBits, Ideal.ieee, -EReal.coe_mul]; norm_num

/-- At the ideal reals, `light` at an index is `(x + 3·y)·¼` of the two arrays' values there. -/
theorem light_apply (x y : Vec Ideal S150000x64 .f32) (i : S150000x64.Idx) :
    light x y i = (x i + ((3 : ℝ) : EReal) * y i) * ((1 / 4 : ℝ) : EReal) := by
  show (x i + (Scalar.ofBits .f32 0x40400000#32 : Ideal .f32) * y i)
    * (Scalar.ofBits .f32 0x3E800000#32 : Ideal .f32) = _
  rw [three_eq, quarter_eq]

end Cert.KernelIdeal.Hand

end
-- ==== Proof.KI.Region1.lean ====
/-
  Region 1 of @main, the row gather whose input block index is read off a prefetched table: at point t the input window's
  block is row table[t] of the [150000, 1, 64] source and the output window's block is row t of the [2048, 1, 64] result;
  the body copies the one into the other. The pipeline's proof data at the entry contents `V` and admissible table
  contents `a`, the body obligation, and the output array after the last point.
-/
import proofs.«413445_j54949811585067_2_alg».proof.Proof.Gen.KernelIdeal.Launch
import proofs.«413445_j54949811585067_2_alg».proof.Proof.Gen.KernelIdeal.Skeleton
import proofs.«413445_j54949811585067_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg1 (F := F)).Adm)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef (cfg1 a).spec w))

/-- The whole 1×1×64 staging block. -/
abbrev r1 : Rect S1x1x64 := Rect.unit (s := S1x1x64) ![0, 0, 0] S1x1x64.size inb_S1x1x64_S1x1x64_0_0_0

/-- The output window's buffer after the body: its one store, of the loaded input block. -/
def out1_1 (x0 : Vec F S1x1x64 .f32) : Vec F S1x1x64 .f32 :=
  View.canon [⟨r1, k1_pay1 (View.ld x0 r1)⟩]

/-- The proof data of pipeline 1 on core `c`: the invariant keeps, beside the class's scoped rest and generator register,
    the prefetched table whole at the admitted contents. -/
def dat1 (c : Dev nD) : Dat τ (Elt F) Unit ℕ (UR sig nD τ) ℕ (cfg1 a) c where
  A w := V c (Pipeline.arrRef (cfg1 a).spec w)
  after w t := match w with
    | ⟨0, _⟩ => iblk1 V a c 0 t
    | ⟨1, _⟩ => out1_1 (iblk1 V a c 0 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef (cfg1 a).spec w) := by
  dsimp only [dat1]

/-! ## The body at a point -/

/-- The staging memref each window is on at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The body as the pipeline calls it at point `t`: the table's whole memref, then the two current staging memrefs. -/
abbrev bodyAt1 (t : Fin (cfg1 a).N) : Prog (TpuEff nD τ sig (Elt F) Λ₀ .tc) PUnit :=
  cc1__gather_kernel (grid1.coords t) (Memref.whole main_arg0) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))

/-! ## The input window's buffer -/

/-- The input window's current buffer holds its block at every point, fetched there or not: where no fetch happens
    the block index has not moved, and the body leaves the buffer as it found it. -/
theorem before1_0_of {c : Dev nD} (dat : Dat τ (Elt F) Unit ℕ (UR sig nD τ) ℕ (cfg1 a) c)
    (hA : dat.A 0 = V c (Pipeline.arrRef (cfg1 a).spec 0))
    (hafter : ∀ t, dat.after 0 t = iblk1 V a c 0 t) (t : Fin (cfg1 a).N) (d) : dat.before 0 t d = iblk1 V a c 0 t := by
  have hkeep : ∀ t, ((cfg1 a).win 0).cut ((cfg1 a).grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

/-! ## The body's one store -/

/-- The one store is of the whole 1×1×64 buffer, so every cell of it is written. -/
theorem cover1_1 (p0 : Vec F S1x1x64 .f32) (y : S1x1x64.Idx) :
    ∃ pc ∈ ([⟨r1, p0⟩] : List (View.Piece (Elt F) S1x1x64 .f32)), y ∈ pc.1.set :=
  View.cover_of_tiled [⟨r1, p0⟩] S1x1x64.size (by rfl) y

set_option maxHeartbeats 1000000 in
/-- The body on whole staging memrefs: the input's at `x0` and the output's at anything; it reads both, writes the
    output's with the input's contents, and never touches its first argument, the table. So it runs to any continuation
    that takes the input's buffer back as it was and the output's at `out1_1 x0`. -/
theorem sound_kernel1 (c : Dev nD) (E : Set ℕ) (i : grid1.Coords) (tb : Memref sig .tc .smem S2048 .i32) (htb : tb.IsWhole)
    (arg0 : Memref sig .tc .vmem S1x1x64 .f32) (harg0 : arg0.IsWhole) (arg1 : Memref sig .tc .vmem S1x1x64 .f32) (harg1 : arg1.IsWhole)
    (x0 : Vec F S1x1x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__gather_kernel i tb htb arg0 harg0 arg1 harg1) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The body obligation -/

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = out1_1 (iblk1 V a c 0 t) := by dsimp only [dat1]; rfl

theorem before1_0 (c : Dev nD) (t : Fin (cfg1 a).N) (d) : (dat1 V a c).before 0 t d = iblk1 V a c 0 t :=
  before1_0_of V a (dat1 V a c) (A_eq1 V a c 0) (after1_0 V a c) t d

/-- What the body is handed at point `t`: the invariant (with the table in it), the core's debts, and the two current
    buffers, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d)))

/-- and what it hands back. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t))

/-- The body at any point: the input's buffer holds its block, so the body's triple applies; the invariant, the table
    inside it, and the core's debts are not read and pass through. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.succ = (dat1 V a c).Φ t.castSucc from rfl,
    show (dat1 V a c).owesAt () t.succ = (dat1 V a c).owesAt () t.castSucc from rfl,
    after1_0, after1_1]
  iintro ⟨HΦ, Ho, ⟨%d0, H0⟩, ⟨%d1, H1⟩⟩
  iapply (sound_kernel1 c Set.univ _ _ _ _ _ _ _ (iblk1 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V a c) (defs₀ (F := F)) Variants.none () Set.univ := fun t => by
  rw [bigSep_W1, bigSep_W1]
  exact sound_body1 V a c t

/-! ## The output array after the last point -/

/-- A row number of the table is inside its one axis. -/
theorem lt_size1 (k : Fin 2048) (b : Fin 1) : k.val < S2048.size b := by
  obtain rfl : b = 0 := Subsingleton.elim _ _
  exact k.isLt

/-- Row `k` of the table, as an index of it. -/
def idx1 (k : Fin 2048) : S2048.Idx := fun b => ⟨k.val, lt_size1 k b⟩

theorem N1_eq : (cfg1 a).N = 2048 := N_1

/-- The grid is one axis of 2048 points: point `t` has coordinate `t`. -/
theorem coords1_val (t : Fin grid1.N) : ((grid1.coords t) 0).val = t.val := by
  show t.val / grid1.stride 0 % grid1.bound 0 = t.val
  have h1 : grid1.stride 0 = 1 := by decide
  have h2 : grid1.bound 0 = 2048 := rfl
  have := t.isLt
  have h3 : grid1.N = 2048 := N_1
  rw [h1, h2, Nat.div_one]; omega

/-- The one-word rectangle the index map loads through, at the point's coordinate, names row `i 0` of the table. -/
theorem wordRect1_emb (i : grid1.Coords) :
    (Rect.unit (s := S2048) ![(Scalar.indexCast (BitVec.ofNat 32 (i 0).val)).toNat] S1.size (k1_off1_inb i)).emb
      (Shape.Idx.first (numel1_S1.symm ▸ Nat.one_pos)) = idx1 ⟨(i 0).val, (i 0).isLt⟩ := by
  funext b; apply Fin.ext
  obtain rfl : b = 0 := Subsingleton.elim _ _
  rw [Rect.emb_apply]
  show (BitVec.ofNat 32 (i 0).val).toNat + 1 * 0 = (i 0).val
  have hi : (i 0).val < 2048 := (i 0).isLt
  rw [BitVec.toNat_ofNat]; omega

/-- The word the index map loads at coordinates `i`, at any table contents, is the table at row `i 0`. -/
theorem word1_eq (pf : pre1.Contents (Elt F)) (i : grid1.Coords) :
    pf.at 0 (Rect.unit (s := S2048) ![(Scalar.indexCast (BitVec.ofNat 32 (i 0).val)).toNat] S1.size (k1_off1_inb i)) numel1_S1
      = pf 0 (idx1 ⟨(i 0).val, (i 0).isLt⟩) :=
  congrArg (pf 0) (wordRect1_emb i)

/-- The input's index map at any table contents: the leading block index is the table's word for the point, the
    others are zero. -/
theorem transform1_0_eq (pf : pre1.Contents (Elt F)) (i : grid1.Coords) :
    cc1_transform_0 k1_off1_inb numel1_S1 pf i = ![(pf 0 (idx1 ⟨(i 0).val, (i 0).isLt⟩)).toNat, 0, 0] := by
  unfold cc1_transform_0
  dsimp only
  exact congrArg (fun x => ![(pf 0 x).toNat, 0, 0]) (wordRect1_emb i)

/-- The output's index map: the leading block index is the point's coordinate, the others are zero. -/
theorem transform1_1_eq (i : grid1.Coords) : cc1_transform_1 i = ![(i 0).val, 0, 0] := by
  unfold cc1_transform_1
  dsimp only
  have hi : (i 0).val < 2048 := (i 0).isLt
  have e : (BitVec.ofNat 32 (i 0).val).toNat = (i 0).val := by rw [BitVec.toNat_ofNat]; omega
  rw [e]; rfl

theorem index1_0 (t : Fin (cfg1 a).N) : ((cfg1 a).win 0).index t = cc1_transform_0 k1_off1_inb numel1_S1 a.1 (grid1.coords t) := rfl
theorem index1_1 (t : Fin (cfg1 a).N) : ((cfg1 a).win 1).index t = cc1_transform_1 (grid1.coords t) := rfl

/-- The output window is written back at every point, whatever the table holds: its index map reads only the point. -/
theorem flush1_1 : ∀ t : Fin (cfg1 a).N, ((cfg1 a).win 1).flush t = true :=
  (by decide +kernel : ∀ t : Fin grid1.N, Pipeline.Window.flushOf grid1 true cc1_transform_1 t = true)

/-- The input's block index at point `t`: row the table's word for `t`, the one middle block, the one column block. -/
theorem index1_0_row (t : Fin (cfg1 a).N) : ((cfg1 a).win 0).index t (0 : Fin 3) = (a.1 0 (idx1 ⟨t.val, t.isLt⟩)).toNat := by
  rw [index1_0, transform1_0_eq]
  exact congrArg (fun k => (a.1 0 (idx1 k)).toNat) (Fin.ext (coords1_val t))
theorem index1_0_mid (t : Fin (cfg1 a).N) : ((cfg1 a).win 0).index t (1 : Fin 3) = 0 := by
  rw [index1_0, transform1_0_eq]; rfl
theorem index1_0_col (t : Fin (cfg1 a).N) : ((cfg1 a).win 0).index t (2 : Fin 3) = 0 := by
  rw [index1_0, transform1_0_eq]; rfl

/-- The output's block index at point `t`: row `t`, the one middle block, the one column block. -/
theorem index1_1_row (t : Fin (cfg1 a).N) : ((cfg1 a).win 1).index t (0 : Fin 3) = t.val := by
  rw [index1_1, transform1_1_eq]; exact coords1_val t
theorem index1_1_mid (t : Fin (cfg1 a).N) : ((cfg1 a).win 1).index t (1 : Fin 3) = 0 := by
  rw [index1_1, transform1_1_eq]; rfl
theorem index1_1_col (t : Fin (cfg1 a).N) : ((cfg1 a).win 1).index t (2 : Fin 3) = 0 := by
  rw [index1_1, transform1_1_eq]; rfl

/-- Every word of an admitted table is a row number of the source: the side condition, read at the word's point. -/
theorem word1_lt (k : Fin 2048) : (a.1 0 (idx1 k)).toNat < 150000 := by
  obtain ⟨h, -⟩ := a.2 (grid1.coords ⟨k.val, k.isLt⟩)
  have h0 := h 0
  rw [transform1_0_eq] at h0
  have e : (⟨((grid1.coords ⟨k.val, k.isLt⟩) 0).val, ((grid1.coords ⟨k.val, k.isLt⟩) 0).isLt⟩ : Fin 2048) = k :=
    Fin.ext (coords1_val ⟨k.val, k.isLt⟩)
  rw [e] at h0
  have h1 : ((a.1 0 (idx1 k)).toNat + 1) * 1 ≤ 150000 := h0
  omega

/-- The source row the output's index `i` reads: the table's word for `i`'s row, the one middle coordinate, `i`'s column. -/
def row1 (i : S2048x1x64.Idx) : S150000x1x64.Idx := fun b => match b with
  | ⟨0, _⟩ => ⟨(a.1 0 (idx1 (i 0))).toNat, word1_lt a (i 0)⟩
  | ⟨1, _⟩ => ⟨0, Nat.one_pos⟩
  | ⟨2, _⟩ => i 2

/-- What the output array ends holding: at each index, the source at the row the table names. -/
abbrev G1 (c : Dev nD) : S2048x1x64.Idx → Elt F .f32 := fun i => V c main_v15 (row1 a i)

theorem hz1 : (![0, 0, 0] : Fin 3 → Nat) = fun _ => 0 := funext fun b => by fin_cases b <;> rfl

/-- The stored value is the loaded block: the shape cast between them is of a shape to itself. -/
theorem pay1_eq (x : Vec F S1x1x64 .f32) : k1_pay1 x = x := by
  unfold k1_pay1; exact shapeCast_self _ _

/-- The output's buffer after the body is the input's block: the one store covers the buffer, and stores what the
    one load read, all of the input's buffer. -/
theorem out1_1_eq (x : Vec F S1x1x64 .f32) : out1_1 x = x := by
  unfold out1_1
  rw [View.canon_unit_zero hz1, pay1_eq, View.ld_unit_zero hz1]

theorem flushed1_eq (c : Dev nD) (t : Fin (cfg1 a).N) :
    (dat1 V a c).flushed 1 t = (((cfg1 a).win 1).blk t).view.read (Elt F) (G1 V a c) := by
  show ((cfg1 a).win 1).cut (grid1.coords t) ((dat1 V a c).after 1 t) = _
  rw [after1_1]
  funext j
  refine (congrFun (out1_1_eq (iblk1 V a c 0 t)) _).trans ?_
  show V c main_v15 ((((cfg1 a).win 0).blk t).view.emb (((cfg1 a).win 1).xinj (grid1.coords t) j))
     = V c main_v15 (row1 a ((((cfg1 a).win 1).blk t).view.emb j))
  refine congrArg (V c main_v15) ?_
  have hj0 : (j (0 : Fin 3)).val < 1 := (j (0 : Fin 3)).isLt
  have hj1 : (j (1 : Fin 3)).val < 1 := (j (1 : Fin 3)).isLt
  have h0 : (((((cfg1 a).win 1).blk t).view.emb j) (0 : Fin 3)).val = t.val := by
    show ((cfg1 a).win 1).index t (0 : Fin 3) * 1 + 1 * (j (0 : Fin 3)).val = t.val
    rw [index1_1_row]; omega
  have h2 : (((((cfg1 a).win 1).blk t).view.emb j) (2 : Fin 3)).val = (j (2 : Fin 3)).val := by
    show ((cfg1 a).win 1).index t (2 : Fin 3) * 64 + 1 * (j (2 : Fin 3)).val = (j (2 : Fin 3)).val
    rw [index1_1_col]; omega
  generalize (((cfg1 a).win 1).blk t).view.emb j = i' at h0 h2 ⊢
  have hb : ∀ b : Fin 3, ((((cfg1 a).win 0).blk t).view.emb (((cfg1 a).win 1).xinj (grid1.coords t) j) b).val = (row1 a i' b).val := fun b => by
    match b with
    | ⟨0, _⟩ =>
      have e : (a.1 0 (idx1 (i' (0 : Fin 3)))).toNat = (a.1 0 (idx1 ⟨t.val, t.isLt⟩)).toNat :=
        congrArg (fun k => (a.1 0 (idx1 k)).toNat) (Fin.ext h0)
      show ((cfg1 a).win 0).index t (0 : Fin 3) * 1 + 1 * (j (0 : Fin 3)).val = (a.1 0 (idx1 (i' (0 : Fin 3)))).toNat
      rw [index1_0_row]; omega
    | ⟨1, _⟩ =>
      show ((cfg1 a).win 0).index t (1 : Fin 3) * 1 + 1 * (j (1 : Fin 3)).val = 0
      rw [index1_0_mid]; omega
    | ⟨2, _⟩ =>
      show ((cfg1 a).win 0).index t (2 : Fin 3) * 64 + 1 * (j (2 : Fin 3)).val = (i' (2 : Fin 3)).val
      rw [index1_0_col]; omega
  funext b; apply Fin.ext
  exact hb b

/-- A rectangle of the whole output array, as a view of it, covers the rectangle's own indices. -/
theorem mem_slice_out1 (r : Rect main_v16.ty.shape) (i : main_v16.ty.shape.Idx) :
    i ∈ ((View.whole main_v16).slice r).set ↔ i ∈ r.set := by
  rw [View.set_slice_whole]

/-- An index of the output array is in point `t`'s block iff each coordinate is in the block's range on its axis. -/
theorem mem_blk1 (t : Fin (cfg1 a).N) (i : S2048x1x64.Idx) :
    i ∈ (((cfg1 a).win 1).blk t).view.set ↔ ∀ b : Fin 3, ((cfg1 a).win 1).index t b * S1x1x64.size b ≤ (i b).val
      ∧ (i b).val < ((cfg1 a).win 1).index t b * S1x1x64.size b + S1x1x64.size b := by
  exact (mem_slice_out1 (((cfg1 a).win 1).rect t) i).trans Rect.mem_set_unit

/-- Row `r` of the output array is written back at point `r`. -/
theorem cover1 (i : S2048x1x64.Idx) :
    ∃ t : Fin (cfg1 a).N, ((cfg1 a).win 1).flush t = true ∧ i ∈ (((cfg1 a).win 1).blk t).view.set := by
  refine ⟨⟨(i 0).val, (i 0).isLt⟩, flush1_1 a _, ?_⟩
  rw [mem_blk1]
  intro b
  have hi1 : (i 1).val < 1 := (i 1).isLt
  have hi2 : (i 2).val < 64 := (i 2).isLt
  match b with
  | ⟨0, _⟩ =>
    show ((cfg1 a).win 1).index _ (0 : Fin 3) * 1 ≤ (i 0).val ∧ (i 0).val < ((cfg1 a).win 1).index _ (0 : Fin 3) * 1 + 1
    rw [index1_1_row]; show (i 0).val * 1 ≤ (i 0).val ∧ (i 0).val < (i 0).val * 1 + 1; omega
  | ⟨1, _⟩ =>
    show ((cfg1 a).win 1).index _ (1 : Fin 3) * 1 ≤ (i 1).val ∧ (i 1).val < ((cfg1 a).win 1).index _ (1 : Fin 3) * 1 + 1
    rw [index1_1_mid]; omega
  | ⟨2, _⟩ =>
    show ((cfg1 a).win 1).index _ (2 : Fin 3) * 64 ≤ (i 2).val ∧ (i 2).val < ((cfg1 a).win 1).index _ (2 : Fin 3) * 64 + 64
    rw [index1_1_col]; omega

/-- The output array after the last point, as a function: every row is written back once, with the source row the
    table names. -/
theorem final1_fun (c : Dev nD) : (dat1 V a c).arrAt 1 (cfg1 a).N = G1 V a c :=
  (dat1 V a c).arrAt_eq_of_cover 1 (G1 V a c) (fun t _ => flushed1_eq V a c t) (cover1 a)

/-- The output array after the last point, index by index. -/
theorem final1 (c : Dev nD) (i : S2048x1x64.Idx) : (dat1 V a c).arrAt 1 (cfg1 a).N i = V c main_v15 (row1 a i) :=
  congrFun (final1_fun V a c) i

/-- The coordinates of the source row read. -/
theorem row1_row (i : S2048x1x64.Idx) : (row1 a i 0).val = (a.1 0 (idx1 (i 0))).toNat := rfl
theorem row1_mid (i : S2048x1x64.Idx) : (row1 a i 1).val = 0 := rfl
theorem row1_col (i : S2048x1x64.Idx) : (row1 a i 2).val = (i 2).val := rfl

end Cert.KernelIdeal.Hand

end
-- ==== Proof.KI.Region2.lean ====
/-
  Region 2 of @main, the row gather whose input block index is read off a prefetched table: at point t the input window's
  block is row table[t] of the [150000, 1, 64] source and the output window's block is row t of the [2048, 1, 64] result;
  the body copies the one into the other. The pipeline's proof data at the entry contents `V` and admissible table
  contents `a`, the body obligation, and the output array after the last point.
-/
import proofs.«413445_j54949811585067_2_alg».proof.Proof.Gen.KernelIdeal.Launch
import proofs.«413445_j54949811585067_2_alg».proof.Proof.Gen.KernelIdeal.Skeleton
import proofs.«413445_j54949811585067_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg2 (F := F)).Adm)

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef (cfg2 a).spec w))

/-- The whole 1×1×64 staging block. -/
abbrev r2 : Rect S1x1x64 := Rect.unit (s := S1x1x64) ![0, 0, 0] S1x1x64.size inb_S1x1x64_S1x1x64_0_0_0

/-- The output window's buffer after the body: its one store, of the loaded input block. -/
def out2_1 (x0 : Vec F S1x1x64 .f32) : Vec F S1x1x64 .f32 :=
  View.canon [⟨r2, k2_pay1 (View.ld x0 r2)⟩]

/-- The proof data of pipeline 2 on core `c`: the invariant keeps, beside the class's scoped rest and generator register,
    the prefetched table whole at the admitted contents. -/
def dat2 (c : Dev nD) : Dat τ (Elt F) Unit ℕ (UR sig nD τ) ℕ (cfg2 a) c where
  A w := V c (Pipeline.arrRef (cfg2 a).spec w)
  after w t := match w with
    | ⟨0, _⟩ => iblk2 V a c 0 t
    | ⟨1, _⟩ => out2_1 (iblk2 V a c 0 t)
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef (cfg2 a).spec w) := by
  dsimp only [dat2]

/-! ## The body at a point -/

/-- The staging memref each window is on at point `t`. -/
abbrev st2_0 (t : Fin (cfg2 a).N) := ((cfg2 a).win 0).stage ((cfg2 a).slots t 0)
abbrev st2_1 (t : Fin (cfg2 a).N) := ((cfg2 a).win 1).stage ((cfg2 a).slots t 1)

/-- The body as the pipeline calls it at point `t`: the table's whole memref, then the two current staging memrefs. -/
abbrev bodyAt2 (t : Fin (cfg2 a).N) : Prog (TpuEff nD τ sig (Elt F) Λ₀ .tc) PUnit :=
  cc2__gather_kernel (grid2.coords t) (Memref.whole main_v19) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))

/-! ## The input window's buffer -/

/-- The input window's current buffer holds its block at every point, fetched there or not: where no fetch happens
    the block index has not moved, and the body leaves the buffer as it found it. -/
theorem before2_0_of {c : Dev nD} (dat : Dat τ (Elt F) Unit ℕ (UR sig nD τ) ℕ (cfg2 a) c)
    (hA : dat.A 0 = V c (Pipeline.arrRef (cfg2 a).spec 0))
    (hafter : ∀ t, dat.after 0 t = iblk2 V a c 0 t) (t : Fin (cfg2 a).N) (d) : dat.before 0 t d = iblk2 V a c 0 t := by
  have hkeep : ∀ t, ((cfg2 a).win 0).cut ((cfg2 a).grid.coords t) (dat.after 0 t) = dat.blockOf 0 t := fun t => by
    rw [hafter]; unfold Dat.blockOf iblk2; rw [hA]; try rfl
  refine (dat.before_in_eq_fetched 0 rfl (fun _ => rfl) (fun _ _ _ => rfl) hkeep t d).trans ?_
  unfold Dat.fetched Dat.blockOf iblk2; rw [hA]; try rfl

/-! ## The body's one store -/

/-- The one store is of the whole 1×1×64 buffer, so every cell of it is written. -/
theorem cover2_1 (p0 : Vec F S1x1x64 .f32) (y : S1x1x64.Idx) :
    ∃ pc ∈ ([⟨r2, p0⟩] : List (View.Piece (Elt F) S1x1x64 .f32)), y ∈ pc.1.set :=
  View.cover_of_tiled [⟨r2, p0⟩] S1x1x64.size (by rfl) y

set_option maxHeartbeats 1000000 in
/-- The body on whole staging memrefs: the input's at `x0` and the output's at anything; it reads both, writes the
    output's with the input's contents, and never touches its first argument, the table. So it runs to any continuation
    that takes the input's buffer back as it was and the output's at `out2_1 x0`. -/
theorem sound_kernel2 (c : Dev nD) (E : Set ℕ) (i : grid2.Coords) (tb : Memref sig .tc .smem S2048 .i32) (htb : tb.IsWhole)
    (arg0 : Memref sig .tc .vmem S1x1x64 .f32) (harg0 : arg0.IsWhole) (arg1 : Memref sig .tc .vmem S1x1x64 .f32) (harg1 : arg1.IsWhole)
    (x0 : Vec F S1x1x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__gather_kernel i tb htb arg0 harg0 arg1 harg1) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The body obligation -/

theorem after2_0 (c : Dev nD) (t : Fin (cfg2 a).N) : (dat2 V a c).after 0 t = iblk2 V a c 0 t := by dsimp only [dat2]; rfl
theorem after2_1 (c : Dev nD) (t : Fin (cfg2 a).N) : (dat2 V a c).after 1 t = out2_1 (iblk2 V a c 0 t) := by dsimp only [dat2]; rfl

theorem before2_0 (c : Dev nD) (t : Fin (cfg2 a).N) (d) : (dat2 V a c).before 0 t d = iblk2 V a c 0 t :=
  before2_0_of V a (dat2 V a c) (A_eq2 V a c 0) (after2_0 V a c) t d

/-- What the body is handed at point `t`: the invariant (with the table in it), the core's debts, and the two current
    buffers, -/
def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d)))

/-- and what it hands back. -/
def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t))

/-- The body at any point: the input's buffer holds its block, so the body's triple applies; the invariant, the table
    inside it, and the core's debts are not read and pass through. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0]
  rw [show (dat2 V a c).Φ t.succ = (dat2 V a c).Φ t.castSucc from rfl,
    show (dat2 V a c).owesAt () t.succ = (dat2 V a c).owesAt () t.castSucc from rfl,
    after2_0, after2_1]
  iintro ⟨HΦ, Ho, ⟨%d0, H0⟩, ⟨%d1, H1⟩⟩
  iapply (sound_kernel2 c Set.univ _ _ _ _ _ _ _ (iblk2 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V a c) (defs₀ (F := F)) Variants.none () Set.univ := fun t => by
  rw [bigSep_W2, bigSep_W2]
  exact sound_body2 V a c t

/-! ## The output array after the last point -/

/-- A row number of the table is inside its one axis. -/
theorem lt_size2 (k : Fin 2048) (b : Fin 1) : k.val < S2048.size b := by
  obtain rfl : b = 0 := Subsingleton.elim _ _
  exact k.isLt

/-- Row `k` of the table, as an index of it. -/
def idx2 (k : Fin 2048) : S2048.Idx := fun b => ⟨k.val, lt_size2 k b⟩

theorem N2_eq : (cfg2 a).N = 2048 := N_2

/-- The grid is one axis of 2048 points: point `t` has coordinate `t`. -/
theorem coords2_val (t : Fin grid2.N) : ((grid2.coords t) 0).val = t.val := by
  show t.val / grid2.stride 0 % grid2.bound 0 = t.val
  have h1 : grid2.stride 0 = 1 := by decide
  have h2 : grid2.bound 0 = 2048 := rfl
  have := t.isLt
  have h3 : grid2.N = 2048 := N_2
  rw [h1, h2, Nat.div_one]; omega

/-- The one-word rectangle the index map loads through, at the point's coordinate, names row `i 0` of the table. -/
theorem wordRect2_emb (i : grid2.Coords) :
    (Rect.unit (s := S2048) ![(Scalar.indexCast (BitVec.ofNat 32 (i 0).val)).toNat] S1.size (k2_off1_inb i)).emb
      (Shape.Idx.first (numel1_S1.symm ▸ Nat.one_pos)) = idx2 ⟨(i 0).val, (i 0).isLt⟩ := by
  funext b; apply Fin.ext
  obtain rfl : b = 0 := Subsingleton.elim _ _
  rw [Rect.emb_apply]
  show (BitVec.ofNat 32 (i 0).val).toNat + 1 * 0 = (i 0).val
  have hi : (i 0).val < 2048 := (i 0).isLt
  rw [BitVec.toNat_ofNat]; omega

/-- The word the index map loads at coordinates `i`, at any table contents, is the table at row `i 0`. -/
theorem word2_eq (pf : pre2.Contents (Elt F)) (i : grid2.Coords) :
    pf.at 0 (Rect.unit (s := S2048) ![(Scalar.indexCast (BitVec.ofNat 32 (i 0).val)).toNat] S1.size (k2_off1_inb i)) numel1_S1
      = pf 0 (idx2 ⟨(i 0).val, (i 0).isLt⟩) :=
  congrArg (pf 0) (wordRect2_emb i)

/-- The input's index map at any table contents: the leading block index is the table's word for the point, the
    others are zero. -/
theorem transform2_0_eq (pf : pre2.Contents (Elt F)) (i : grid2.Coords) :
    cc2_transform_0 k2_off1_inb numel1_S1 pf i = ![(pf 0 (idx2 ⟨(i 0).val, (i 0).isLt⟩)).toNat, 0, 0] := by
  unfold cc2_transform_0
  dsimp only
  exact congrArg (fun x => ![(pf 0 x).toNat, 0, 0]) (wordRect2_emb i)

/-- The output's index map: the leading block index is the point's coordinate, the others are zero. -/
theorem transform2_1_eq (i : grid2.Coords) : cc2_transform_1 i = ![(i 0).val, 0, 0] := by
  unfold cc2_transform_1
  dsimp only
  have hi : (i 0).val < 2048 := (i 0).isLt
  have e : (BitVec.ofNat 32 (i 0).val).toNat = (i 0).val := by rw [BitVec.toNat_ofNat]; omega
  rw [e]; rfl

theorem index2_0 (t : Fin (cfg2 a).N) : ((cfg2 a).win 0).index t = cc2_transform_0 k2_off1_inb numel1_S1 a.1 (grid2.coords t) := rfl
theorem index2_1 (t : Fin (cfg2 a).N) : ((cfg2 a).win 1).index t = cc2_transform_1 (grid2.coords t) := rfl

/-- The output window is written back at every point, whatever the table holds: its index map reads only the point. -/
theorem flush2_1 : ∀ t : Fin (cfg2 a).N, ((cfg2 a).win 1).flush t = true :=
  (by decide +kernel : ∀ t : Fin grid2.N, Pipeline.Window.flushOf grid2 true cc2_transform_1 t = true)

/-- The input's block index at point `t`: row the table's word for `t`, the one middle block, the one column block. -/
theorem index2_0_row (t : Fin (cfg2 a).N) : ((cfg2 a).win 0).index t (0 : Fin 3) = (a.1 0 (idx2 ⟨t.val, t.isLt⟩)).toNat := by
  rw [index2_0, transform2_0_eq]
  exact congrArg (fun k => (a.1 0 (idx2 k)).toNat) (Fin.ext (coords2_val t))
theorem index2_0_mid (t : Fin (cfg2 a).N) : ((cfg2 a).win 0).index t (1 : Fin 3) = 0 := by
  rw [index2_0, transform2_0_eq]; rfl
theorem index2_0_col (t : Fin (cfg2 a).N) : ((cfg2 a).win 0).index t (2 : Fin 3) = 0 := by
  rw [index2_0, transform2_0_eq]; rfl

/-- The output's block index at point `t`: row `t`, the one middle block, the one column block. -/
theorem index2_1_row (t : Fin (cfg2 a).N) : ((cfg2 a).win 1).index t (0 : Fin 3) = t.val := by
  rw [index2_1, transform2_1_eq]; exact coords2_val t
theorem index2_1_mid (t : Fin (cfg2 a).N) : ((cfg2 a).win 1).index t (1 : Fin 3) = 0 := by
  rw [index2_1, transform2_1_eq]; rfl
theorem index2_1_col (t : Fin (cfg2 a).N) : ((cfg2 a).win 1).index t (2 : Fin 3) = 0 := by
  rw [index2_1, transform2_1_eq]; rfl

/-- Every word of an admitted table is a row number of the source: the side condition, read at the word's point. -/
theorem word2_lt (k : Fin 2048) : (a.1 0 (idx2 k)).toNat < 150000 := by
  obtain ⟨h, -⟩ := a.2 (grid2.coords ⟨k.val, k.isLt⟩)
  have h0 := h 0
  rw [transform2_0_eq] at h0
  have e : (⟨((grid2.coords ⟨k.val, k.isLt⟩) 0).val, ((grid2.coords ⟨k.val, k.isLt⟩) 0).isLt⟩ : Fin 2048) = k :=
    Fin.ext (coords2_val ⟨k.val, k.isLt⟩)
  rw [e] at h0
  have h1 : ((a.1 0 (idx2 k)).toNat + 1) * 1 ≤ 150000 := h0
  omega

/-- The source row the output's index `i` reads: the table's word for `i`'s row, the one middle coordinate, `i`'s column. -/
def row2 (i : S2048x1x64.Idx) : S150000x1x64.Idx := fun b => match b with
  | ⟨0, _⟩ => ⟨(a.1 0 (idx2 (i 0))).toNat, word2_lt a (i 0)⟩
  | ⟨1, _⟩ => ⟨0, Nat.one_pos⟩
  | ⟨2, _⟩ => i 2

/-- What the output array ends holding: at each index, the source at the row the table names. -/
abbrev G2 (c : Dev nD) : S2048x1x64.Idx → Elt F .f32 := fun i => V c main_v20 (row2 a i)

theorem hz2 : (![0, 0, 0] : Fin 3 → Nat) = fun _ => 0 := funext fun b => by fin_cases b <;> rfl

/-- The stored value is the loaded block: the shape cast between them is of a shape to itself. -/
theorem pay2_eq (x : Vec F S1x1x64 .f32) : k2_pay1 x = x := by
  unfold k2_pay1; exact shapeCast_self _ _

/-- The output's buffer after the body is the input's block: the one store covers the buffer, and stores what the
    one load read, all of the input's buffer. -/
theorem out2_1_eq (x : Vec F S1x1x64 .f32) : out2_1 x = x := by
  unfold out2_1
  rw [View.canon_unit_zero hz2, pay2_eq, View.ld_unit_zero hz2]

theorem flushed2_eq (c : Dev nD) (t : Fin (cfg2 a).N) :
    (dat2 V a c).flushed 1 t = (((cfg2 a).win 1).blk t).view.read (Elt F) (G2 V a c) := by
  show ((cfg2 a).win 1).cut (grid2.coords t) ((dat2 V a c).after 1 t) = _
  rw [after2_1]
  funext j
  refine (congrFun (out2_1_eq (iblk2 V a c 0 t)) _).trans ?_
  show V c main_v20 ((((cfg2 a).win 0).blk t).view.emb (((cfg2 a).win 1).xinj (grid2.coords t) j))
     = V c main_v20 (row2 a ((((cfg2 a).win 1).blk t).view.emb j))
  refine congrArg (V c main_v20) ?_
  have hj0 : (j (0 : Fin 3)).val < 1 := (j (0 : Fin 3)).isLt
  have hj1 : (j (1 : Fin 3)).val < 1 := (j (1 : Fin 3)).isLt
  have h0 : (((((cfg2 a).win 1).blk t).view.emb j) (0 : Fin 3)).val = t.val := by
    show ((cfg2 a).win 1).index t (0 : Fin 3) * 1 + 1 * (j (0 : Fin 3)).val = t.val
    rw [index2_1_row]; omega
  have h2 : (((((cfg2 a).win 1).blk t).view.emb j) (2 : Fin 3)).val = (j (2 : Fin 3)).val := by
    show ((cfg2 a).win 1).index t (2 : Fin 3) * 64 + 1 * (j (2 : Fin 3)).val = (j (2 : Fin 3)).val
    rw [index2_1_col]; omega
  generalize (((cfg2 a).win 1).blk t).view.emb j = i' at h0 h2 ⊢
  have hb : ∀ b : Fin 3, ((((cfg2 a).win 0).blk t).view.emb (((cfg2 a).win 1).xinj (grid2.coords t) j) b).val = (row2 a i' b).val := fun b => by
    match b with
    | ⟨0, _⟩ =>
      have e : (a.1 0 (idx2 (i' (0 : Fin 3)))).toNat = (a.1 0 (idx2 ⟨t.val, t.isLt⟩)).toNat :=
        congrArg (fun k => (a.1 0 (idx2 k)).toNat) (Fin.ext h0)
      show ((cfg2 a).win 0).index t (0 : Fin 3) * 1 + 1 * (j (0 : Fin 3)).val = (a.1 0 (idx2 (i' (0 : Fin 3)))).toNat
      rw [index2_0_row]; omega
    | ⟨1, _⟩ =>
      show ((cfg2 a).win 0).index t (1 : Fin 3) * 1 + 1 * (j (1 : Fin 3)).val = 0
      rw [index2_0_mid]; omega
    | ⟨2, _⟩ =>
      show ((cfg2 a).win 0).index t (2 : Fin 3) * 64 + 1 * (j (2 : Fin 3)).val = (i' (2 : Fin 3)).val
      rw [index2_0_col]; omega
  funext b; apply Fin.ext
  exact hb b

/-- A rectangle of the whole output array, as a view of it, covers the rectangle's own indices. -/
theorem mem_slice_out2 (r : Rect main_v21.ty.shape) (i : main_v21.ty.shape.Idx) :
    i ∈ ((View.whole main_v21).slice r).set ↔ i ∈ r.set := by
  rw [View.set_slice_whole]

/-- An index of the output array is in point `t`'s block iff each coordinate is in the block's range on its axis. -/
theorem mem_blk2 (t : Fin (cfg2 a).N) (i : S2048x1x64.Idx) :
    i ∈ (((cfg2 a).win 1).blk t).view.set ↔ ∀ b : Fin 3, ((cfg2 a).win 1).index t b * S1x1x64.size b ≤ (i b).val
      ∧ (i b).val < ((cfg2 a).win 1).index t b * S1x1x64.size b + S1x1x64.size b := by
  exact (mem_slice_out2 (((cfg2 a).win 1).rect t) i).trans Rect.mem_set_unit

/-- Row `r` of the output array is written back at point `r`. -/
theorem cover2 (i : S2048x1x64.Idx) :
    ∃ t : Fin (cfg2 a).N, ((cfg2 a).win 1).flush t = true ∧ i ∈ (((cfg2 a).win 1).blk t).view.set := by
  refine ⟨⟨(i 0).val, (i 0).isLt⟩, flush2_1 a _, ?_⟩
  rw [mem_blk2]
  intro b
  have hi1 : (i 1).val < 1 := (i 1).isLt
  have hi2 : (i 2).val < 64 := (i 2).isLt
  match b with
  | ⟨0, _⟩ =>
    show ((cfg2 a).win 1).index _ (0 : Fin 3) * 1 ≤ (i 0).val ∧ (i 0).val < ((cfg2 a).win 1).index _ (0 : Fin 3) * 1 + 1
    rw [index2_1_row]; show (i 0).val * 1 ≤ (i 0).val ∧ (i 0).val < (i 0).val * 1 + 1; omega
  | ⟨1, _⟩ =>
    show ((cfg2 a).win 1).index _ (1 : Fin 3) * 1 ≤ (i 1).val ∧ (i 1).val < ((cfg2 a).win 1).index _ (1 : Fin 3) * 1 + 1
    rw [index2_1_mid]; omega
  | ⟨2, _⟩ =>
    show ((cfg2 a).win 1).index _ (2 : Fin 3) * 64 ≤ (i 2).val ∧ (i 2).val < ((cfg2 a).win 1).index _ (2 : Fin 3) * 64 + 64
    rw [index2_1_col]; omega

/-- The output array after the last point, as a function: every row is written back once, with the source row the
    table names. -/
theorem final2_fun (c : Dev nD) : (dat2 V a c).arrAt 1 (cfg2 a).N = G2 V a c :=
  (dat2 V a c).arrAt_eq_of_cover 1 (G2 V a c) (fun t _ => flushed2_eq V a c t) (cover2 a)

/-- The output array after the last point, index by index. -/
theorem final2 (c : Dev nD) (i : S2048x1x64.Idx) : (dat2 V a c).arrAt 1 (cfg2 a).N i = V c main_v20 (row2 a i) :=
  congrFun (final2_fun V a c) i

/-- The coordinates of the source row read. -/
theorem row2_row (i : S2048x1x64.Idx) : (row2 a i 0).val = (a.1 0 (idx2 (i 0))).toNat := rfl
theorem row2_mid (i : S2048x1x64.Idx) : (row2 a i 1).val = 0 := rfl
theorem row2_col (i : S2048x1x64.Idx) : (row2 a i 2).val = (i 2).val := rfl

end Cert.KernelIdeal.Hand

end
-- ==== Proof.KI.Region3.lean ====
/-
  Region 3 of @main, the row gather whose input block index is read off a prefetched table: at point t the input window's
  block is row table[t] of the [150000, 1, 64] source and the output window's block is row t of the [8192, 1, 64] result;
  the body copies the one into the other. The pipeline's proof data at the entry contents `V` and admissible table
  contents `a`, the body obligation, and the output array after the last point.
-/
import proofs.«413445_j54949811585067_2_alg».proof.Proof.Gen.KernelIdeal.Launch
import proofs.«413445_j54949811585067_2_alg».proof.Proof.Gen.KernelIdeal.Skeleton
import proofs.«413445_j54949811585067_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg3 (F := F)).Adm)

/-- Window `w`'s block at point `t`, read off its array as the region finds it. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef (cfg3 a).spec w))

/-- The whole 1×1×64 staging block. -/
abbrev r3 : Rect S1x1x64 := Rect.unit (s := S1x1x64) ![0, 0, 0] S1x1x64.size inb_S1x1x64_S1x1x64_0_0_0

/-- The output window's buffer after the body: its one store, of the loaded input block. -/
def out3_1 (x0 : Vec F S1x1x64 .f32) : Vec F S1x1x64 .f32 :=
  View.canon [⟨r3, k3_pay1 (View.ld x0 r3)⟩]

/-- The proof data of pipeline 3 on core `c`: the invariant keeps, beside the class's scoped rest and generator register,
    the prefetched table whole at the admitted contents. -/
def dat3 (c : Dev nD) : Dat τ (Elt F) Unit ℕ (UR sig nD τ) ℕ (cfg3 a) c where
  A w := V c (Pipeline.arrRef (cfg3 a).spec w)
  after w t := match w with
    | ⟨0, _⟩ => iblk3 V a c 0 t
    | ⟨1, _⟩ => out3_1 (iblk3 V a c 0 t)
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef (cfg3 a).spec w) := by
  dsimp only [dat3]

/-! ## The body at a point -/

/-- The staging memref each window is on at point `t`. -/
abbrev st3_0 (t : Fin (cfg3 a).N) := ((cfg3 a).win 0).stage ((cfg3 a).slots t 0)
abbrev st3_1 (t : Fin (cfg3 a).N) := ((cfg3 a).win 1).stage ((cfg3 a).slots t 1)

/-- The body as the pipeline calls it at point `t`: the table's whole memref, then the two current staging memrefs. -/
abbrev bodyAt3 (t : Fin (cfg3 a).N) : Prog (TpuEff nD τ sig (Elt F) Λ₀ .tc) PUnit :=
  cc3__gather_kernel (grid3.coords t) (Memref.whole main_v24) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))

/-! ## The input window's buffer -/

/-- The input window's current buffer holds its block at every point, fetched there or not: where no fetch happens
    the block index has not moved, and the body leaves the buffer as it found it. -/
theorem before3_0_of {c : Dev nD} (dat : Dat τ (Elt F) Unit ℕ (UR sig nD τ) ℕ (cfg3 a) c)
    (hA : dat.A 0 = V c (Pipeline.arrRef (cfg3 a).spec 0))
    (hafter : ∀ t, dat.after 0 t = iblk3 V a c 0 t) (t : Fin (cfg3 a).N) (d) : dat.before 0 t d = iblk3 V a c 0 t := by
  have hkeep : ∀ t, ((cfg3 a).win 0).cut ((cfg3 a).grid.coords t) (dat.after 0 t) = dat.blockOf 0 t := fun t => by
    rw [hafter]; unfold Dat.blockOf iblk3; rw [hA]; try rfl
  refine (dat.before_in_eq_fetched 0 rfl (fun _ => rfl) (fun _ _ _ => rfl) hkeep t d).trans ?_
  unfold Dat.fetched Dat.blockOf iblk3; rw [hA]; try rfl

/-! ## The body's one store -/

/-- The one store is of the whole 1×1×64 buffer, so every cell of it is written. -/
theorem cover3_1 (p0 : Vec F S1x1x64 .f32) (y : S1x1x64.Idx) :
    ∃ pc ∈ ([⟨r3, p0⟩] : List (View.Piece (Elt F) S1x1x64 .f32)), y ∈ pc.1.set :=
  View.cover_of_tiled [⟨r3, p0⟩] S1x1x64.size (by rfl) y

set_option maxHeartbeats 1000000 in
/-- The body on whole staging memrefs: the input's at `x0` and the output's at anything; it reads both, writes the
    output's with the input's contents, and never touches its first argument, the table. So it runs to any continuation
    that takes the input's buffer back as it was and the output's at `out3_1 x0`. -/
theorem sound_kernel3 (c : Dev nD) (E : Set ℕ) (i : grid3.Coords) (tb : Memref sig .tc .smem S8192 .i32) (htb : tb.IsWhole)
    (arg0 : Memref sig .tc .vmem S1x1x64 .f32) (harg0 : arg0.IsWhole) (arg1 : Memref sig .tc .vmem S1x1x64 .f32) (harg1 : arg1.IsWhole)
    (x0 : Vec F S1x1x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__gather_kernel i tb htb arg0 harg0 arg1 harg1) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The body obligation -/

theorem after3_0 (c : Dev nD) (t : Fin (cfg3 a).N) : (dat3 V a c).after 0 t = iblk3 V a c 0 t := by dsimp only [dat3]; rfl
theorem after3_1 (c : Dev nD) (t : Fin (cfg3 a).N) : (dat3 V a c).after 1 t = out3_1 (iblk3 V a c 0 t) := by dsimp only [dat3]; rfl

theorem before3_0 (c : Dev nD) (t : Fin (cfg3 a).N) (d) : (dat3 V a c).before 0 t d = iblk3 V a c 0 t :=
  before3_0_of V a (dat3 V a c) (A_eq3 V a c 0) (after3_0 V a c) t d

/-- What the body is handed at point `t`: the invariant (with the table in it), the core's debts, and the two current
    buffers, -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d)))

/-- and what it hands back. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t))

/-- The body at any point: the input's buffer holds its block, so the body's triple applies; the invariant, the table
    inside it, and the core's debts are not read and pass through. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0]
  rw [show (dat3 V a c).Φ t.succ = (dat3 V a c).Φ t.castSucc from rfl,
    show (dat3 V a c).owesAt () t.succ = (dat3 V a c).owesAt () t.castSucc from rfl,
    after3_0, after3_1]
  iintro ⟨HΦ, Ho, ⟨%d0, H0⟩, ⟨%d1, H1⟩⟩
  iapply (sound_kernel3 c Set.univ _ _ _ _ _ _ _ (iblk3 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V a c) (defs₀ (F := F)) Variants.none () Set.univ := fun t => by
  rw [bigSep_W3, bigSep_W3]
  exact sound_body3 V a c t

/-! ## The output array after the last point -/

/-- A row number of the table is inside its one axis. -/
theorem lt_size3 (k : Fin 8192) (b : Fin 1) : k.val < S8192.size b := by
  obtain rfl : b = 0 := Subsingleton.elim _ _
  exact k.isLt

/-- Row `k` of the table, as an index of it. -/
def idx3 (k : Fin 8192) : S8192.Idx := fun b => ⟨k.val, lt_size3 k b⟩

theorem N3_eq : (cfg3 a).N = 8192 := N_3

/-- The grid is one axis of 8192 points: point `t` has coordinate `t`. -/
theorem coords3_val (t : Fin grid3.N) : ((grid3.coords t) 0).val = t.val := by
  show t.val / grid3.stride 0 % grid3.bound 0 = t.val
  have h1 : grid3.stride 0 = 1 := by decide
  have h2 : grid3.bound 0 = 8192 := rfl
  have := t.isLt
  have h3 : grid3.N = 8192 := N_3
  rw [h1, h2, Nat.div_one]; omega

/-- The one-word rectangle the index map loads through, at the point's coordinate, names row `i 0` of the table. -/
theorem wordRect3_emb (i : grid3.Coords) :
    (Rect.unit (s := S8192) ![(Scalar.indexCast (BitVec.ofNat 32 (i 0).val)).toNat] S1.size (k3_off1_inb i)).emb
      (Shape.Idx.first (numel1_S1.symm ▸ Nat.one_pos)) = idx3 ⟨(i 0).val, (i 0).isLt⟩ := by
  funext b; apply Fin.ext
  obtain rfl : b = 0 := Subsingleton.elim _ _
  rw [Rect.emb_apply]
  show (BitVec.ofNat 32 (i 0).val).toNat + 1 * 0 = (i 0).val
  have hi : (i 0).val < 8192 := (i 0).isLt
  rw [BitVec.toNat_ofNat]; omega

/-- The word the index map loads at coordinates `i`, at any table contents, is the table at row `i 0`. -/
theorem word3_eq (pf : pre3.Contents (Elt F)) (i : grid3.Coords) :
    pf.at 0 (Rect.unit (s := S8192) ![(Scalar.indexCast (BitVec.ofNat 32 (i 0).val)).toNat] S1.size (k3_off1_inb i)) numel1_S1
      = pf 0 (idx3 ⟨(i 0).val, (i 0).isLt⟩) :=
  congrArg (pf 0) (wordRect3_emb i)

/-- The input's index map at any table contents: the leading block index is the table's word for the point, the
    others are zero. -/
theorem transform3_0_eq (pf : pre3.Contents (Elt F)) (i : grid3.Coords) :
    cc3_transform_0 k3_off1_inb numel1_S1 pf i = ![(pf 0 (idx3 ⟨(i 0).val, (i 0).isLt⟩)).toNat, 0, 0] := by
  unfold cc3_transform_0
  dsimp only
  exact congrArg (fun x => ![(pf 0 x).toNat, 0, 0]) (wordRect3_emb i)

/-- The output's index map: the leading block index is the point's coordinate, the others are zero. -/
theorem transform3_1_eq (i : grid3.Coords) : cc3_transform_1 i = ![(i 0).val, 0, 0] := by
  unfold cc3_transform_1
  dsimp only
  have hi : (i 0).val < 8192 := (i 0).isLt
  have e : (BitVec.ofNat 32 (i 0).val).toNat = (i 0).val := by rw [BitVec.toNat_ofNat]; omega
  rw [e]; rfl

theorem index3_0 (t : Fin (cfg3 a).N) : ((cfg3 a).win 0).index t = cc3_transform_0 k3_off1_inb numel1_S1 a.1 (grid3.coords t) := rfl
theorem index3_1 (t : Fin (cfg3 a).N) : ((cfg3 a).win 1).index t = cc3_transform_1 (grid3.coords t) := rfl

/-- The output window is written back at every point, whatever the table holds: its index map reads only the point. -/
theorem flush3_1 : ∀ t : Fin (cfg3 a).N, ((cfg3 a).win 1).flush t = true :=
  (by decide +kernel : ∀ t : Fin grid3.N, Pipeline.Window.flushOf grid3 true cc3_transform_1 t = true)

/-- The input's block index at point `t`: row the table's word for `t`, the one middle block, the one column block. -/
theorem index3_0_row (t : Fin (cfg3 a).N) : ((cfg3 a).win 0).index t (0 : Fin 3) = (a.1 0 (idx3 ⟨t.val, t.isLt⟩)).toNat := by
  rw [index3_0, transform3_0_eq]
  exact congrArg (fun k => (a.1 0 (idx3 k)).toNat) (Fin.ext (coords3_val t))
theorem index3_0_mid (t : Fin (cfg3 a).N) : ((cfg3 a).win 0).index t (1 : Fin 3) = 0 := by
  rw [index3_0, transform3_0_eq]; rfl
theorem index3_0_col (t : Fin (cfg3 a).N) : ((cfg3 a).win 0).index t (2 : Fin 3) = 0 := by
  rw [index3_0, transform3_0_eq]; rfl

/-- The output's block index at point `t`: row `t`, the one middle block, the one column block. -/
theorem index3_1_row (t : Fin (cfg3 a).N) : ((cfg3 a).win 1).index t (0 : Fin 3) = t.val := by
  rw [index3_1, transform3_1_eq]; exact coords3_val t
theorem index3_1_mid (t : Fin (cfg3 a).N) : ((cfg3 a).win 1).index t (1 : Fin 3) = 0 := by
  rw [index3_1, transform3_1_eq]; rfl
theorem index3_1_col (t : Fin (cfg3 a).N) : ((cfg3 a).win 1).index t (2 : Fin 3) = 0 := by
  rw [index3_1, transform3_1_eq]; rfl

/-- Every word of an admitted table is a row number of the source: the side condition, read at the word's point. -/
theorem word3_lt (k : Fin 8192) : (a.1 0 (idx3 k)).toNat < 150000 := by
  obtain ⟨h, -⟩ := a.2 (grid3.coords ⟨k.val, k.isLt⟩)
  have h0 := h 0
  rw [transform3_0_eq] at h0
  have e : (⟨((grid3.coords ⟨k.val, k.isLt⟩) 0).val, ((grid3.coords ⟨k.val, k.isLt⟩) 0).isLt⟩ : Fin 8192) = k :=
    Fin.ext (coords3_val ⟨k.val, k.isLt⟩)
  rw [e] at h0
  have h1 : ((a.1 0 (idx3 k)).toNat + 1) * 1 ≤ 150000 := h0
  omega

/-- The source row the output's index `i` reads: the table's word for `i`'s row, the one middle coordinate, `i`'s column. -/
def row3 (i : S8192x1x64.Idx) : S150000x1x64.Idx := fun b => match b with
  | ⟨0, _⟩ => ⟨(a.1 0 (idx3 (i 0))).toNat, word3_lt a (i 0)⟩
  | ⟨1, _⟩ => ⟨0, Nat.one_pos⟩
  | ⟨2, _⟩ => i 2

/-- What the output array ends holding: at each index, the source at the row the table names. -/
abbrev G3 (c : Dev nD) : S8192x1x64.Idx → Elt F .f32 := fun i => V c main_v25 (row3 a i)

theorem hz3 : (![0, 0, 0] : Fin 3 → Nat) = fun _ => 0 := funext fun b => by fin_cases b <;> rfl

/-- The stored value is the loaded block: the shape cast between them is of a shape to itself. -/
theorem pay3_eq (x : Vec F S1x1x64 .f32) : k3_pay1 x = x := by
  unfold k3_pay1; exact shapeCast_self _ _

/-- The output's buffer after the body is the input's block: the one store covers the buffer, and stores what the
    one load read, all of the input's buffer. -/
theorem out3_1_eq (x : Vec F S1x1x64 .f32) : out3_1 x = x := by
  unfold out3_1
  rw [View.canon_unit_zero hz3, pay3_eq, View.ld_unit_zero hz3]

theorem flushed3_eq (c : Dev nD) (t : Fin (cfg3 a).N) :
    (dat3 V a c).flushed 1 t = (((cfg3 a).win 1).blk t).view.read (Elt F) (G3 V a c) := by
  show ((cfg3 a).win 1).cut (grid3.coords t) ((dat3 V a c).after 1 t) = _
  rw [after3_1]
  funext j
  refine (congrFun (out3_1_eq (iblk3 V a c 0 t)) _).trans ?_
  show V c main_v25 ((((cfg3 a).win 0).blk t).view.emb (((cfg3 a).win 1).xinj (grid3.coords t) j))
     = V c main_v25 (row3 a ((((cfg3 a).win 1).blk t).view.emb j))
  refine congrArg (V c main_v25) ?_
  have hj0 : (j (0 : Fin 3)).val < 1 := (j (0 : Fin 3)).isLt
  have hj1 : (j (1 : Fin 3)).val < 1 := (j (1 : Fin 3)).isLt
  have h0 : (((((cfg3 a).win 1).blk t).view.emb j) (0 : Fin 3)).val = t.val := by
    show ((cfg3 a).win 1).index t (0 : Fin 3) * 1 + 1 * (j (0 : Fin 3)).val = t.val
    rw [index3_1_row]; omega
  have h2 : (((((cfg3 a).win 1).blk t).view.emb j) (2 : Fin 3)).val = (j (2 : Fin 3)).val := by
    show ((cfg3 a).win 1).index t (2 : Fin 3) * 64 + 1 * (j (2 : Fin 3)).val = (j (2 : Fin 3)).val
    rw [index3_1_col]; omega
  generalize (((cfg3 a).win 1).blk t).view.emb j = i' at h0 h2 ⊢
  have hb : ∀ b : Fin 3, ((((cfg3 a).win 0).blk t).view.emb (((cfg3 a).win 1).xinj (grid3.coords t) j) b).val = (row3 a i' b).val := fun b => by
    match b with
    | ⟨0, _⟩ =>
      have e : (a.1 0 (idx3 (i' (0 : Fin 3)))).toNat = (a.1 0 (idx3 ⟨t.val, t.isLt⟩)).toNat :=
        congrArg (fun k => (a.1 0 (idx3 k)).toNat) (Fin.ext h0)
      show ((cfg3 a).win 0).index t (0 : Fin 3) * 1 + 1 * (j (0 : Fin 3)).val = (a.1 0 (idx3 (i' (0 : Fin 3)))).toNat
      rw [index3_0_row]; omega
    | ⟨1, _⟩ =>
      show ((cfg3 a).win 0).index t (1 : Fin 3) * 1 + 1 * (j (1 : Fin 3)).val = 0
      rw [index3_0_mid]; omega
    | ⟨2, _⟩ =>
      show ((cfg3 a).win 0).index t (2 : Fin 3) * 64 + 1 * (j (2 : Fin 3)).val = (i' (2 : Fin 3)).val
      rw [index3_0_col]; omega
  funext b; apply Fin.ext
  exact hb b

/-- A rectangle of the whole output array, as a view of it, covers the rectangle's own indices. -/
theorem mem_slice_out3 (r : Rect main_v26.ty.shape) (i : main_v26.ty.shape.Idx) :
    i ∈ ((View.whole main_v26).slice r).set ↔ i ∈ r.set := by
  rw [View.set_slice_whole]

/-- An index of the output array is in point `t`'s block iff each coordinate is in the block's range on its axis. -/
theorem mem_blk3 (t : Fin (cfg3 a).N) (i : S8192x1x64.Idx) :
    i ∈ (((cfg3 a).win 1).blk t).view.set ↔ ∀ b : Fin 3, ((cfg3 a).win 1).index t b * S1x1x64.size b ≤ (i b).val
      ∧ (i b).val < ((cfg3 a).win 1).index t b * S1x1x64.size b + S1x1x64.size b := by
  exact (mem_slice_out3 (((cfg3 a).win 1).rect t) i).trans Rect.mem_set_unit

/-- Row `r` of the output array is written back at point `r`. -/
theorem cover3 (i : S8192x1x64.Idx) :
    ∃ t : Fin (cfg3 a).N, ((cfg3 a).win 1).flush t = true ∧ i ∈ (((cfg3 a).win 1).blk t).view.set := by
  refine ⟨⟨(i 0).val, (i 0).isLt⟩, flush3_1 a _, ?_⟩
  rw [mem_blk3]
  intro b
  have hi1 : (i 1).val < 1 := (i 1).isLt
  have hi2 : (i 2).val < 64 := (i 2).isLt
  match b with
  | ⟨0, _⟩ =>
    show ((cfg3 a).win 1).index _ (0 : Fin 3) * 1 ≤ (i 0).val ∧ (i 0).val < ((cfg3 a).win 1).index _ (0 : Fin 3) * 1 + 1
    rw [index3_1_row]; show (i 0).val * 1 ≤ (i 0).val ∧ (i 0).val < (i 0).val * 1 + 1; omega
  | ⟨1, _⟩ =>
    show ((cfg3 a).win 1).index _ (1 : Fin 3) * 1 ≤ (i 1).val ∧ (i 1).val < ((cfg3 a).win 1).index _ (1 : Fin 3) * 1 + 1
    rw [index3_1_mid]; omega
  | ⟨2, _⟩ =>
    show ((cfg3 a).win 1).index _ (2 : Fin 3) * 64 ≤ (i 2).val ∧ (i 2).val < ((cfg3 a).win 1).index _ (2 : Fin 3) * 64 + 64
    rw [index3_1_col]; omega

/-- The output array after the last point, as a function: every row is written back once, with the source row the
    table names. -/
theorem final3_fun (c : Dev nD) : (dat3 V a c).arrAt 1 (cfg3 a).N = G3 V a c :=
  (dat3 V a c).arrAt_eq_of_cover 1 (G3 V a c) (fun t _ => flushed3_eq V a c t) (cover3 a)

/-- The output array after the last point, index by index. -/
theorem final3 (c : Dev nD) (i : S8192x1x64.Idx) : (dat3 V a c).arrAt 1 (cfg3 a).N i = V c main_v25 (row3 a i) :=
  congrFun (final3_fun V a c) i

/-- The coordinates of the source row read. -/
theorem row3_row (i : S8192x1x64.Idx) : (row3 a i 0).val = (a.1 0 (idx3 (i 0))).toNat := rfl
theorem row3_mid (i : S8192x1x64.Idx) : (row3 a i 1).val = 0 := rfl
theorem row3_col (i : S8192x1x64.Idx) : (row3 a i 2).val = (i 2).val := rfl

end Cert.KernelIdeal.Hand

end
-- ==== Proof.KI.Run.lean ====
/-
  The run of @main over its four kernel regions. The prefetched tables' contents are fixed by the launch memory (the
  users' indices; the item indices shifted by 100000), so the pipelines are pinned at them once; each region's proof data
  is stated at the buffer contents its region is entered from, and what regions 0–3 leave in their output arrays are the
  pipelines' final arrays.
-/
import proofs.«413445_j54949811585067_2_alg».proof.Proof.KI.RunCond
import proofs.«413445_j54949811585067_2_alg».proof.Proof.KI.Tables
import proofs.«413445_j54949811585067_2_alg».proof.Proof.KI.Boundary
import proofs.«413445_j54949811585067_2_alg».proof.Proof.KI.Region0
import proofs.«413445_j54949811585067_2_alg».proof.Proof.KI.Region1
import proofs.«413445_j54949811585067_2_alg».proof.Proof.KI.Region2
import proofs.«413445_j54949811585067_2_alg».proof.Proof.KI.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hO : Ok m)

abbrev a1 : (pcfg1 (F := F)).Adm := ⟨tbl1 m, hO.1⟩
abbrev a2 : (pcfg2 (F := F)).Adm := ⟨tbl2 m, hO.2.1⟩
abbrev a3 : (pcfg3 (F := F)).Adm := ⟨tbl3 m, hO.2.2⟩

/-- The pipelines' admitted table contents. -/
def adm : (p : Fin 4) → (pcfgs (F := F) p).Adm
  | ⟨0, _⟩ => cfg0.toPCfg_adm
  | ⟨1, _⟩ => a1 m hO
  | ⟨2, _⟩ => a2 m hO
  | ⟨3, _⟩ => a3 m hO
  | ⟨_ + 4, h⟩ => absurd h (Nat.not_lt.2 (Nat.le_add_left _ _))

/-! ## What the regions leave, stage by stage -/

/-- A boundary valuation read at the TensorCore's references. -/
abbrev atRefs (W : Dev nD → Valuation τ sig (Elt F)) : (c : Dev nD) → (b : Ref sig .tc) → Buf (Elt F) ((c : Thread nD τ).loc b) := fun c b => W c b

/-- Region 0's output array after its last point. -/
def o2 (c : Dev nD) : Buf (Elt F) ((c : Thread nD τ).loc main_v14) := (dat0 (atRefs (V1 m)) c).arrAt 2 cfg0.N
def outsA : Outs (F := F) := fun _ r c => (Function.update (V1 m c) main_v14 (o2 m c) : Valuation τ sig (Elt F)) r
/-- Region 1's output array after its last point. -/
def o4 (c : Dev nD) : Buf (Elt F) ((c : Thread nD τ).loc main_v16) := (dat1 (atRefs (V3 m (outsA m))) (a1 m hO) c).arrAt 1 (cfg1 (a1 m hO)).N
def outsB : Outs (F := F) := fun J r c => match J with
  | 2 => outsA m 2 r c
  | _ => (Function.update (V3 m (outsA m) c) main_v16 (o4 m hO c) : Valuation τ sig (Elt F)) r
/-- Region 2's output array after its last point. -/
def o6 (c : Dev nD) : Buf (Elt F) ((c : Thread nD τ).loc main_v21) := (dat2 (atRefs (V5 m (outsB m hO))) (a2 m hO) c).arrAt 1 (cfg2 (a2 m hO)).N
def outsC : Outs (F := F) := fun J r c => match J with
  | 2 => outsA m 2 r c
  | 4 => outsB m hO 4 r c
  | _ => (Function.update (V5 m (outsB m hO) c) main_v21 (o6 m hO c) : Valuation τ sig (Elt F)) r
/-- Region 3's output array after its last point. -/
def o8 (c : Dev nD) : Buf (Elt F) ((c : Thread nD τ).loc main_v26) := (dat3 (atRefs (V7 m (outsC m hO))) (a3 m hO) c).arrAt 1 (cfg3 (a3 m hO)).N
def outsD : Outs (F := F) := fun J r c => match J with
  | 2 => outsA m 2 r c
  | 4 => outsB m hO 4 r c
  | 6 => outsC m hO 6 r c
  | _ => (Function.update (V7 m (outsC m hO) c) main_v26 (o8 m hO c) : Valuation τ sig (Elt F)) r

theorem outsD_2 (c : Dev nD) : outsD m hO 2 main_v14 c = o2 m c := by
  show (Function.update (V1 m c) main_v14 (o2 m c) : Valuation τ sig (Elt F)) main_v14 = _
  exact Function.update_self ..
theorem outsD_4 (c : Dev nD) : outsD m hO 4 main_v16 c = o4 m hO c := by
  show (Function.update (V3 m (outsA m) c) main_v16 (o4 m hO c) : Valuation τ sig (Elt F)) main_v16 = _
  exact Function.update_self ..
theorem outsD_6 (c : Dev nD) : outsD m hO 6 main_v21 c = o6 m hO c := by
  show (Function.update (V5 m (outsB m hO) c) main_v21 (o6 m hO c) : Valuation τ sig (Elt F)) main_v21 = _
  exact Function.update_self ..
theorem outsD_8 (c : Dev nD) : outsD m hO 8 main_v26 c = o8 m hO c := by
  show (Function.update (V7 m (outsC m hO) c) main_v26 (o8 m hO c) : Valuation τ sig (Elt F)) main_v26 = _
  exact Function.update_self ..

/-- The boundary valuations at the final unknowns are the staged ones. -/
theorem V3_D (c : Dev nD) : V3 m (outsD m hO) c = V3 m (outsA m) c := rfl
theorem V5_D (c : Dev nD) : V5 m (outsD m hO) c = V5 m (outsB m hO) c := rfl
theorem V7_D (c : Dev nD) : V7 m (outsD m hO) c = V7 m (outsC m hO) c := rfl

/-- Every pipeline's proof data, each at its region's entry contents. -/
def pdats : (p : Fin 4) → (c : Dev nD) → Dat τ (Elt F) Unit ℕ (UR sig nD τ) ℕ (Pipeline.pin (pcfgs (F := F)) (adm m hO) p) c
  | ⟨0, _⟩ => fun c => dat0 (atRefs (V1 m)) c
  | ⟨1, _⟩ => fun c => dat1 (atRefs (V3 m (outsA m))) (a1 m hO) c
  | ⟨2, _⟩ => fun c => dat2 (atRefs (V5 m (outsB m hO))) (a2 m hO) c
  | ⟨3, _⟩ => fun c => dat3 (atRefs (V7 m (outsC m hO))) (a3 m hO) c

/-! ## The tables as the regions find them -/

theorem dev0 (c : Dev nD) : c = 0 := Subsingleton.elim _ _

/-- Region 1 is entered with its table at the users' indices: no item before it writes `main_arg0`. -/
theorem tbl_at1 (c : Dev nD) : (fun k => atRefs (V3 m (outsA m)) c (pre1.ref k)) = tbl1 m := by
  obtain rfl := dev0 c
  funext k
  match k with
  | ⟨0, _⟩ =>
    exact (V3_of m _ 0 main_arg0 (by decide)).trans ((V2_of m _ 0 main_arg0 (by decide)).trans ((V1_of m 0 main_arg0 (by decide)).trans rfl))

/-! ## The thread state between items -/

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

theorem hF0 (c : Dev nD) : ∀ w : Fin cfg0.W, (pdats m hO 0 c).arrAt w cfg0.N = atRefs (V2 m (outsD m hO)) c (Pipeline.arrRef spec0 w)
  | ⟨0, _⟩ => (((pdats m hO 0 c).arrAt_in 0 rfl _).trans (A_eq0 (atRefs (V1 m)) c 0)).trans (V2_of m (outsD m hO) c main_v0 (by decide)).symm
  | ⟨1, _⟩ => (((pdats m hO 0 c).arrAt_in 1 rfl _).trans (A_eq0 (atRefs (V1 m)) c 1)).trans (V2_of m (outsD m hO) c main_v13 (by decide)).symm
  | ⟨2, _⟩ => by
    show o2 m c = (Function.update (V1 m c) main_v14 (outsD m hO 2 main_v14 c) : Valuation τ sig (Elt F)) main_v14
    rw [Function.update_self, outsD_2]
theorem hrest0 (c : Dev nD) : ∀ b, b ∉ Finset.univ.image (Pipeline.arrRef spec0) → atRefs (V2 m (outsD m hO)) c b = atRefs (V1 m) c b :=
  fun b hb => V2_of m (outsD m hO) c b (by
    intro h; rw [List.mem_singleton] at h; subst h
    exact hb (Finset.mem_image.mpr ⟨2, Finset.mem_univ _, rfl⟩))

set_option backward.isDefEq.respectTransparency.types false in
def reg0 : Pipeline.RegionSeg (pcfgs (F := F)) (adm m hO) (pdats m hO) () (defs₀ (F := F)) 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atRefs (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsD m hO) c) ∗ R c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (atRefs (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (atRefs (V1 m) c) (atRefs (V2 m (outsD m hO)) c) ((pdats m hO 0 c).arrAt · cfg0.N) (hF0 m hO c) (hrest0 m hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 is entered with its table at the positive items' indices shifted by 100000: the host stretch before it adds
    the broadcast constant to `main_arg1`, which no item writes. -/
theorem tbl_at2 (c : Dev nD) : (fun k => atRefs (V5 m (outsB m hO)) c (pre2.ref k)) = tbl2 m := by
  obtain rfl := dev0 c
  funext k
  match k with
  | ⟨0, _⟩ => exact V5_v19 m (outsB m hO) 0
/-- Region 3 likewise, over the negative items' indices. -/
theorem tbl_at3 (c : Dev nD) : (fun k => atRefs (V7 m (outsC m hO)) c (pre3.ref k)) = tbl3 m := by
  obtain rfl := dev0 c
  funext k
  match k with
  | ⟨0, _⟩ => exact V7_v24 m (outsC m hO) 0

/-! ## Region 1 -/

theorem hF1 (c : Dev nD) : ∀ w : Fin (cfg1 (a1 m hO)).W, (pdats m hO 1 c).arrAt w (cfg1 (a1 m hO)).N = atRefs (V4 m (outsD m hO)) c (Pipeline.arrRef spec1 w)
  | ⟨0, _⟩ => (((pdats m hO 1 c).arrAt_in 0 rfl _).trans (A_eq1 (atRefs (V3 m (outsA m))) (a1 m hO) c 0)).trans (V4_of m (outsD m hO) c main_v15 (by decide)).symm
  | ⟨1, _⟩ => by
    show o4 m hO c = (Function.update (V3 m (outsD m hO) c) main_v16 (outsD m hO 4 main_v16 c) : Valuation τ sig (Elt F)) main_v16
    rw [Function.update_self, outsD_4]
theorem hrest1 (c : Dev nD) : ∀ b, b ∉ Finset.univ.image (Pipeline.arrRef spec1) → atRefs (V4 m (outsD m hO)) c b = atRefs (V3 m (outsA m)) c b :=
  fun b hb => V4_of m (outsD m hO) c b (by
    intro h; rw [List.mem_singleton] at h; subst h
    exact hb (Finset.mem_image.mpr ⟨1, Finset.mem_univ _, rfl⟩))

set_option backward.isDefEq.respectTransparency.types false in
def reg1 : Pipeline.RegionSeg (pcfgs (F := F)) (adm m hO) (pdats m hO) () (defs₀ (F := F)) 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atRefs (V3 m (outsA m))) (a1 m hO) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outsD m hO) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (atRefs (V3 m (outsA m)) c)
  hentry c := by
    rw [Pipeline.ownSems0_none]
    have hsplit : (StableHlo.held (c : Thread nD τ) (Pipeline.ucRefs τ sig) (V3 m (outsA m) c) : sProp 𝕄)
        ⊢ iprop((pdats m hO 1 c).arrays ((pdats m hO 1 c).arrAt · 0) ∗ Pipeline.unscopedRest spec1 c (atRefs (V3 m (outsA m)) c)) := by
      have h := Pipeline.arrays_of_unscopedBufs (p := 1) (pcfgs (F := F)) (adm m hO) (pdats m hO) (launch1 (F := F)).win (launch1 (F := F)).arr_whole c
        ((pdats m hO 1 c).share_full fun _ => rfl) (atRefs (V3 m (outsA m)) c) fun _ => rfl
      rw [Pipeline.unscopedBufs_held] at h
      exact h
    rw [Pipeline.unscopedRest_split preFacts1 c, tbl_at1] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld (Ix := Unit) (Name := ℕ) (U := UR sig nD τ) (Lvl := ℕ) pre1 c (fun _ => fullShare) (tbl1 m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m hO 1 c).Φ (Fin.last _) = iprop(Pipeline.ΦA spec1 c ∗ Pipeline.prefHeld (Ix := Unit) (Name := ℕ) (U := UR sig nD τ) (Lvl := ℕ) pre1 c (fun _ => fullShare) (tbl1 m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin : iprop((pdats m hO 1 c).arrays ((pdats m hO 1 c).arrAt · (cfg1 (a1 m hO)).N) ∗ Pipeline.unscopedRest spec1 c (atRefs (V3 m (outsA m)) c))
        ⊢ (StableHlo.held (c : Thread nD τ) (Pipeline.ucRefs τ sig) (V4 m (outsD m hO) c) : sProp 𝕄) := by
      have h := Pipeline.unscopedBufs_of_arrays (p := 1) (pcfgs (F := F)) (adm m hO) (Ix := Unit) (Name := ℕ) (U := UR sig nD τ) (Lvl := ℕ)
        (launch1 (F := F)).win (launch1 (F := F)).arr_whole c (pdats m hO) ((pdats m hO 1 c).share_full fun _ => rfl)
        (atRefs (V3 m (outsA m)) c) (atRefs (V4 m (outsD m hO)) c) ((pdats m hO 1 c).arrAt · (cfg1 (a1 m hO)).N) (hF1 m hO c) (hrest1 m hO c)
      rw [Pipeline.unscopedBufs_held] at h
      exact h
    rw [Pipeline.unscopedRest_split preFacts1 c, tbl_at1] at hjoin
    iintro ⟨Ha, HO, ⟨HY, Htb⟩, Hrest⟩
    imodintro
    isplitl [Ha Hrest Htb]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## Region 2 -/

theorem hF2 (c : Dev nD) : ∀ w : Fin (cfg2 (a2 m hO)).W, (pdats m hO 2 c).arrAt w (cfg2 (a2 m hO)).N = atRefs (V6 m (outsD m hO)) c (Pipeline.arrRef spec2 w)
  | ⟨0, _⟩ => (((pdats m hO 2 c).arrAt_in 0 rfl _).trans (A_eq2 (atRefs (V5 m (outsB m hO))) (a2 m hO) c 0)).trans (V6_of m (outsD m hO) c main_v20 (by decide)).symm
  | ⟨1, _⟩ => by
    show o6 m hO c = (Function.update (V5 m (outsD m hO) c) main_v21 (outsD m hO 6 main_v21 c) : Valuation τ sig (Elt F)) main_v21
    rw [Function.update_self, outsD_6]
theorem hrest2 (c : Dev nD) : ∀ b, b ∉ Finset.univ.image (Pipeline.arrRef spec2) → atRefs (V6 m (outsD m hO)) c b = atRefs (V5 m (outsB m hO)) c b :=
  fun b hb => V6_of m (outsD m hO) c b (by
    intro h; rw [List.mem_singleton] at h; subst h
    exact hb (Finset.mem_image.mpr ⟨1, Finset.mem_univ _, rfl⟩))

set_option backward.isDefEq.respectTransparency.types false in
def reg2 : Pipeline.RegionSeg (pcfgs (F := F)) (adm m hO) (pdats m hO) () (defs₀ (F := F)) 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atRefs (V5 m (outsB m hO))) (a2 m hO) c).loose
  hwaits := Pipeline.hwaits_of_owed_zero _ _ _ _ L lv 2 fun _ _ => rfl
  pre c := iprop(StableHlo.held (c : Thread nD τ) (Pipeline.ucRefs τ sig) (V5 m (outsB m hO) c) ∗ R c)
  post c := iprop(StableHlo.held (c : Thread nD τ) (Pipeline.ucRefs τ sig) (V6 m (outsD m hO) c) ∗ R c)
  X c := iprop(∃ r, prngReg c r)
  Y c := iprop((∃ r, prngReg c r) ∗ Pipeline.prefHeld (Ix := Unit) (Name := ℕ) (U := UR sig nD τ) (Lvl := ℕ) pre2 c (fun _ => fullShare) (tbl2 m))
  Z c := Pipeline.unscopedRestP (Ix := Unit) (Name := ℕ) (U := UR sig nD τ) (Lvl := ℕ) pre2 spec2 c (atRefs (V5 m (outsB m hO)) c)
  hentry c := by
    rw [Pipeline.ownSems0_none]
    have hsplit : (StableHlo.held (c : Thread nD τ) (Pipeline.ucRefs τ sig) (V5 m (outsB m hO) c) : sProp 𝕄)
        ⊢ iprop((pdats m hO 2 c).arrays ((pdats m hO 2 c).arrAt · 0) ∗ Pipeline.unscopedRest spec2 c (atRefs (V5 m (outsB m hO)) c)) := by
      have h := Pipeline.arrays_of_unscopedBufs (p := 2) (pcfgs (F := F)) (adm m hO) (pdats m hO) (launch2 (F := F)).win (launch2 (F := F)).arr_whole c
        ((pdats m hO 2 c).share_full fun _ => rfl) (atRefs (V5 m (outsB m hO)) c) fun _ => rfl
      rw [Pipeline.unscopedBufs_held] at h
      exact h
    rw [Pipeline.unscopedRest_split preFacts2 c, tbl_at2] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 2 c).Φ 0 = iprop(Pipeline.ΦA spec2 c ∗ Pipeline.prefHeld (Ix := Unit) (Name := ℕ) (U := UR sig nD τ) (Lvl := ℕ) pre2 c (fun _ => fullShare) (tbl2 m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m hO 2 c).Φ (Fin.last _) = iprop(Pipeline.ΦA spec2 c ∗ Pipeline.prefHeld (Ix := Unit) (Name := ℕ) (U := UR sig nD τ) (Lvl := ℕ) pre2 c (fun _ => fullShare) (tbl2 m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin : iprop((pdats m hO 2 c).arrays ((pdats m hO 2 c).arrAt · (cfg2 (a2 m hO)).N) ∗ Pipeline.unscopedRest spec2 c (atRefs (V5 m (outsB m hO)) c))
        ⊢ (StableHlo.held (c : Thread nD τ) (Pipeline.ucRefs τ sig) (V6 m (outsD m hO) c) : sProp 𝕄) := by
      have h := Pipeline.unscopedBufs_of_arrays (p := 2) (pcfgs (F := F)) (adm m hO) (Ix := Unit) (Name := ℕ) (U := UR sig nD τ) (Lvl := ℕ)
        (launch2 (F := F)).win (launch2 (F := F)).arr_whole c (pdats m hO) ((pdats m hO 2 c).share_full fun _ => rfl)
        (atRefs (V5 m (outsB m hO)) c) (atRefs (V6 m (outsD m hO)) c) ((pdats m hO 2 c).arrAt · (cfg2 (a2 m hO)).N) (hF2 m hO c) (hrest2 m hO c)
      rw [Pipeline.unscopedBufs_held] at h
      exact h
    rw [Pipeline.unscopedRest_split preFacts2 c, tbl_at2] at hjoin
    iintro ⟨Ha, HO, ⟨HY, Htb⟩, Hrest⟩
    imodintro
    isplitl [Ha Hrest Htb]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## Region 3 -/

theorem hF3 (c : Dev nD) : ∀ w : Fin (cfg3 (a3 m hO)).W, (pdats m hO 3 c).arrAt w (cfg3 (a3 m hO)).N = atRefs (V8 m (outsD m hO)) c (Pipeline.arrRef spec3 w)
  | ⟨0, _⟩ => (((pdats m hO 3 c).arrAt_in 0 rfl _).trans (A_eq3 (atRefs (V7 m (outsC m hO))) (a3 m hO) c 0)).trans (V8_of m (outsD m hO) c main_v25 (by decide)).symm
  | ⟨1, _⟩ => by
    show o8 m hO c = (Function.update (V7 m (outsD m hO) c) main_v26 (outsD m hO 8 main_v26 c) : Valuation τ sig (Elt F)) main_v26
    rw [Function.update_self, outsD_8]
theorem hrest3 (c : Dev nD) : ∀ b, b ∉ Finset.univ.image (Pipeline.arrRef spec3) → atRefs (V8 m (outsD m hO)) c b = atRefs (V7 m (outsC m hO)) c b :=
  fun b hb => V8_of m (outsD m hO) c b (by
    intro h; rw [List.mem_singleton] at h; subst h
    exact hb (Finset.mem_image.mpr ⟨1, Finset.mem_univ _, rfl⟩))

set_option backward.isDefEq.respectTransparency.types false in
def reg3 : Pipeline.RegionSeg (pcfgs (F := F)) (adm m hO) (pdats m hO) () (defs₀ (F := F)) 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (atRefs (V7 m (outsC m hO))) (a3 m hO) c).loose
  hwaits := Pipeline.hwaits_of_owed_zero _ _ _ _ L lv 3 fun _ _ => rfl
  pre c := iprop(StableHlo.held (c : Thread nD τ) (Pipeline.ucRefs τ sig) (V7 m (outsC m hO) c) ∗ R c)
  post c := iprop(StableHlo.held (c : Thread nD τ) (Pipeline.ucRefs τ sig) (V8 m (outsD m hO) c) ∗ R c)
  X c := iprop(∃ r, prngReg c r)
  Y c := iprop((∃ r, prngReg c r) ∗ Pipeline.prefHeld (Ix := Unit) (Name := ℕ) (U := UR sig nD τ) (Lvl := ℕ) pre3 c (fun _ => fullShare) (tbl3 m))
  Z c := Pipeline.unscopedRestP (Ix := Unit) (Name := ℕ) (U := UR sig nD τ) (Lvl := ℕ) pre3 spec3 c (atRefs (V7 m (outsC m hO)) c)
  hentry c := by
    rw [Pipeline.ownSems0_none]
    have hsplit : (StableHlo.held (c : Thread nD τ) (Pipeline.ucRefs τ sig) (V7 m (outsC m hO) c) : sProp 𝕄)
        ⊢ iprop((pdats m hO 3 c).arrays ((pdats m hO 3 c).arrAt · 0) ∗ Pipeline.unscopedRest spec3 c (atRefs (V7 m (outsC m hO)) c)) := by
      have h := Pipeline.arrays_of_unscopedBufs (p := 3) (pcfgs (F := F)) (adm m hO) (pdats m hO) (launch3 (F := F)).win (launch3 (F := F)).arr_whole c
        ((pdats m hO 3 c).share_full fun _ => rfl) (atRefs (V7 m (outsC m hO)) c) fun _ => rfl
      rw [Pipeline.unscopedBufs_held] at h
      exact h
    rw [Pipeline.unscopedRest_split preFacts3 c, tbl_at3] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 3 c).Φ 0 = iprop(Pipeline.ΦA spec3 c ∗ Pipeline.prefHeld (Ix := Unit) (Name := ℕ) (U := UR sig nD τ) (Lvl := ℕ) pre3 c (fun _ => fullShare) (tbl3 m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m hO 3 c).Φ (Fin.last _) = iprop(Pipeline.ΦA spec3 c ∗ Pipeline.prefHeld (Ix := Unit) (Name := ℕ) (U := UR sig nD τ) (Lvl := ℕ) pre3 c (fun _ => fullShare) (tbl3 m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin : iprop((pdats m hO 3 c).arrays ((pdats m hO 3 c).arrAt · (cfg3 (a3 m hO)).N) ∗ Pipeline.unscopedRest spec3 c (atRefs (V7 m (outsC m hO)) c))
        ⊢ (StableHlo.held (c : Thread nD τ) (Pipeline.ucRefs τ sig) (V8 m (outsD m hO) c) : sProp 𝕄) := by
      have h := Pipeline.unscopedBufs_of_arrays (p := 3) (pcfgs (F := F)) (adm m hO) (Ix := Unit) (Name := ℕ) (U := UR sig nD τ) (Lvl := ℕ)
        (launch3 (F := F)).win (launch3 (F := F)).arr_whole c (pdats m hO) ((pdats m hO 3 c).share_full fun _ => rfl)
        (atRefs (V7 m (outsC m hO)) c) (atRefs (V8 m (outsD m hO)) c) ((pdats m hO 3 c).arrAt · (cfg3 (a3 m hO)).N) (hF3 m hO c) (hrest3 m hO c)
      rw [Pipeline.unscopedBufs_held] at h
      exact h
    rw [Pipeline.unscopedRest_split preFacts3 c, tbl_at3] at hjoin
    iintro ⟨Ha, HO, ⟨HY, Htb⟩, Hrest⟩
    imodintro
    isplitl [Ha Hrest Htb]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from `m` terminates, and the final memory holds at every unscoped buffer the last
    boundary's contents, the regions' outputs at the pipelines' final arrays. -/
theorem run : θ_run defs (onTc (τ := τ) (main (F := F))) ⟨m, fun _ => 0, ρ⟩ (fun r => ∀ c : Dev nD, ∀ b ∈ Pipeline.ucRefs τ sig,
      r.2.mem (((c : Thread nD τ)).1, b) = V9 m (outsD m hO) c b) :=
  run_cond m emb₁ () 𝒱₀ L lv (fun _ _ => rfl) ρ (outsD m hO) (adm m hO) (pdats m hO) 0 (fun _ => iprop(emp))
    (initOf (Pipeline.cells (Pipeline.pin (pcfgs (F := F)) (adm m hO)) (cellOf_inj (adm m hO))) (Pipeline.launchToks (Pipeline.pin (pcfgs (F := F)) (adm m hO)) (cellOf_inj (adm m hO))))
    (by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m hO) (fun _ => .rfl) (fun _ => .rfl)
    (reg1 m hO) (fun c => by rw [V3_D m hO c]; exact .rfl) (fun _ => .rfl)
    (reg2 m hO) (fun c => by rw [V5_D m hO c]; exact .rfl) (fun _ => .rfl)
    (reg3 m hO) (fun c => by rw [V7_D m hO c]; exact .rfl) (fun _ => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hO in
/-- The frame: no item writes an argument, so each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V9_main_arg0 m (outsD m hO) c),
     (h c _ (mem_uc main_arg1 (by decide))).trans (V9_main_arg1 m (outsD m hO) c),
     (h c _ (mem_uc main_arg2 (by decide))).trans (V9_main_arg2 m (outsD m hO) c),
     (h c _ (mem_uc main_arg3 (by decide))).trans (V9_main_arg3 m (outsD m hO) c),
     (h c _ (mem_uc main_arg4 (by decide))).trans (V9_main_arg4 m (outsD m hO) c),
     (h c _ (mem_uc main_arg5 (by decide))).trans (V9_main_arg5 m (outsD m hO) c),
     (h c _ (mem_uc main_arg6 (by decide))).trans (V9_main_arg6 m (outsD m hO) c),
     (h c _ (mem_uc main_arg7 (by decide))).trans (V9_main_arg7 m (outsD m hO) c),
     (h c _ (mem_uc main_arg8 (by decide))).trans (V9_main_arg8 m (outsD m hO) c),
     (h c _ (mem_uc main_arg9 (by decide))).trans (V9_main_arg9 m (outsD m hO) c)⟩)
    (run m ρ hO)

end Cert.KernelIdeal.Hand

end
-- ==== Proof.KI.OkOfRange.lean ====
/-
  The three prefetched index tables satisfy the gather pipelines' side condition whenever the indices are in range.

  Each gather window fetches, at grid point i, the [1, 1, 64] row block of the [150000, 1, 64] source whose first
  coordinate is the table word at i; the other two coordinates are 0. The block lies inside the source exactly when that
  word, read as a natural number, is below 150000. The first table holds the users' indices themselves (below 100000); the
  second and third hold item indices below 50000 shifted by 100000, and the shift does not wrap: a word below 50000 plus
  100000 is below 2³², so the sum's value is the sum of the values, which is below 150000. The elements are 32 bits
  wide, so the transfer ends are word-exact.

  The bound is proved for arbitrary table contents first and the launch memory's tables are put in last.
-/
import proofs.«413445_j54949811585067_2_alg».proof.Proof.KI.Tables

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## A block at row w of the [150000, 1, 64] source -/

/-- The [1, 1, 64] block with block coordinates (w, 0, 0) lies inside [150000, 1, 64] when w < 150000. -/
theorem block_inb (w : Nat) (hw : w < 150000) (a : Fin 3) :
    ((![w, 0, 0] : Fin 3 → Nat) a + 1) * S1x1x64.size a ≤ S150000x1x64.size a := by
  fin_cases a
  · show (w + 1) * 1 ≤ 150000; omega
  · show (0 + 1) * 1 ≤ 1; omega
  · show (0 + 1) * 64 ≤ 64; omega

/-! ## The side condition, at any contents whose words are below 150000 -/

theorem ok1_of_lt (pf : pre1.Contents (Elt F)) (hpf : ∀ k : S2048.Idx, (pf 0 k : BitVec 32).toNat < 150000) : ok1 pf := by
  intro i
  obtain ⟨w, hw, hlt⟩ : ∃ w, cc1_transform_0 k1_off1_inb numel1_S1 pf i = ![w, 0, 0] ∧ w < 150000 := ⟨_, rfl, hpf _⟩
  exact ⟨fun a => by rw [hw]; exact block_inb w hlt a, Or.inl rfl⟩

theorem ok2_of_lt (pf : pre2.Contents (Elt F)) (hpf : ∀ k : S2048.Idx, (pf 0 k : BitVec 32).toNat < 150000) : ok2 pf := by
  intro i
  obtain ⟨w, hw, hlt⟩ : ∃ w, cc2_transform_0 k2_off1_inb numel1_S1 pf i = ![w, 0, 0] ∧ w < 150000 := ⟨_, rfl, hpf _⟩
  exact ⟨fun a => by rw [hw]; exact block_inb w hlt a, Or.inl rfl⟩

theorem ok3_of_lt (pf : pre3.Contents (Elt F)) (hpf : ∀ k : S8192.Idx, (pf 0 k : BitVec 32).toNat < 150000) : ok3 pf := by
  intro i
  obtain ⟨w, hw, hlt⟩ : ∃ w, cc3_transform_0 k3_off1_inb numel1_S1 pf i = ![w, 0, 0] ∧ w < 150000 := ⟨_, rfl, hpf _⟩
  exact ⟨fun a => by rw [hw]; exact block_inb w hlt a, Or.inl rfl⟩

/-! ## The table words as numbers -/

/-- Adding 100000 to a word below 50000 does not wrap. -/
theorem toNat_add_shift (x : BitVec 32) (hx : x.toNat < 50000) : (IntOp.addi x 100000#32).toNat = 100000 + x.toNat := by
  show (x + 100000#32).toNat = _
  rw [BitVec.toNat_add, show (100000#32 : BitVec 32).toNat = 100000 from rfl, Nat.mod_eq_of_lt (by omega)]
  omega

variable (m : (ℓ : Loc nD τ sig) → Buf (Elt F) ℓ)

theorem tbl1_word (k : S2048.Idx) : tbl1 m 0 k = m (((0 : Dev nD) : Thread nD τ).loc main_arg0) k := rfl

theorem tbl2_word (h1 : ∀ k : S2048.Idx, (m (((0 : Dev nD) : Thread nD τ).loc main_arg1) k).toNat < 50000) (k : S2048.Idx) :
    (tbl2 m 0 k : BitVec 32).toNat = 100000 + (m (((0 : Dev nD) : Thread nD τ).loc main_arg1) k).toNat :=
  toNat_add_shift _ (h1 k)

theorem tbl3_word (h2 : ∀ k : S8192.Idx, (m (((0 : Dev nD) : Thread nD τ).loc main_arg2) k).toNat < 50000) (k : S8192.Idx) :
    (tbl3 m 0 k : BitVec 32).toNat = 100000 + (m (((0 : Dev nD) : Thread nD τ).loc main_arg2) k).toNat :=
  toNat_add_shift _ (h2 k)

/-! ## The launch memory's tables -/

theorem ok_of_range
    (h0 : ∀ k : S2048.Idx, (m (((0 : Dev nD) : Thread nD τ).loc main_arg0) k).toNat < 100000)
    (h1 : ∀ k : S2048.Idx, (m (((0 : Dev nD) : Thread nD τ).loc main_arg1) k).toNat < 50000)
    (h2 : ∀ k : S8192.Idx, (m (((0 : Dev nD) : Thread nD τ).loc main_arg2) k).toNat < 50000) : Ok m :=
  ⟨ok1_of_lt (tbl1 m) fun k => by rw [tbl1_word]; exact Nat.lt_trans (h0 k) (by omega),
   ok2_of_lt (tbl2 m) fun k => by rw [tbl2_word m h1 k]; have := h1 k; omega,
   ok3_of_lt (tbl3 m) fun k => by rw [tbl3_word m h2 k]; have := h2 k; omega⟩

end Cert.KernelIdeal.Hand

end
-- ==== Proof.HostChain.lean ====
/-
  The kernel program's first stretch of host operations is, operation for operation, the reference program's first
  operations: the concatenated table and the scattered sum it hands to the first region are the reference's values
  of the same name, as functions of the launch contents of the arguments.
-/
import proofs.«413445_j54949811585067_2_alg».proof.Proof.Gen.KernelIdeal.Regions
import proofs.«413445_j54949811585067_2_alg».proof.Proof.Gen.ReferenceIdeal.Read
import Idealize.ShloMosaic.Lib.StableHlo.Run

noncomputable section

namespace Cert.Proof.HostChain

open Idealize.ShloMosaic Idealize.ShloMosaic.TcCoe
open Idealize.ShloMosaic.StableHlo
open Cert.KernelIdeal (nD τ sig main_arg5 main_arg6 main_arg7 main_arg8 main_arg9)

variable {F : FTy → Type} [FloatOps F]
variable (m : (ℓ : Loc nD τ sig) → Buf (Elt F) ℓ)

/-! ## The two programs' dimension records are the same records -/

theorem gatherDims_eq :
    Cert.KernelIdeal.gather_S150000x64_S4000000x1_S4000000x64_1_0_n_n_0_1_164
      = Cert.ReferenceIdeal.gather_S150000x64_S4000000x1_S4000000x64_1_0_n_n_0_1_164 := rfl

theorem scatterDims_eq :
    Cert.KernelIdeal.scatter_S150000x64_S4000000x1_S4000000x64_1_0_0_1
      = Cert.ReferenceIdeal.scatter_S150000x64_S4000000x1_S4000000x64_1_0_0_1 := rfl

/-! ## The concatenated table -/

/-- `main_v0` after the first stretch: the two table arguments joined along the rows, the reference's `val_main_v0`. -/
theorem V1_v0 (c : Dev nD) : Cert.KernelIdeal.Gen.V1 m c Cert.KernelIdeal.main_v0
    = Cert.ReferenceIdeal.Read.val_main_v0 (F := F) (m ((c : Thread nD τ).loc main_arg5)) (m ((c : Thread nD τ).loc main_arg6)) := by
  show StableHlo.after Cert.KernelIdeal.Gen.hostOps0 (Cert.KernelIdeal.Gen.V0 m c) (Proc.devRef .tc Cert.KernelIdeal.main_v0) = _
  after_results
  rfl

/-! ## The scattered sum -/

/-- `main_v13` after the first stretch: the rows gathered from the table at the (wrapped) source indices, scaled by
    the weights and summed into a zero array at the destination indices — the reference's `val_main_v13`. -/
theorem V1_v13 (c : Dev nD) : Cert.KernelIdeal.Gen.V1 m c Cert.KernelIdeal.main_v13
    = Cert.ReferenceIdeal.Read.val_main_v13 (F := F) (m ((c : Thread nD τ).loc main_arg5)) (m ((c : Thread nD τ).loc main_arg6))
        (m ((c : Thread nD τ).loc main_arg7)) (m ((c : Thread nD τ).loc main_arg8)) (m ((c : Thread nD τ).loc main_arg9)) := by
  show StableHlo.after Cert.KernelIdeal.Gen.hostOps0 (Cert.KernelIdeal.Gen.V0 m c) (Proc.devRef .tc Cert.KernelIdeal.main_v13) = _
  after_results_simp
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c_0 Cert.ReferenceIdeal.Read.val_main_c
  rw [scatterDims_eq, gatherDims_eq]

end Cert.Proof.HostChain

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.RefValue.lean ====
/-
  The reference's three results read at an index: each is a row gather of the reference's combined embedding table
  light_out = (e0 + 3·ae0)/4, rows [0, 100000) for the users and rows [100000, 150000) for the items.
-/
import proofs.«413445_j54949811585067_2_alg».proof.Proof.Gen.ReferenceIdeal.Run
import proofs.«413445_j54949811585067_2_alg».proof.Proof.Gen.ReferenceIdeal.Read
import proofs.«413445_j54949811585067_2_alg».proof.Proof.LibGatherScatter

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Proof.GS

/-! ## The three float literals -/

/-- The pattern of `3.0`: exponent field 128, fraction field `2^22`, so `(2^23 + 2^22) · 2^(128 − 127 − 23) = 3`. -/
theorem ofBits_three : Ideal.ofBits .f32 0x40400000#32 = ((3 : ℝ) : EReal) := by
  simp [Ideal.ofBits, Ideal.ieee, -EReal.coe_mul]; norm_num

/-- The pattern of `4.0`: exponent field 129, fraction field 0, so `2^23 · 2^(129 − 127 − 23) = 4`. -/
theorem ofBits_four : Ideal.ofBits .f32 0x40800000#32 = ((4 : ℝ) : EReal) := by
  simp [Ideal.ofBits, Ideal.ieee, -EReal.coe_mul]; norm_num

/-- The pattern of `0.25`: exponent field 125, fraction field 0, so `2^23 · 2^(125 − 127 − 23) = 1/4`. -/
theorem ofBits_quarter : Ideal.ofBits .f32 0x3E800000#32 = (((1 / 4 : ℝ)) : EReal) := by
  simp [Ideal.ofBits, Ideal.ieee, -EReal.coe_mul]; norm_num

/-! ## The combined table at an index -/

/-- `light_out` at `i`: the sum of `e0` and three times `ae0`, times a quarter. The division by the real `4` is the
    product with `1/4` at every extended real. -/
theorem v18_apply (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (i : S150000x64.Idx) :
    Read.val_main_v18 (F := Ideal) x5 x6 x7 x8 x9 i
      = (Read.val_main_v0 (F := Ideal) x5 x6 i + ((3 : ℝ) : EReal) * Read.val_main_v13 (F := Ideal) x5 x6 x7 x8 x9 i)
          * (((1 / 4 : ℝ)) : EReal) := by
  rw [Read.val_main_v18_apply, Read.val_main_v17_apply, Read.val_main_cst_2_apply, Read.val_main_v16_apply,
    Read.val_main_v15_apply, Read.val_main_v14_apply, Read.val_main_cst_1_apply]
  rw [Ideal.hostDivf_def, Ideal.addf_def, Ideal.mulf_def, Ideal.ofBits_def, Ideal.ofBits_def, ofBits_three, ofBits_four]
  exact Ideal.div_coe (by norm_num) _

/-! ## Index words in range -/

/-- A 32-bit word below `2^31`, read signed, is its unsigned value. -/
theorem toInt_of_lt (b : BitVec 32) (h : b.toNat < 2 ^ 31) : b.toInt = (b.toNat : Int) := by
  rw [BitVec.toInt_eq_toNat_cond]
  split <;> omega

/-- The wrap of a negative index, `select (b < 0) (b + n) b`, is `b` itself at a word below `2^31`: such a word is not
    negative read signed. -/
theorem wrap_of_lt (b n : BitVec 32) (h : b.toNat < 2 ^ 31) :
    Scalar.select (IntOp.cmpi .slt b 0#32) (IntOp.addi b n) b = b := by
  refine if_neg (fun hc => ?_)
  have hneg := IntOp.cmpi_slt.mp hc
  rw [toInt_of_lt b h, BitVec.toInt_zero] at hneg
  omega

/-- A word below `N ≤ 2^31` is sent by the gather's clamp to the row of its unsigned value. -/
theorem row_of_lt {N : Nat} (hN : 0 < N) (hN' : N ≤ 2 ^ 31) (b : BitVec 32) (h : b.toNat < N) :
    row hN b = ⟨b.toNat, h⟩ :=
  row_of_toInt hN b ⟨b.toNat, h⟩ (toInt_of_lt b (by omega))

/-! ## The index constructors -/

/-- Row `r` (taken modulo the table's height, so that the index is total), column `j` of the combined table. -/
def row150 (r : ℕ) (j : Fin 64) : S150000x64.Idx := fun a => match a with
  | ⟨0, _⟩ => ⟨r % 150000, Nat.mod_lt _ (by decide)⟩
  | ⟨1, _⟩ => j

/-- The batch position of an element of a `[2048, 64]` result. -/
def k2048 (i : S2048x64.Idx) : S2048.Idx := fun a => match a with
  | ⟨0, _⟩ => ⟨(i 0).val, (i 0).isLt⟩

/-- The batch position of an element of an `[8192, 64]` result. -/
def k8192 (i : S8192x64.Idx) : S8192.Idx := fun a => match a with
  | ⟨0, _⟩ => ⟨(i 0).val, (i 0).isLt⟩

/-- Row `r < 100000` of the user slice is row `r` of the combined table. -/
theorem idx_v19_row (r : Fin 100000) (q : Fin 64) : Read.idx_main_v19 (ix2 r q) = row150 r.val ⟨q.val, q.isLt⟩ := by
  funext a
  match a with
  | ⟨0, _⟩ =>
    refine Fin.ext ?_
    show r.val = r.val % 150000
    have := r.isLt
    omega
  | ⟨1, _⟩ => rfl

/-- Row `r < 50000` of the item slice is row `100000 + r` of the combined table. -/
theorem idx_v20_row (r : Fin 50000) (q : Fin 64) :
    Read.idx_main_v20 (ix2 r q) = row150 (100000 + r.val) ⟨q.val, q.isLt⟩ := by
  funext a
  match a with
  | ⟨0, _⟩ =>
    refine Fin.ext ?_
    show 100000 + r.val = (100000 + r.val) % 150000
    have := r.isLt
    omega
  | ⟨1, _⟩ => rfl

/-- The batch position of `i` is the one-coordinate index `(i 0)`. -/
theorem k2048_eq (i : S2048x64.Idx) : k2048 i = ix1 (n := 2048) (i 0) := by
  funext a
  match a with
  | ⟨0, _⟩ => rfl

/-- The batch position of `i` is the one-coordinate index `(i 0)`. -/
theorem k8192_eq (i : S8192x64.Idx) : k8192 i = ix1 (n := 8192) (i 0) := by
  funext a
  match a with
  | ⟨0, _⟩ => rfl

/-! ## The three gathers at an index -/

/-- The user gather at `(e, q)`: the index word of `e` is below `100000`, so it is neither wrapped nor clamped, and the
    row it names in the slice `[0, 100000)` is the same row of `light_out`. -/
theorem v27_at (x0 : (⟨S2048, .i32⟩ : BufTy).Contents (Elt Ideal))
    (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (h : ∀ k : S2048.Idx, (x0 k).toNat < 100000) (e : Fin 2048) (q : Fin 64) :
    Read.val_main_v27 (F := Ideal) x0 x5 x6 x7 x8 x9 (ix2 e q)
      = Read.val_main_v18 (F := Ideal) x5 x6 x7 x8 x9 (row150 (x0 (ix1 e)).toNat q) := by
  have hk := h (ix1 e)
  have hidx : Read.idx_main_v26 (ix2 e (0 : Fin 1)) = ix1 e := by
    funext a
    match a with
    | ⟨0, _⟩ => rfl
  have hw : Read.val_main_v26 (F := Ideal) x0 (ix2 e (0 : Fin 1)) = x0 (ix1 e) := by
    rw [Read.val_main_v26_apply, Read.val_main_v25_apply, Read.val_main_v22_apply, Read.val_main_v24_apply,
      Read.val_main_v21_apply, Read.val_main_v23_apply, Read.val_main_c_3_apply, Read.val_main_c_4_apply, hidx]
    exact wrap_of_lt _ _ (by omega)
  have hg := gather_gathD_apply (N := 100000) (E := 2048) (D := 64) (by decide)
    Facts₀.gather_S100000x64_S2048x1_S2048x64_1_0_n_n_0_1_164_wf
    (Read.val_main_v19 (F := Ideal) x5 x6 x7 x8 x9) (Read.val_main_v26 (F := Ideal) x0) e q
  rw [hw, row_of_lt (by decide) (by decide) _ hk, Read.val_main_v19_apply, idx_v19_row] at hg
  exact hg

/-- The user rows: element `i = (e, q)` is `light_out` at row `users e`, column `q`. -/
theorem v27_apply (x0 : (⟨S2048, .i32⟩ : BufTy).Contents (Elt Ideal))
    (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (h : ∀ k : S2048.Idx, (x0 k).toNat < 100000) (i : S2048x64.Idx) :
    Read.val_main_v27 (F := Ideal) x0 x5 x6 x7 x8 x9 i
      = Read.val_main_v18 (F := Ideal) x5 x6 x7 x8 x9 (row150 (x0 (k2048 i)).toNat ⟨(i 1).val, (i 1).isLt⟩) :=
  (congrArg (Read.val_main_v27 (F := Ideal) x0 x5 x6 x7 x8 x9) (eq_ix2 i)).trans
    ((v27_at x0 x5 x6 x7 x8 x9 h (i 0) (i 1)).trans
      (congrArg (fun k => Read.val_main_v18 (F := Ideal) x5 x6 x7 x8 x9 (row150 (x0 k).toNat ⟨(i 1).val, (i 1).isLt⟩))
        (k2048_eq i).symm))

/-- The positive-item gather at `(e, q)`: the index word of `e` is below `50000`, so it is neither wrapped nor clamped,
    and the row it names in the slice `[100000, 150000)` is that row plus `100000` of `light_out`. -/
theorem v34_at (x1 : (⟨S2048, .i32⟩ : BufTy).Contents (Elt Ideal))
    (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (h : ∀ k : S2048.Idx, (x1 k).toNat < 50000) (e : Fin 2048) (q : Fin 64) :
    Read.val_main_v34 (F := Ideal) x1 x5 x6 x7 x8 x9 (ix2 e q)
      = Read.val_main_v18 (F := Ideal) x5 x6 x7 x8 x9 (row150 (100000 + (x1 (ix1 e)).toNat) q) := by
  have hk := h (ix1 e)
  have hidx : Read.idx_main_v33 (ix2 e (0 : Fin 1)) = ix1 e := by
    funext a
    match a with
    | ⟨0, _⟩ => rfl
  have hw : Read.val_main_v33 (F := Ideal) x1 (ix2 e (0 : Fin 1)) = x1 (ix1 e) := by
    rw [Read.val_main_v33_apply, Read.val_main_v32_apply, Read.val_main_v29_apply, Read.val_main_v31_apply,
      Read.val_main_v28_apply, Read.val_main_v30_apply, Read.val_main_c_5_apply, Read.val_main_c_6_apply, hidx]
    exact wrap_of_lt _ _ (by omega)
  have hg := gather_gathD_apply (N := 50000) (E := 2048) (D := 64) (by decide)
    Facts₀.gather_S50000x64_S2048x1_S2048x64_1_0_n_n_0_1_164_wf
    (Read.val_main_v20 (F := Ideal) x5 x6 x7 x8 x9) (Read.val_main_v33 (F := Ideal) x1) e q
  rw [hw, row_of_lt (by decide) (by decide) _ hk, Read.val_main_v20_apply, idx_v20_row] at hg
  exact hg

/-- The positive-item rows: element `i = (e, q)` is `light_out` at row `100000 + pos e`, column `q`. -/
theorem v34_apply (x1 : (⟨S2048, .i32⟩ : BufTy).Contents (Elt Ideal))
    (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (h : ∀ k : S2048.Idx, (x1 k).toNat < 50000) (i : S2048x64.Idx) :
    Read.val_main_v34 (F := Ideal) x1 x5 x6 x7 x8 x9 i
      = Read.val_main_v18 (F := Ideal) x5 x6 x7 x8 x9 (row150 (100000 + (x1 (k2048 i)).toNat) ⟨(i 1).val, (i 1).isLt⟩) :=
  (congrArg (Read.val_main_v34 (F := Ideal) x1 x5 x6 x7 x8 x9) (eq_ix2 i)).trans
    ((v34_at x1 x5 x6 x7 x8 x9 h (i 0) (i 1)).trans
      (congrArg (fun k => Read.val_main_v18 (F := Ideal) x5 x6 x7 x8 x9 (row150 (100000 + (x1 k).toNat) ⟨(i 1).val, (i 1).isLt⟩))
        (k2048_eq i).symm))

/-- The negative-item gather at `(e, q)`: as for the positive items, over `8192` batch positions. -/
theorem v41_at (x2 : (⟨S8192, .i32⟩ : BufTy).Contents (Elt Ideal))
    (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (h : ∀ k : S8192.Idx, (x2 k).toNat < 50000) (e : Fin 8192) (q : Fin 64) :
    Read.val_main_v41 (F := Ideal) x2 x5 x6 x7 x8 x9 (ix2 e q)
      = Read.val_main_v18 (F := Ideal) x5 x6 x7 x8 x9 (row150 (100000 + (x2 (ix1 e)).toNat) q) := by
  have hk := h (ix1 e)
  have hidx : Read.idx_main_v40 (ix2 e (0 : Fin 1)) = ix1 e := by
    funext a
    match a with
    | ⟨0, _⟩ => rfl
  have hw : Read.val_main_v40 (F := Ideal) x2 (ix2 e (0 : Fin 1)) = x2 (ix1 e) := by
    rw [Read.val_main_v40_apply, Read.val_main_v39_apply, Read.val_main_v36_apply, Read.val_main_v38_apply,
      Read.val_main_v35_apply, Read.val_main_v37_apply, Read.val_main_c_7_apply, Read.val_main_c_8_apply, hidx]
    exact wrap_of_lt _ _ (by omega)
  have hg := gather_gathD_apply (N := 50000) (E := 8192) (D := 64) (by decide)
    Facts₀.gather_S50000x64_S8192x1_S8192x64_1_0_n_n_0_1_164_wf
    (Read.val_main_v20 (F := Ideal) x5 x6 x7 x8 x9) (Read.val_main_v40 (F := Ideal) x2) e q
  rw [hw, row_of_lt (by decide) (by decide) _ hk, Read.val_main_v20_apply, idx_v20_row] at hg
  exact hg

/-- The negative-item rows: element `i = (e, q)` is `light_out` at row `100000 + neg e`, column `q`. -/
theorem v41_apply (x2 : (⟨S8192, .i32⟩ : BufTy).Contents (Elt Ideal))
    (x5 : (⟨S100000x64, .f32⟩ : BufTy).Contents (Elt Ideal)) (x6 : (⟨S50000x64, .f32⟩ : BufTy).Contents (Elt Ideal))
    (x7 x8 : (⟨S4000000, .i32⟩ : BufTy).Contents (Elt Ideal)) (x9 : (⟨S4000000, .f32⟩ : BufTy).Contents (Elt Ideal))
    (h : ∀ k : S8192.Idx, (x2 k).toNat < 50000) (i : S8192x64.Idx) :
    Read.val_main_v41 (F := Ideal) x2 x5 x6 x7 x8 x9 i
      = Read.val_main_v18 (F := Ideal) x5 x6 x7 x8 x9 (row150 (100000 + (x2 (k8192 i)).toNat) ⟨(i 1).val, (i 1).isLt⟩) :=
  (congrArg (Read.val_main_v41 (F := Ideal) x2 x5 x6 x7 x8 x9) (eq_ix2 i)).trans
    ((v41_at x2 x5 x6 x7 x8 x9 h (i 0) (i 1)).trans
      (congrArg (fun k => Read.val_main_v18 (F := Ideal) x5 x6 x7 x8 x9 (row150 (100000 + (x2 k).toNat) ⟨(i 1).val, (i 1).isLt⟩))
        (k8192_eq i).symm))

end Cert.ReferenceIdeal.RefValue

end
-- ==== Proof.Bridge.lean ====
/-
  The kernel's three results are the reference's. At the extended reals the kernel's combined table is
  (e0 + 3·ae0)·¼ and the reference's (e0 + 3·ae0)/4, one function (division by the real 4 is the product with ¼ on every
  extended real); e0 and ae0 are the same host operations of the same arguments in both programs. A result row of the
  kernel is the table's row named by the prefetched index word (the users' indices; the item indices plus 100000), and the
  reference's is the same row of its sliced table, for indices inside their ranges.
-/
import proofs.«413445_j54949811585067_2_alg».proof.Proof.KI.Run
import proofs.«413445_j54949811585067_2_alg».proof.Proof.KI.OkOfRange
import proofs.«413445_j54949811585067_2_alg».proof.Proof.HostChain
import proofs.«413445_j54949811585067_2_alg».proof.Proof.RefValue

set_option maxRecDepth 16384

noncomputable section

namespace Cert.Proof.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ)

/-- The index inputs lie in their ranges (on the one device). -/
structure InRange : Prop where
  users : ∀ k : S2048.Idx, (m (((0 : Dev nD) : Thread nD τ).loc main_arg0) k).toNat < 100000
  pos : ∀ k : S2048.Idx, (m (((0 : Dev nD) : Thread nD τ).loc main_arg1) k).toNat < 50000
  neg : ∀ k : S8192.Idx, (m (((0 : Dev nD) : Thread nD τ).loc main_arg2) k).toNat < 50000

variable (hR : InRange m)

abbrev okOf : Ok m := ok_of_range m hR.users hR.pos hR.neg

/-- The reference's combined table, of the kernel's launch memory. -/
abbrev lightR (c : Dev nD) : S150000x64.Idx → EReal :=
  Cert.ReferenceIdeal.Read.val_main_v18 (F := Ideal) (m ((c : Thread nD τ).loc main_arg5)) (m ((c : Thread nD τ).loc main_arg6))
    (m ((c : Thread nD τ).loc main_arg7)) (m ((c : Thread nD τ).loc main_arg8)) (m ((c : Thread nD τ).loc main_arg9))

/-- What region 0 leaves in its output array is the reference's combined table. -/
theorem o2_apply (c : Dev nD) (p : S150000x64.Idx) : o2 m c p = lightR m c p := by
  unfold o2
  rw [final0, light_apply]
  dsimp only [atRefs, lightR]
  rw [Cert.Proof.HostChain.V1_v0 m c, Cert.Proof.HostChain.V1_v13 m c, Cert.ReferenceIdeal.RefValue.v18_apply]

/-- Region 0's output array as the later regions find it. -/
theorem outsA_2 (c : Dev nD) : outsA m 2 main_v14 c = o2 m c := by
  show (Function.update (V1 m c) main_v14 (o2 m c) : Valuation τ sig (Elt Ideal)) main_v14 = _
  exact Function.update_self ..
theorem outsB_2 (hO : Ok m) (c : Dev nD) : outsB m hO 2 main_v14 c = o2 m c := outsA_2 m c
theorem outsC_2 (hO : Ok m) (c : Dev nD) : outsC m hO 2 main_v14 c = o2 m c := outsA_2 m c

/-- A word below 150000 names its own row of the combined table. -/
theorem mod_row {w : ℕ} (h : w < 150000) : w % 150000 = w := Nat.mod_eq_of_lt h

/-- The kernel's first result: row t is the combined table's row users[t]. -/
theorem res17 (c : Dev nD) : V9 m (outsD m (okOf m hR)) c main_v17
    = Cert.ReferenceIdeal.Read.val_main_v27 (F := Ideal) (m ((c : Thread nD τ).loc main_arg0)) (m ((c : Thread nD τ).loc main_arg5)) (m ((c : Thread nD τ).loc main_arg6))
        (m ((c : Thread nD τ).loc main_arg7)) (m ((c : Thread nD τ).loc main_arg8)) (m ((c : Thread nD τ).loc main_arg9)) := by
  obtain rfl := dev0 c
  funext i
  rw [V9_v17, outsD_4]
  unfold o4
  rw [final1, show atRefs (V3 m (outsA m)) 0 main_v15 = V3 m (outsA m) 0 main_v15 from rfl, V3_v15]
  rw [outsA_2, o2_apply, Cert.ReferenceIdeal.RefValue.v27_apply _ _ _ _ _ _ hR.users i]
  refine congrArg (lightR m 0) ?_
  funext b
  apply Fin.ext
  match b with
  | ⟨0, _⟩ =>
    show (tbl1 m 0 (idx1 (ins1 i 0)) : BitVec 32).toNat = ((m (((0 : Dev nD) : Thread nD τ).loc main_arg0) (Cert.ReferenceIdeal.RefValue.k2048 i)).toNat) % 150000
    have hk : idx1 (ins1 i 0) = Cert.ReferenceIdeal.RefValue.k2048 i := by
      funext a; apply Fin.ext
      match a with
      | ⟨0, _⟩ => rfl
    have hlt := hR.users (Cert.ReferenceIdeal.RefValue.k2048 i)
    rw [hk, mod_row (by omega)]
    rfl
  | ⟨1, _⟩ => rfl
  | ⟨_ + 2, h⟩ => exact absurd h (Nat.not_lt.2 (Nat.le_add_left _ _))

/-- The kernel's second result: row t is the combined table's row 100000 + pos_items[t]. -/
theorem res22 (c : Dev nD) : V9 m (outsD m (okOf m hR)) c main_v22
    = Cert.ReferenceIdeal.Read.val_main_v34 (F := Ideal) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  obtain rfl := dev0 c
  funext i
  rw [V9_v22, outsD_6]
  unfold o6
  rw [final2, show atRefs (V5 m (outsB m (okOf m hR))) 0 main_v20 = V5 m (outsB m (okOf m hR)) 0 main_v20 from rfl, V5_v20]
  rw [outsB_2, o2_apply, Cert.ReferenceIdeal.RefValue.v34_apply _ _ _ _ _ _ hR.pos i]
  refine congrArg (lightR m 0) ?_
  funext b
  apply Fin.ext
  match b with
  | ⟨0, _⟩ =>
    show (tbl2 m 0 (idx2 (ins1 i 0)) : BitVec 32).toNat = (100000 + (m (((0 : Dev nD) : Thread nD τ).loc main_arg1) (Cert.ReferenceIdeal.RefValue.k2048 i)).toNat) % 150000
    have hk : idx2 (ins1 i 0) = Cert.ReferenceIdeal.RefValue.k2048 i := by
      funext a; apply Fin.ext
      match a with
      | ⟨0, _⟩ => rfl
    have hlt := hR.pos (Cert.ReferenceIdeal.RefValue.k2048 i)
    rw [tbl2_word m hR.pos, hk, mod_row (by omega)]
  | ⟨1, _⟩ => rfl
  | ⟨_ + 2, h⟩ => exact absurd h (Nat.not_lt.2 (Nat.le_add_left _ _))

/-- The kernel's third result: row t is the combined table's row 100000 + neg_items[t]. -/
theorem res27 (c : Dev nD) : V9 m (outsD m (okOf m hR)) c main_v27
    = Cert.ReferenceIdeal.Read.val_main_v41 (F := Ideal) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) := by
  obtain rfl := dev0 c
  funext i
  rw [V9_v27, outsD_8]
  unfold o8
  rw [final3, show atRefs (V7 m (outsC m (okOf m hR))) 0 main_v25 = V7 m (outsC m (okOf m hR)) 0 main_v25 from rfl, V7_v25]
  rw [outsC_2, o2_apply, Cert.ReferenceIdeal.RefValue.v41_apply _ _ _ _ _ _ hR.neg i]
  refine congrArg (lightR m 0) ?_
  funext b
  apply Fin.ext
  match b with
  | ⟨0, _⟩ =>
    show (tbl3 m 0 (idx3 (ins1' i 0)) : BitVec 32).toNat = (100000 + (m (((0 : Dev nD) : Thread nD τ).loc main_arg2) (Cert.ReferenceIdeal.RefValue.k8192 i)).toNat) % 150000
    have hk : idx3 (ins1' i 0) = Cert.ReferenceIdeal.RefValue.k8192 i := by
      funext a; apply Fin.ext
      match a with
      | ⟨0, _⟩ => rfl
    have hlt := hR.neg (Cert.ReferenceIdeal.RefValue.k8192 i)
    rw [tbl3_word m hR.neg, hk, mod_row (by omega)]
  | ⟨1, _⟩ => rfl
  | ⟨_ + 2, h⟩ => exact absurd h (Nat.not_lt.2 (Nat.le_add_left _ _))

include hR in
/-- Both programs run, and end with the same three results: the reference's gathers of its combined table, of the
    kernel's launch memory. -/
theorem algebraic (ρ : Dev nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)) :
    ∃ (v0 : (c : Dev nD) → Buf (Elt Ideal) ((c.tc : Thread nD τ).loc main_v17)) (v1 : (c : Dev nD) → Buf (Elt Ideal) ((c.tc : Thread nD τ).loc main_v22)) (v2 : (c : Dev nD) → Buf (Elt Ideal) ((c.tc : Thread nD τ).loc main_v27)),
      θ_run (defs (F := Ideal)) (onTc (τ := τ) (main (F := Ideal))) ⟨m, fun _ => 0, ρ⟩ (fun r => ∀ c : Dev nD,
          r.2.mem ((c.tc : Thread nD τ).loc main_v17) = v0 c
          ∧ r.2.mem ((c.tc : Thread nD τ).loc main_v22) = v1 c
          ∧ r.2.mem ((c.tc : Thread nD τ).loc main_v27) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9))
      ∧ θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine ⟨fun c => Cert.ReferenceIdeal.Read.val_main_v27 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)),
    fun c => Cert.ReferenceIdeal.Read.val_main_v34 (F := Ideal) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)),
    fun c => Cert.ReferenceIdeal.Read.val_main_v41 (F := Ideal) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)), ?_, ?_⟩
  · refine (θ_run (defs (F := Ideal)) _ _).mono (fun r h c => ?_) (run m ρ (okOf m hR))
    exact ⟨(h c _ (mem_uc main_v17 (by decide))).trans (res17 m hR c),
      (h c _ (mem_uc main_v22 (by decide))).trans (res22 m hR c),
      (h c _ (mem_uc main_v27 (by decide))).trans (res27 m hR c),
      (h c _ (mem_uc main_arg0 (by decide))).trans (V9_main_arg0 m _ c),
      (h c _ (mem_uc main_arg1 (by decide))).trans (V9_main_arg1 m _ c),
      (h c _ (mem_uc main_arg2 (by decide))).trans (V9_main_arg2 m _ c),
      (h c _ (mem_uc main_arg3 (by decide))).trans (V9_main_arg3 m _ c),
      (h c _ (mem_uc main_arg4 (by decide))).trans (V9_main_arg4 m _ c),
      (h c _ (mem_uc main_arg5 (by decide))).trans (V9_main_arg5 m _ c),
      (h c _ (mem_uc main_arg6 (by decide))).trans (V9_main_arg6 m _ c),
      (h c _ (mem_uc main_arg7 (by decide))).trans (V9_main_arg7 m _ c),
      (h c _ (mem_uc main_arg8 (by decide))).trans (V9_main_arg8 m _ c),
      (h c _ (mem_uc main_arg9 (by decide))).trans (V9_main_arg9 m _ c)⟩
  · refine (θ_run (Cert.ReferenceIdeal.defs (F := Ideal)) _ _).mono (fun r h c => ?_) (Cert.ReferenceIdeal.Value.run (F := Ideal) m' ρ')
    obtain ⟨e0, e1, e2, rest⟩ := h c
    obtain ⟨g0, g1, g2, g3, g4, g5, g6, g7, g8, g9⟩ := hagree c
    refine ⟨?_, ?_, ?_, rest⟩
    · rw [e0, Cert.ReferenceIdeal.Read.val_main_v27_eq, g0, g5, g6, g7, g8, g9]
    · rw [e1, Cert.ReferenceIdeal.Read.val_main_v34_eq, g1, g5, g6, g7, g8, g9]
    · rw [e2, Cert.ReferenceIdeal.Read.val_main_v41_eq, g2, g5, g6, g7, g8, g9]

end Cert.Proof.Bridge

end
-- ==== Proof.lean ====
/-
  The certificate's claim. The kernel program (four pallas_calls: an elementwise combine of the ego embeddings with the
  propagated ones, then three row gathers whose block indices are read from prefetched index tables) and the reference
  compute, over the extended reals, the same three gathered blocks of (e0 + 3·ae0)/4 whenever the index inputs lie in
  their ranges — which the precondition states. The frames of the kernel and of its idealization are the run of @main
  over its regions with every argument read back unchanged; the reference's frame is its run with the results dropped.
-/
import proofs.«413445_j54949811585067_2_alg».proof.Defs
import proofs.«413445_j54949811585067_2_alg».proof.Proof.Gen.Kernel
import proofs.«413445_j54949811585067_2_alg».proof.Proof.Gen.KernelIdeal
import proofs.«413445_j54949811585067_2_alg».proof.Proof.Gen.ReferenceIdeal
import proofs.«413445_j54949811585067_2_alg».proof.Proof.Gen.Pre_finite_inputs
import proofs.«413445_j54949811585067_2_alg».proof.Proof.PreRange
import proofs.«413445_j54949811585067_2_alg».proof.Proof.K.Run
import proofs.«413445_j54949811585067_2_alg».proof.Proof.K.OkOfRange
import proofs.«413445_j54949811585067_2_alg».proof.Proof.Bridge
import Idealize.ShloMosaic.Adequacy
import Idealize.ShloMosaic.Init

noncomputable section

namespace Cert.Proof

open Idealize.ShloMosaic Idealize.SL.Sem

/-- The precondition bounds the three index inputs of the word-level program. -/
theorem okK (m : (ℓ : Loc Cert.Kernel.nD Cert.Kernel.τ Cert.Kernel.sig) → Buf (Elt Bits) ℓ) (h : Cert.Pre_Kernel m) : Cert.Kernel.Hand.Ok m := by
  have hr := Cert.Pre_finite_inputs.Range.range_of_pre (F := Bits) _ _ _ _ _ _ _ _ _ _ (h 0)
  exact Cert.Kernel.Hand.ok_of_range m hr.1 hr.2.1 hr.2.2

/-- The precondition bounds the three index inputs of the idealized program. -/
theorem inRange (m : (ℓ : Loc Cert.KernelIdeal.nD Cert.KernelIdeal.τ Cert.KernelIdeal.sig) → Buf (Elt Ideal) ℓ) (h : Cert.Pre_KernelIdeal m) : Cert.Proof.Bridge.InRange m := by
  have hr := Cert.Pre_finite_inputs.Range.range_of_pre (F := Ideal) _ _ _ _ _ _ _ _ _ _ (h 0)
  exact ⟨hr.1, hr.2.1, hr.2.2⟩

theorem frame_k : Cert.frame_Kernel := fun m ρ h => Cert.Kernel.Hand.frame m ρ (okK m h)

theorem frame_ki : Cert.frame_KernelIdeal := fun m ρ h =>
  Cert.KernelIdeal.Hand.frame m ρ (Cert.Proof.Bridge.okOf m (inRange m h))

theorem frame_ri : Cert.frame_ReferenceIdeal := fun m ρ _ =>
  (θ_run Cert.ReferenceIdeal.defs _ _).mono (fun _ h c => (h c).2.2.2) (Cert.ReferenceIdeal.Value.run (F := Ideal) m ρ)

theorem algebraic : Cert.algebraic_KernelIdeal_ReferenceIdeal := fun m ρ m' ρ' h hagree =>
  Cert.Proof.Bridge.algebraic m (inRange m h) ρ m' ρ' hagree

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
